-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  slices_S2x1600000_S1x1600000_1_0 : S2x1600000.Slices ![1, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x32 .f32) (main_arg1 : IVec S2x1600000 32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : IVec S1x1600000 32 := (extractStridedSlice S1x1600000 ![1, 0] · slices_S2x1600000_S1x1600000_1_0) main_arg1
  let main_v5 : IVec S1600000 32 := shapeCast S1600000 main_v4 shapeCasts_S1x1600000_S1600000
  let main_c_0 : IVec S_ 32 := constantI S_ 32 0#32
  let main_v6 : IVec S1600000 32 := broadcastInDim S1600000 ![] bcast_S_S1600000 main_c_0
  let main_v7 : IVec S1600000 1 := cmpi .sge main_v5 main_v6
  let main_v8 : IVec S1x1600000 32 := (extractStridedSlice S1x1600000 ![1, 0] · slices_S2x1600000_S1x1600000_1_0) main_arg1
  let main_v9 : IVec S1600000 32 := shapeCast S1600000 main_v8 shapeCasts_S1x1600000_S1600000
  let main_c_1 : IVec S_ 32 := constantI S_ 32 100000#32
  let main_v10 : IVec S1600000 32 := broadcastInDim S1600000 ![] bcast_S_S1600000 main_c_1
  let main_v11 : IVec S1600000 1 := cmpi .slt main_v9 main_v10
  let main_v12 : IVec S1600000 1 := andi main_v7 main_v11
  let main_c_2 : IVec S_ 1 := constantI S_ 1 1#1
  let main_v13 : IVec S_ 1 := (fun x v => Host.reduce IntOp.andi x v reducesTo_S1600000_S_d0 h_S_) main_v12 main_c_2
  let main_v14 : IVec S_ 1 := andi main_v3 main_v13
  main_v14
-- ==== Kernel.lean ====
abbrev S100000x32 : Shape := ⟨2, ![100000, 32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000x1 : Shape := ⟨2, ![100000, 1]⟩
abbrev S100000x33 : Shape := ⟨2, ![100000, 33]⟩
abbrev S100352x33 : Shape := ⟨2, ![100352, 33]⟩
abbrev S1601536 : Shape := ⟨1, ![1601536]⟩
abbrev S1x1601536 : Shape := ⟨2, ![1, 1601536]⟩
abbrev S1601536x33 : Shape := ⟨2, ![1601536, 33]⟩
abbrev S1x4096 : Shape := ⟨2, ![1, 4096]⟩
abbrev S1024x33 : Shape := ⟨2, ![1024, 33]⟩
abbrev S4096x33 : Shape := ⟨2, ![4096, 33]⟩
abbrev S1024x4096 : Shape := ⟨2, ![1024, 4096]⟩
abbrev S100352x32 : Shape := ⟨2, ![100352, 32]⟩
abbrev S1024x32 : Shape := ⟨2, ![1024, 32]⟩
abbrev S1024x1 : Shape := ⟨2, ![1024, 1]⟩

abbrev nBuf : Space → Nat
  | .hbm => 23
  | .vmem => 14
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S_, .f32⟩
  | .hbm, ⟨7, _⟩ => ⟨S100000x1, .f32⟩
  | .hbm, ⟨8, _⟩ => ⟨S100000x33, .f32⟩
  | .hbm, ⟨9, _⟩ => ⟨S_, .i32⟩
  | .hbm, ⟨10, _⟩ => ⟨S_, .f32⟩
  | .hbm, ⟨11, _⟩ => ⟨S100352x33, .f32⟩
  | .hbm, ⟨12, _⟩ => ⟨S_, .i32⟩
  | .hbm, ⟨13, _⟩ => ⟨S_, .i32⟩
  | .hbm, ⟨14, _⟩ => ⟨S1601536, .i32⟩
  | .hbm, ⟨15, _⟩ => ⟨S_, .i32⟩
  | .hbm, ⟨16, _⟩ => ⟨S_, .i32⟩
  | .hbm, ⟨17, _⟩ => ⟨S1601536, .i32⟩
  | .hbm, ⟨18, _⟩ => ⟨S1x1601536, .i32⟩
  | .hbm, ⟨19, _⟩ => ⟨S1x1601536, .i32⟩
  | .hbm, ⟨20, _⟩ => ⟨S1601536x33, .f32⟩
  | .hbm, ⟨21, _⟩ => ⟨S100352x32, .f32⟩
  | .hbm, ⟨22, _⟩ => ⟨S100000x32, .f32⟩
  | .local _ .vmem, ⟨0, _⟩ => ⟨S1x4096, .i32⟩
  | .local _ .vmem, ⟨1, _⟩ => ⟨S1x4096, .i32⟩
  | .local _ .vmem, ⟨2, _⟩ => ⟨S1024x33, .f32⟩
  | .local _ .vmem, ⟨3, _⟩ => ⟨S1024x33, .f32⟩
  | .local _ .vmem, ⟨4, _⟩ => ⟨S4096x33, .f32⟩
  | .local _ .vmem, ⟨5, _⟩ => ⟨S4096x33, .f32⟩
  | .local _ .vmem, ⟨6, _⟩ => ⟨S4096x33, .f32⟩
  | .local _ .vmem, ⟨7, _⟩ => ⟨S1x4096, .i32⟩
  | .local _ .vmem, ⟨8, _⟩ => ⟨S1x4096, .i32⟩
  | .local _ .vmem, ⟨9, _⟩ => ⟨S4096x33, .f32⟩
  | .local _ .vmem, ⟨10, _⟩ => ⟨S4096x33, .f32⟩
  | .local _ .vmem, ⟨11, _⟩ => ⟨S1024x32, .f32⟩
  | .local _ .vmem, ⟨12, _⟩ => ⟨S1024x32, .f32⟩
  | .local _ .vmem, ⟨13, _⟩ => ⟨S1024x33, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_c_0 : Ref sig .tc := ⟨.hbm, 12, rfl⟩
abbrev main_call1_v0 : Ref sig .tc := ⟨.hbm, 13, rfl⟩
abbrev main_v7 : Ref sig .tc := ⟨.hbm, 14, rfl⟩
abbrev main_c_1 : Ref sig .tc := ⟨.hbm, 15, rfl⟩
abbrev main_call2_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![391, 98], ![false, false]⟩

def k0_cond2 (i : grid0.Coords) : BitVec 1 :=
  let arg1 : BitVec 32 := BitVec.ofNat 32 (i 1).val
  let c97_i32 : BitVec 32 := 97#32
  let v23 : BitVec 1 := Scalar.cmpi .eq arg1 c97_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x33 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x33 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![98, 391], ![false, false]⟩

def k1_cond2 (i : grid1.Coords) : BitVec 1 :=
  let arg1 : BitVec 32 := BitVec.ofNat 32 (i 1).val
  let c390_i32 : BitVec 32 := 390#32
  let v23 : BitVec 1 := Scalar.cmpi .eq arg1 c390_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x33 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000x1 : S_.BroadcastsInDim S100000x1 (![] : Fin 0 → Fin S100000x1.rank)
  concatenates_S100000x32_S100000x1_S100000x33_d1 : Shape.Concatenates [S100000x32, S100000x1] S100000x33 1
  pads_S100000x33_S100352x33_03520_000 : S100000x33.Pads (![0, 0] : Fin 2 → Nat) ![352, 0] ![0, 0] S100352x33
  h_S_ : 0 < S_.numel
  pads_S1600000_S1601536_015360 : S1600000.Pads (![0] : Fin 1 → Nat) ![1536] ![0] S1601536
  shapeCasts_S1601536_S1x1601536 : S1601536.ShapeCasts S1x1601536
  inb_S4096x33_S4096x33_0_0 : ∀ a, (![0, 0] : Fin 2 → Nat) a + S4096x33.size a ≤ S4096x33.size a
  h_S4096x33 : 0 < S4096x33.numel
  shapeCasts_S4096x33_S4096x33 : S4096x33.ShapeCasts S4096x33
  iota_S1024x4096_d0_w32 : S1024x4096.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  natLt_1_32 : 1 < 32
  bitsLt_bf16_f32 : FTy.bits .bf16 < FTy.bits .f32
  inb_S1024x33_S1024x33_0_0 : ∀ a, (![0, 0] : Fin 2 → Nat) a + S1024x33.size a ≤ S1024x33.size a
  h_S1024x33 : 0 < S1024x33.numel
  shapeCasts_S1024x33_S1024x33 : S1024x33.ShapeCasts S1024x33
  slices_S1024x33_o0_0_S1024x32 : S1024x33.Slices ![0, 0] S1024x32
  slices_S1024x33_o0_32_S1024x1 : S1024x33.Slices ![0, 32] S1024x1
  broadcasts_S1024x1_S1024x32 : S1024x1.Broadcasts S1024x32
  inb_S1024x32_S1024x32_0_0 : ∀ a, (![0, 0] : Fin 2 → Nat) a + S1024x32.size a ≤ S1024x32.size a
  h_S1024x32 : 0 < S1024x32.numel
  slices_S100352x32_S100000x32_0_0 : S100352x32.Slices ![0, 0] S100000x32
  dot_S1024x4096_S1024x33_S4096x33_0_0_1_1_n_n_wf : DotDims.WF S1024x4096 S1024x33 S4096x33 [0] [0] [1] [1] [] []
  dot_S1024x4096_S4096x33_S1024x33_1_0_0_1_n_n_wf : DotDims.WF S1024x4096 S4096x33 S1024x33 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x1601536.size a
  hwx0_0 : ∀ i : grid0.Coords, EltTy.bits .i32 = 32 ∨ (Rect.block (s := S1x1601536) S1x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x33.size a ≤ S100352x33.size a
  hwx0_1 : ∀ i : grid0.Coords, EltTy.bits .f32 = 32 ∨ (Rect.block (s := S100352x33) S1024x33.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x33.size a ≤ S1601536x33.size a
  hwx0_2 : ∀ i : grid0.Coords, EltTy.bits .f32 = 32 ∨ (Rect.block (s := S1601536x33) S4096x33.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x1601536.size a
  hwx1_0 : ∀ i : grid1.Coords, EltTy.bits .i32 = 32 ∨ (Rect.block (s := S1x1601536) S1x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x33.size a ≤ S1601536x33.size a
  hwx1_1 : ∀ i : grid1.Coords, EltTy.bits .f32 = 32 ∨ (Rect.block (s := S1601536x33) S4096x33.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S100352x32.size a
  hwx1_2 : ∀ i : grid1.Coords, EltTy.bits .f32 = 32 ∨ (Rect.block (s := S100352x32) S1024x32.size (cc1_transform_2 i) (hinb1_2 i)).WholeWords (EltTy.packing .f32)

variable [Facts₀]

def dot_S1024x4096_S1024x33_S4096x33_0_0_1_1_n_n : DotDims S1024x4096 S1024x33 S4096x33 where
  lhsContracting := [0]
  rhsContracting := [0]
  lhsNonContracting := [1]
  rhsNonContracting := [1]
  lhsBatch := []
  rhsBatch := []
  wf := dot_S1024x4096_S1024x33_S4096x33_0_0_1_1_n_n_wf
def dot_S1024x4096_S4096x33_S1024x33_1_0_0_1_n_n : DotDims S1024x4096 S4096x33 S1024x33 where
  lhsContracting := [1]
  rhsContracting := [0]
  lhsNonContracting := [0]
  rhsNonContracting := [1]
  lhsBatch := []
  rhsBatch := []
  wf := dot_S1024x4096_S4096x33_S1024x33_1_0_0_1_n_n_wf

abbrev win0_0 : Pipeline.Window sig grid0 :=
  Pipeline.Window.ofSpec (Memref.whole main_v9) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x33.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4096x33.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v10) S1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4096x33.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1024x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S100000x32 : Shape := ⟨2, ![100000, 32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩

abbrev nBuf : Space → Nat
  | .hbm => 31
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1x1600000, .i32⟩
  | .hbm, ⟨3, _⟩ => ⟨S1600000, .i32⟩
  | .hbm, ⟨4, _⟩ => ⟨S1x1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x32, .f32⟩
  | .hbm, ⟨15, _⟩ => ⟨S_, .f32⟩
  | .hbm, ⟨16, _⟩ => ⟨S100000x32, .f32⟩
  | .hbm, ⟨17, _⟩ => ⟨S1600000x1, .i32⟩
  | .hbm, ⟨18, _⟩ => ⟨S100000x32, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x32, .f32⟩
  | .hbm, ⟨30, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.K.Base.lean ====
/-
  What the two tiled calls' frame proofs share.  Each call runs its body over a two-axis grid whose second axis is the
  reduction: the body zeroes a scratch accumulator at the axis's first position, adds one block product into it at every
  position, and copies it (the second call: its quotient form) into the output block at the last position.  So a grid
  point is in one of three cases by its position on the reduction axis — FIRST, MIDDLE, LAST — decided here in closed
  form over the linear point number (`t % 98`, `t % 391`), together with where the output window is idle and not written
  back (everywhere but LAST), the memrefs the body is called with, and each input window's block read off the array the
  call is entered with.
-/
import proofs.«414928_j58308476011188_1_alg».proof.Proof.Gen.Kernel.Launch
import proofs.«414928_j58308476011188_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-! ## The first call (gather): reduction axis of 98 positions -/

/-- Point `t` of the 391 × 98 grid sits at reduction position `t % 98` of edge block `t / 98` (row-major, last axis fastest). -/
theorem coord0_1 (t : Fin cfg0.N) : (grid0.coords t 1).val = t.val % 98 := by
  show t.val / grid0.stride 1 % 98 = _
  rw [show grid0.stride 1 = 1 from by decide, Nat.div_one]
theorem coord0_0 (t : Fin cfg0.N) : (grid0.coords t 0).val = t.val / 98 := by
  have hN : t.val < 38318 := lt_of_lt_of_eq t.isLt (show cfg0.N = 38318 from N_0)
  show t.val / grid0.stride 0 % 391 = _
  rw [show grid0.stride 0 = 98 from by decide]; omega

/-- "The reduction position is 0": the body zeroes its accumulator. -/
abbrev cond0_0 (i : grid0.Coords) : Prop := (Scalar.cmpi .ne (Scalar.extui (Scalar.cmpi .eq (BitVec.ofNat 32 (i 1).val) 0#32)) 0#32) = 1#1
theorem cond0_0_iff : ∀ j : Fin 98, (Scalar.cmpi .ne (Scalar.extui (Scalar.cmpi .eq (BitVec.ofNat 32 j.val) 0#32)) 0#32) = 1#1 ↔ j.val = 0 := by decide +kernel
theorem hcond0_0 (t : Fin cfg0.N) : cond0_0 (grid0.coords t) ↔ t.val % 98 = 0 := by
  have h := cond0_0_iff ⟨t.val % 98, Nat.mod_lt _ (by decide)⟩
  unfold cond0_0; rw [coord0_1]; exact h
/-- "The reduction position is the last": the body copies the accumulator out. -/
abbrev cond0_1 (i : grid0.Coords) : Prop := k0_cond2 i = 1#1
theorem cond0_1_iff : ∀ j : Fin 98, (Scalar.cmpi .ne (Scalar.extui (Scalar.cmpi .eq (BitVec.ofNat 32 j.val) 97#32)) 0#32) = 1#1 ↔ j.val = 97 := by decide +kernel
theorem hcond0_1 (t : Fin cfg0.N) : cond0_1 (grid0.coords t) ↔ t.val % 98 = 97 := by
  have h := cond0_1_iff ⟨t.val % 98, Nat.mod_lt _ (by decide)⟩
  unfold cond0_1 k0_cond2; dsimp only; rw [coord0_1]; exact h

theorem liveAt0_0 : ∀ t : Fin cfg0.N, cfg0.idle 0 (grid0.coords t) = false := fun _ => rfl
theorem liveAt0_1 : ∀ t : Fin cfg0.N, cfg0.idle 1 (grid0.coords t) = false := fun _ => rfl
/-- Off the last position the output window is idle; at it, live. -/
theorem idleAt0_2 (t : Fin cfg0.N) (h : ¬cond0_1 (grid0.coords t)) : cfg0.idle 2 (grid0.coords t) = true := by
  show (!(k0_cond2 (grid0.coords t) == 1#1)) = true
  simpa using h
theorem liveAt0_2 (t : Fin cfg0.N) (h : cond0_1 (grid0.coords t)) : cfg0.idle 2 (grid0.coords t) = false := by
  show (!(k0_cond2 (grid0.coords t) == 1#1)) = false
  simpa using h

/-- The output window's block index at point `t` is the edge block `t / 98`. -/
theorem index0_2 (t : Fin cfg0.N) : (cfg0.win 2).index t = ![t.val / 98, 0] := by
  have hN : t.val < 38318 := lt_of_lt_of_eq t.isLt (show cfg0.N = 38318 from N_0)
  show cc0_transform_2 (grid0.coords t) = _
  unfold cc0_transform_2; dsimp only
  rw [coord0_0, BitVec.toNat_ofNat, Nat.mod_eq_of_lt (by omega)]; rfl
/-- The output block is written back exactly at the last reduction position. -/
theorem flush0_2 (t : Fin cfg0.N) : (cfg0.win 2).flush t = true ↔ t.val % 98 = 97 := by
  have hN : t.val < 38318 := lt_of_lt_of_eq t.isLt (show cfg0.N = 38318 from N_0)
  unfold Window.flush
  have hNe : cfg0.grid.N = 38318 := N_0
  rw [show (cfg0.win 2).isOut = true from rfl, Bool.true_and, Bool.or_eq_true, decide_eq_true_eq, decide_eq_true_eq]
  constructor
  · rintro (h | ⟨h, hne⟩)
    · omega
    · rw [index0_2, index0_2] at hne
      by_contra hc
      exact hne (by show ![(t.val + 1) / 98, 0] = ![t.val / 98, 0]; rw [show (t.val + 1) / 98 = t.val / 98 from by omega])
  · intro h
    by_cases hl : t.val + 1 = 38318
    · exact .inl (hl.trans hNe.symm)
    · refine .inr ⟨by omega, ?_⟩
      rw [index0_2, index0_2]
      intro e
      have := congrFun e 0
      simp only [Matrix.cons_val_zero] at this
      omega
theorem noFlush0_2 (t : Fin cfg0.N) (h : ¬cond0_1 (grid0.coords t)) : (cfg0.win 2).flush t = false := by
  rw [← Bool.not_eq_true, flush0_2]; exact fun e => h ((hcond0_1 t).mpr e)

/-- The current staging memrefs of the three windows at point `t`, and the body as the pipeline calls it there. -/
abbrev bodyAt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (Memref.isWhole_whole _)

abbrev ms0_0 (t : Fin cfg0.N) : Memref sig .tc .vmem S1x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x33 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x33 .f32 := win0_2.stage (cfg0.slots t 2)
abbrev hs0_2 (t : Fin cfg0.N) : (ms0_2 t).IsWhole := hstage0_2 ((cfg0.slots t 2).cast nbuf0_2)
/-- The accumulator: a whole scoped buffer of the call's own. -/
abbrev scM0 : Memref sig .tc .vmem S4096x33 .f32 := Memref.whole cc0_scratch0

/-- The other call's scoped buffers, which ride along untouched: each whole at some contents. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The call's scoped rest and the generator register, with the accumulator split off as a memref owned at some contents. -/
theorem PhiA0_split (c : Dev nD) :
    (Pipeline.ΦA spec0 c : sProp 𝕄) ⊢ iprop((∃ d, owns (c : Thread nD τ) scM0 fullShare d) ∗ other0 c ∗ (∃ r, prngReg c r)) := by
  unfold Pipeline.ΦA other0; rw [scopedRest0_eq]; simp only [scM0, owns_whole]
  iintro ⟨⟨HS, Hr⟩, Hg⟩
  isplitl [HS]; · iexact HS
  isplitl [Hr]; · iexact Hr
  iexact Hg
theorem PhiA0_join (c : Dev nD) :
    iprop((∃ d, owns (c : Thread nD τ) scM0 fullShare d) ∗ other0 c ∗ (∃ r, prngReg c r)) ⊢ (Pipeline.ΦA spec0 c : sProp 𝕄) := by
  unfold Pipeline.ΦA other0; rw [scopedRest0_eq]; simp only [scM0, owns_whole]
  iintro ⟨HS, Hr, Hg⟩
  isplitl [HS Hr]
  · isplitl [HS]; · iexact HS
    iexact Hr
  iexact Hg

/-! ## The second call (scatter and mean): reduction axis of 391 positions -/

/-- Point `t` of the 98 × 391 grid sits at reduction position `t % 391` of node block `t / 391` (row-major, last axis fastest). -/
theorem coord1_1 (t : Fin cfg1.N) : (grid1.coords t 1).val = t.val % 391 := by
  show t.val / grid1.stride 1 % 391 = _
  rw [show grid1.stride 1 = 1 from by decide, Nat.div_one]
theorem coord1_0 (t : Fin cfg1.N) : (grid1.coords t 0).val = t.val / 391 := by
  have hN : t.val < 38318 := lt_of_lt_of_eq t.isLt (show cfg1.N = 38318 from N_1)
  show t.val / grid1.stride 0 % 98 = _
  rw [show grid1.stride 0 = 391 from by decide]; omega

/-- "The reduction position is 0": the body zeroes its accumulator. -/
abbrev cond1_0 (i : grid1.Coords) : Prop := (Scalar.cmpi .ne (Scalar.extui (Scalar.cmpi .eq (BitVec.ofNat 32 (i 1).val) 0#32)) 0#32) = 1#1
theorem cond1_0_iff : ∀ j : Fin 391, (Scalar.cmpi .ne (Scalar.extui (Scalar.cmpi .eq (BitVec.ofNat 32 j.val) 0#32)) 0#32) = 1#1 ↔ j.val = 0 := by decide +kernel
theorem hcond1_0 (t : Fin cfg1.N) : cond1_0 (grid1.coords t) ↔ t.val % 391 = 0 := by
  have h := cond1_0_iff ⟨t.val % 391, Nat.mod_lt _ (by decide)⟩
  unfold cond1_0; rw [coord1_1]; exact h
/-- "The reduction position is the last": the body stores the mean. -/
abbrev cond1_1 (i : grid1.Coords) : Prop := k1_cond2 i = 1#1
theorem cond1_1_iff : ∀ j : Fin 391, (Scalar.cmpi .ne (Scalar.extui (Scalar.cmpi .eq (BitVec.ofNat 32 j.val) 390#32)) 0#32) = 1#1 ↔ j.val = 390 := by decide +kernel
theorem hcond1_1 (t : Fin cfg1.N) : cond1_1 (grid1.coords t) ↔ t.val % 391 = 390 := by
  have h := cond1_1_iff ⟨t.val % 391, Nat.mod_lt _ (by decide)⟩
  unfold cond1_1 k1_cond2; dsimp only; rw [coord1_1]; exact h

theorem liveAt1_0 : ∀ t : Fin cfg1.N, cfg1.idle 0 (grid1.coords t) = false := fun _ => rfl
theorem liveAt1_1 : ∀ t : Fin cfg1.N, cfg1.idle 1 (grid1.coords t) = false := fun _ => rfl
/-- Off the last position the output window is idle; at it, live. -/
theorem idleAt1_2 (t : Fin cfg1.N) (h : ¬cond1_1 (grid1.coords t)) : cfg1.idle 2 (grid1.coords t) = true := by
  show (!(k1_cond2 (grid1.coords t) == 1#1)) = true
  simpa using h
theorem liveAt1_2 (t : Fin cfg1.N) (h : cond1_1 (grid1.coords t)) : cfg1.idle 2 (grid1.coords t) = false := by
  show (!(k1_cond2 (grid1.coords t) == 1#1)) = false
  simpa using h

/-- The output window's block index at point `t` is the node block `t / 391`. -/
theorem index1_2 (t : Fin cfg1.N) : (cfg1.win 2).index t = ![t.val / 391, 0] := by
  have hN : t.val < 38318 := lt_of_lt_of_eq t.isLt (show cfg1.N = 38318 from N_1)
  show cc1_transform_2 (grid1.coords t) = _
  unfold cc1_transform_2; dsimp only
  rw [coord1_0, BitVec.toNat_ofNat, Nat.mod_eq_of_lt (by omega)]; rfl
/-- The output block is written back exactly at the last reduction position. -/
theorem flush1_2 (t : Fin cfg1.N) : (cfg1.win 2).flush t = true ↔ t.val % 391 = 390 := by
  have hN : t.val < 38318 := lt_of_lt_of_eq t.isLt (show cfg1.N = 38318 from N_1)
  unfold Window.flush
  have hNe : cfg1.grid.N = 38318 := N_1
  rw [show (cfg1.win 2).isOut = true from rfl, Bool.true_and, Bool.or_eq_true, decide_eq_true_eq, decide_eq_true_eq]
  constructor
  · rintro (h | ⟨h, hne⟩)
    · omega
    · rw [index1_2, index1_2] at hne
      by_contra hc
      exact hne (by show ![(t.val + 1) / 391, 0] = ![t.val / 391, 0]; rw [show (t.val + 1) / 391 = t.val / 391 from by omega])
  · intro h
    by_cases hl : t.val + 1 = 38318
    · exact .inl (hl.trans hNe.symm)
    · refine .inr ⟨by omega, ?_⟩
      rw [index1_2, index1_2]
      intro e
      have := congrFun e 0
      simp only [Matrix.cons_val_zero] at this
      omega
theorem noFlush1_2 (t : Fin cfg1.N) (h : ¬cond1_1 (grid1.coords t)) : (cfg1.win 2).flush t = false := by
  rw [← Bool.not_eq_true, flush1_2]; exact fun e => h ((hcond1_1 t).mpr e)

/-- The current staging memrefs of the three windows at point `t`, and the body as the pipeline calls it there. -/
abbrev bodyAt1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)

abbrev ms1_0 (t : Fin cfg1.N) : Memref sig .tc .vmem S1x4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x33 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x32 .f32 := win1_2.stage (cfg1.slots t 2)
abbrev hs1_2 (t : Fin cfg1.N) : (ms1_2 t).IsWhole := hstage1_2 ((cfg1.slots t 2).cast nbuf1_2)
abbrev scM1 : Memref sig .tc .vmem S1024x33 .f32 := Memref.whole cc1_scratch0

/-- The other call's scoped buffers, which ride along untouched: each whole at some contents. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

theorem PhiA1_split (c : Dev nD) :
    (Pipeline.ΦA spec1 c : sProp 𝕄) ⊢ iprop((∃ d, owns (c : Thread nD τ) scM1 fullShare d) ∗ other1 c ∗ (∃ r, prngReg c r)) := by
  unfold Pipeline.ΦA other1; rw [scopedRest1_eq]; simp only [scM1, owns_whole]
  iintro ⟨⟨H1, H2, H3, H4, H5, H6, H7, HS⟩, Hg⟩
  isplitl [HS]; · iexact HS
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg
theorem PhiA1_join (c : Dev nD) :
    iprop((∃ d, owns (c : Thread nD τ) scM1 fullShare d) ∗ other1 c ∗ (∃ r, prngReg c r)) ⊢ (Pipeline.ΦA spec1 c : sProp 𝕄) := by
  unfold Pipeline.ΦA other1; rw [scopedRest1_eq]; simp only [scM1, owns_whole]
  iintro ⟨HS, ⟨H1, H2, H3, H4, H5, H6, H7⟩, Hg⟩
  isplitl [HS H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-! ## The windows' blocks, read off the arrays a call is entered with -/

section Blocks
variable (V : (c : Dev nD) → (b : Ref sig .tc) → Buf (Elt F) ((c : Thread nD τ).loc b))

/-- The first call's window `w` at point `t`: its block of the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the block
    index has not moved and the body left the buffer as it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The second call's window `w` at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Fr

end
-- ==== Proof.K.Run0.lean ====
/-
  The first call's body (gather) run symbolically in each of its three cases, on whole staging memrefs.  The body zeroes
  the accumulator when the reduction position is 0, then loads the index block, the feature block and the accumulator,
  stores accumulator + (one-hot of the indices)ᵀ · features back, and at the last position copies the accumulator into
  the output block.  Each run records, as lists of stored pieces, what the accumulator and (at the last position) the
  output block end with.
-/
import proofs.«414928_j58308476011188_1_alg».proof.Proof.K.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- FIRST position: the accumulator, found at anything, ends at its two stores' pieces; the output block is untouched. -/
noncomputable def kernelRun0_A (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : cond0_0 i) (hc1 : ¬cond0_1 i)
    (x0 : Vec F S1x4096 .i32) (x1 : Vec F S1024x33 .f32) :
    Σ' (L2 : List (View.Piece (Elt F) S4096x33 .f32)), { LS0 : List (View.Piece (Elt F) S4096x33 .f32) //
      ∀ (xi2 : Vec F S4096x33 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- MIDDLE position: the accumulator, found at `xs0`, ends at its one store's piece; the output block is untouched. -/
noncomputable def kernelRun0_B (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : ¬cond0_1 i)
    (x0 : Vec F S1x4096 .i32) (x1 : Vec F S1024x33 .f32) (xs0 : Vec F S4096x33 .f32) :
    Σ' (L2 : List (View.Piece (Elt F) S4096x33 .f32)), { LS0 : List (View.Piece (Elt F) S4096x33 .f32) //
      ∀ (xi2 : Vec F S4096x33 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- LAST position: the accumulator, found at `xs0`, ends at its one store's piece, and the output block, found at anything,
    at the piece copied out of it. -/
noncomputable def kernelRun0_C (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : cond0_1 i)
    (x0 : Vec F S1x4096 .i32) (x1 : Vec F S1024x33 .f32) (xs0 : Vec F S4096x33 .f32) :
    Σ' (L2 : List (View.Piece (Elt F) S4096x33 .f32)), { LS0 : List (View.Piece (Elt F) S4096x33 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.Dat0.lean ====
/-
  The first call (gather) point by point: what its accumulator and its output block hold after each grid point, the
  invariant that carries the accumulator from one point to the next, the proof data of its pipeline at the arrays the
  call is entered with, and the body's obligation at every point.

  After point `n` the accumulator holds the sum of the block products of the points since the last reset (the points
  whose number is ≡ 0 mod 98 reset it): `outsAt0 … n` follows the body's three cases by recursion on `n`.  The output
  block is stored at the last position only and is idle elsewhere.
-/
import proofs.«414928_j58308476011188_1_alg».proof.Proof.K.Run0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- A staging buffer of the output window, and the accumulator, as views: contents are stated through them. -/
abbrev VO0 : View sig .tc .vmem S4096x33 .f32 := (Memref.whole cc0_stg2_0 : Memref sig .tc .vmem S4096x33 .f32).view
abbrev VS0 : View sig .tc .vmem S4096x33 .f32 := scM0.view

/-! ## What each case leaves -/

/-- FIRST and MIDDLE store nothing into the output block: a placeholder nothing consults (the window is idle there). -/
def out0_A (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : cond0_0 i) (hc1 : ¬cond0_1 i)
    (x0 : Vec F S1x4096 .i32) (x1 : Vec F S1024x33 .f32) : Vec F S4096x33 .f32 :=
  VO0.read (Elt F) (VO0.writes (Elt F) VO0.junk (kernelRun0_A c i arg2 harg2 arg3 harg3 arg4 harg4 arg5 harg5 hc0 hc1 x0 x1).1)

theorem scover0_A (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : cond0_0 i) (hc1 : ¬cond0_1 i)
    (x0 : Vec F S1x4096 .i32) (x1 : Vec F S1024x33 .f32) (y : S4096x33.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S4096x33.size (by sl_kernel_rfl) y

/-- What FIRST leaves in the accumulator. -/
def sout0_A (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : cond0_0 i) (hc1 : ¬cond0_1 i)
    (x0 : Vec F S1x4096 .i32) (x1 : Vec F S1024x33 .f32) : Vec F S4096x33 .f32 :=
  VS0.read (Elt F) (VS0.writes (Elt F) VS0.junk (kernelRun0_A c i arg2 harg2 arg3 harg3 arg4 harg4 arg5 harg5 hc0 hc1 x0 x1).2.1)

def out0_B (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : ¬cond0_1 i)
    (x0 : Vec F S1x4096 .i32) (x1 : Vec F S1024x33 .f32) (xs0 : Vec F S4096x33 .f32) : Vec F S4096x33 .f32 :=
  VO0.read (Elt F) (VO0.writes (Elt F) VO0.junk (kernelRun0_B c i arg2 harg2 arg3 harg3 arg4 harg4 arg5 harg5 hc0 hc1 x0 x1 xs0).1)

theorem scover0_B (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : ¬cond0_1 i)
    (x0 : Vec F S1x4096 .i32) (x1 : Vec F S1024x33 .f32) (xs0 : Vec F S4096x33 .f32) (y : S4096x33.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S4096x33.size (by sl_kernel_rfl) y

/-- What MIDDLE leaves in the accumulator, over what it found there. -/
def sout0_B (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : ¬cond0_1 i)
    (x0 : Vec F S1x4096 .i32) (x1 : Vec F S1024x33 .f32) (xs0 : Vec F S4096x33 .f32) : Vec F S4096x33 .f32 :=
  VS0.read (Elt F) (VS0.writes (Elt F) VS0.junk (kernelRun0_B c i arg2 harg2 arg3 harg3 arg4 harg4 arg5 harg5 hc0 hc1 x0 x1 xs0).2.1)

theorem cover0_C (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : cond0_1 i)
    (x0 : Vec F S1x4096 .i32) (x1 : Vec F S1024x33 .f32) (xs0 : Vec F S4096x33 .f32) (y : S4096x33.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S4096x33.size (by sl_kernel_rfl) y

/-- What LAST leaves in the output block. -/
def out0_C (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : cond0_1 i)
    (x0 : Vec F S1x4096 .i32) (x1 : Vec F S1024x33 .f32) (xs0 : Vec F S4096x33 .f32) : Vec F S4096x33 .f32 :=
  VO0.read (Elt F) (VO0.writes (Elt F) VO0.junk (kernelRun0_C c i arg2 harg2 arg3 harg3 arg4 harg4 arg5 harg5 hc0 hc1 x0 x1 xs0).1)

theorem scover0_C (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : cond0_1 i)
    (x0 : Vec F S1x4096 .i32) (x1 : Vec F S1024x33 .f32) (xs0 : Vec F S4096x33 .f32) (y : S4096x33.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S4096x33.size (by sl_kernel_rfl) y

/-- What LAST leaves in the accumulator. -/
def sout0_C (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : cond0_1 i)
    (x0 : Vec F S1x4096 .i32) (x1 : Vec F S1024x33 .f32) (xs0 : Vec F S4096x33 .f32) : Vec F S4096x33 .f32 :=
  VS0.read (Elt F) (VS0.writes (Elt F) VS0.junk (kernelRun0_C c i arg2 harg2 arg3 harg3 arg4 harg4 arg5 harg5 hc0 hc1 x0 x1 xs0).2.1)

section Data
variable (V : (c : Dev nD) → (b : Ref sig .tc) → Buf (Elt F) ((c : Thread nD τ).loc b))

/-! ## Point by point -/

/-- THE ACCUMULATION: the output block (first component) and the accumulator (second) after the body at point `n`:
    the case the point's position selects, run at the point's memrefs and input blocks, over what point `n - 1` left in
    the accumulator. -/
def outsAt0 (c : Dev nD) : (n : ℕ) → n < cfg0.N → Vec F S4096x33 .f32 × Vec F S4096x33 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 98 = 0 then
      if h1 : (n + 1) % 98 = 97 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 98 = 97 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
          sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2,
          sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 98 = 0) (h1 : ¬t.val % 98 = 97) :
    outsAt0 V c t.val t.isLt = (out0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t),
      sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 98 = 0) (h1 : ¬t.val % 98 = 97) :
    outsAt0 V c t.val t.isLt = (out0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 98 = 0) (h1 : t.val % 98 = 97) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the call's scoped rest at anything; afterwards the
    accumulator at what the point before left in it, and the generator register at some state. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ other0 c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare ((outsAt0 V c n hn).2) ∗ other0 c ∗ (∃ r, prngReg c r)) := rfl
theorem PhiS0_pos (c : Dev nD) (n : ℕ) (h : n ≤ cfg0.N) (hz : n ≠ 0) :
    PhiS0 V c n h = iprop(owns (c : Thread nD τ) scM0 fullShare ((outsAt0 V c (n - 1) (by omega)).2) ∗ other0 c ∗ (∃ r, prngReg c r)) := by
  cases n with
  | zero => exact absurd rfl hz
  | succ n => rfl

/-! ## The pipeline's proof data -/

/-- The proof data of the first call on core `c`, at the arrays it is entered with (`V`): after the body each input's
    buffer at its block, the output's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the point's position says which case it is in; the
    invariant hands the body the accumulator at what the point before left (at anything at the first point) and takes it
    back at this point's contents; the output block is handed back untouched off the last position. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 98 = 0
  · have h1 : ¬t.val % 98 = 97 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V c t, PhiS0_zero V c _ _ hz]
      iintro ⟨HP, Ho, ⟨%d0, H0⟩, ⟨%d1, H1⟩, ⟨%d2, H2⟩⟩
      ihave HP' := (PhiA0_split c) $$ HP
      icases HP' with ⟨HS0, Hr, Hg⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover0_A c _ _ _ _ _ _ _ _ _ _ _ _ _)
        isplitl [Hr]; · iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨HS0, Hr, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover0_A c _ _ _ _ _ _ _ _ _ _ _ _ _)
        isplitl [Hr]; · iexact Hr
        iexact Hg
      isplitl [Ho]; · iexact Ho
      isplitl [H0]; · iexact H0
      isplitl [H1]; · iexact H1
      iexists _; iexact H2
  · have hz : t.val ≠ 0 := fun e => h0 (by rw [e])
    by_cases h1 : t.val % 98 = 97
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨HS0, Hr, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0]
        · unfold owns; iexists _; isplitr
          swap; · iexact HS0
          ipureintro; exact View.read_writes_of_cover _ _ _ _ _ (scover0_C c _ _ _ _ _ _ _ _ _ _ _ _ _ _)
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨HS0, Hr, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover0_B c _ _ _ _ _ _ _ _ _ _ _ _ _ _)
        isplitl [Hr]; · iexact Hr
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 38318 := N_0; omega)]
  refine .trans ?_ (PhiA0_join c)
  iintro ⟨HS0, Hr, Hg⟩
  isplitl [HS0]
  · iexists _; iexact HS0
  isplitl [Hr]; · iexact Hr
  iexact Hg

end Data

end Cert.Kernel.Fr

end
-- ==== Proof.K.Run1.lean ====
/-
  The second call's body (scatter and mean) run symbolically in each of its three cases, on whole staging memrefs.  The
  body zeroes the accumulator when the reduction position is 0, then loads the index block, the gathered block and the
  accumulator, stores accumulator + (one-hot of the indices) · gathered back, and at the last position stores the
  accumulator's first 32 columns divided by the larger of its last column and 1 into the output block.  Each run records,
  as lists of stored pieces, what the accumulator and (at the last position) the output block end with.
-/
import proofs.«414928_j58308476011188_1_alg».proof.Proof.K.Base

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- FIRST position: the accumulator, found at anything, ends at its two stores' pieces; the output block is untouched. -/
noncomputable def kernelRun1_A (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : cond1_0 i) (hc1 : ¬cond1_1 i)
    (x0 : Vec F S1x4096 .i32) (x1 : Vec F S4096x33 .f32) :
    Σ' (L2 : List (View.Piece (Elt F) S1024x32 .f32)), { LS0 : List (View.Piece (Elt F) S1024x33 .f32) //
      ∀ (xi2 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- MIDDLE position: the accumulator, found at `xs0`, ends at its one store's piece; the output block is untouched. -/
noncomputable def kernelRun1_B (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : ¬cond1_1 i)
    (x0 : Vec F S1x4096 .i32) (x1 : Vec F S4096x33 .f32) (xs0 : Vec F S1024x33 .f32) :
    Σ' (L2 : List (View.Piece (Elt F) S1024x32 .f32)), { LS0 : List (View.Piece (Elt F) S1024x33 .f32) //
      ∀ (xi2 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- LAST position: the accumulator, found at `xs0`, ends at its one store's piece, and the output block, found at anything,
    at the piece computed from it. -/
noncomputable def kernelRun1_C (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : cond1_1 i)
    (x0 : Vec F S1x4096 .i32) (x1 : Vec F S4096x33 .f32) (xs0 : Vec F S1024x33 .f32) :
    Σ' (L2 : List (View.Piece (Elt F) S1024x32 .f32)), { LS0 : List (View.Piece (Elt F) S1024x33 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.K.Dat1.lean ====
/-
  The second call (scatter and mean) point by point: what its accumulator and its output block hold after each grid
  point, the invariant that carries the accumulator from one point to the next, the proof data of its pipeline at the
  arrays the call is entered with, and the body's obligation at every point.

  After point `n` the accumulator holds the sum of the block products of the points since the last reset (the points
  whose number is ≡ 0 mod 391 reset it): `outsAt1 … n` follows the body's three cases by recursion on `n`.  The output
  block (the accumulator's first 32 columns over the larger of its last column and 1) is stored at the last position only
  and is idle elsewhere.
-/
import proofs.«414928_j58308476011188_1_alg».proof.Proof.K.Run1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

/-- A staging buffer of the output window, and the accumulator, as views: contents are stated through them. -/
abbrev VO1 : View sig .tc .vmem S1024x32 .f32 := (Memref.whole cc1_stg2_0 : Memref sig .tc .vmem S1024x32 .f32).view
abbrev VS1 : View sig .tc .vmem S1024x33 .f32 := scM1.view

/-! ## What each case leaves -/

/-- FIRST and MIDDLE store nothing into the output block: a placeholder nothing consults (the window is idle there). -/
def out1_A (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : cond1_0 i) (hc1 : ¬cond1_1 i)
    (x0 : Vec F S1x4096 .i32) (x1 : Vec F S4096x33 .f32) : Vec F S1024x32 .f32 :=
  VO1.read (Elt F) (VO1.writes (Elt F) VO1.junk (kernelRun1_A c i arg2 harg2 arg3 harg3 arg4 harg4 arg5 harg5 hc0 hc1 x0 x1).1)

theorem scover1_A (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : cond1_0 i) (hc1 : ¬cond1_1 i)
    (x0 : Vec F S1x4096 .i32) (x1 : Vec F S4096x33 .f32) (y : S1024x33.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x33.size (by sl_kernel_rfl) y

/-- What FIRST leaves in the accumulator. -/
def sout1_A (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : cond1_0 i) (hc1 : ¬cond1_1 i)
    (x0 : Vec F S1x4096 .i32) (x1 : Vec F S4096x33 .f32) : Vec F S1024x33 .f32 :=
  VS1.read (Elt F) (VS1.writes (Elt F) VS1.junk (kernelRun1_A c i arg2 harg2 arg3 harg3 arg4 harg4 arg5 harg5 hc0 hc1 x0 x1).2.1)

def out1_B (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : ¬cond1_1 i)
    (x0 : Vec F S1x4096 .i32) (x1 : Vec F S4096x33 .f32) (xs0 : Vec F S1024x33 .f32) : Vec F S1024x32 .f32 :=
  VO1.read (Elt F) (VO1.writes (Elt F) VO1.junk (kernelRun1_B c i arg2 harg2 arg3 harg3 arg4 harg4 arg5 harg5 hc0 hc1 x0 x1 xs0).1)

theorem scover1_B (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : ¬cond1_1 i)
    (x0 : Vec F S1x4096 .i32) (x1 : Vec F S4096x33 .f32) (xs0 : Vec F S1024x33 .f32) (y : S1024x33.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x33.size (by sl_kernel_rfl) y

/-- What MIDDLE leaves in the accumulator, over what it found there. -/
def sout1_B (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : ¬cond1_1 i)
    (x0 : Vec F S1x4096 .i32) (x1 : Vec F S4096x33 .f32) (xs0 : Vec F S1024x33 .f32) : Vec F S1024x33 .f32 :=
  VS1.read (Elt F) (VS1.writes (Elt F) VS1.junk (kernelRun1_B c i arg2 harg2 arg3 harg3 arg4 harg4 arg5 harg5 hc0 hc1 x0 x1 xs0).2.1)

theorem cover1_C (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : cond1_1 i)
    (x0 : Vec F S1x4096 .i32) (x1 : Vec F S4096x33 .f32) (xs0 : Vec F S1024x33 .f32) (y : S1024x32.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x32.size (by sl_kernel_rfl) y

/-- What LAST leaves in the output block. -/
def out1_C (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : cond1_1 i)
    (x0 : Vec F S1x4096 .i32) (x1 : Vec F S4096x33 .f32) (xs0 : Vec F S1024x33 .f32) : Vec F S1024x32 .f32 :=
  VO1.read (Elt F) (VO1.writes (Elt F) VO1.junk (kernelRun1_C c i arg2 harg2 arg3 harg3 arg4 harg4 arg5 harg5 hc0 hc1 x0 x1 xs0).1)

theorem scover1_C (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : cond1_1 i)
    (x0 : Vec F S1x4096 .i32) (x1 : Vec F S4096x33 .f32) (xs0 : Vec F S1024x33 .f32) (y : S1024x33.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x33.size (by sl_kernel_rfl) y

/-- What LAST leaves in the accumulator. -/
def sout1_C (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : cond1_1 i)
    (x0 : Vec F S1x4096 .i32) (x1 : Vec F S4096x33 .f32) (xs0 : Vec F S1024x33 .f32) : Vec F S1024x33 .f32 :=
  VS1.read (Elt F) (VS1.writes (Elt F) VS1.junk (kernelRun1_C c i arg2 harg2 arg3 harg3 arg4 harg4 arg5 harg5 hc0 hc1 x0 x1 xs0).2.1)

section Data
variable (V : (c : Dev nD) → (b : Ref sig .tc) → Buf (Elt F) ((c : Thread nD τ).loc b))

/-! ## Point by point -/

/-- THE ACCUMULATION: the output block (first component) and the accumulator (second) after the body at point `n`:
    the case the point's position selects, run at the point's memrefs and input blocks, over what point `n - 1` left in
    the accumulator. -/
def outsAt1 (c : Dev nD) : (n : ℕ) → n < cfg1.N → Vec F S1024x32 .f32 × Vec F S1024x33 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 391 = 0 then
      if h1 : (n + 1) % 391 = 390 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
          sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 391 = 390 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2,
          sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 391 = 0) (h1 : ¬t.val % 391 = 390) :
    outsAt1 V c t.val t.isLt = (out1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t),
      sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 391 = 0) (h1 : ¬t.val % 391 = 390) :
    outsAt1 V c t.val t.isLt = (out1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 391 = 0) (h1 : t.val % 391 = 390) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the call's scoped rest at anything; afterwards the
    accumulator at what the point before left in it, and the generator register at some state. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ other1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare ((outsAt1 V c n hn).2) ∗ other1 c ∗ (∃ r, prngReg c r)) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ other1 c ∗ (∃ r, prngReg c r)) := by
  cases n with
  | zero => exact absurd rfl hz
  | succ n => rfl

/-! ## The pipeline's proof data -/

/-- The proof data of the second call on core `c`, at the arrays it is entered with (`V`): after the body each input's
    buffer at its block, the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point's position says which case it is in; the
    invariant hands the body the accumulator at what the point before left (at anything at the first point) and takes it
    back at this point's contents; the output block is handed back untouched off the last position. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 391 = 0
  · have h1 : ¬t.val % 391 = 390 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HP, Ho, ⟨%d0, H0⟩, ⟨%d1, H1⟩, ⟨%d2, H2⟩⟩
      ihave HP' := (PhiA1_split c) $$ HP
      icases HP' with ⟨HS0, Hr, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover1_A c _ _ _ _ _ _ _ _ _ _ _ _ _)
        isplitl [Hr]; · iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨HS0, Hr, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover1_A c _ _ _ _ _ _ _ _ _ _ _ _ _)
        isplitl [Hr]; · iexact Hr
        iexact Hg
      isplitl [Ho]; · iexact Ho
      isplitl [H0]; · iexact H0
      isplitl [H1]; · iexact H1
      iexists _; iexact H2
  · have hz : t.val ≠ 0 := fun e => h0 (by rw [e])
    by_cases h1 : t.val % 391 = 390
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨HS0, Hr, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0]
        · unfold owns; iexists _; isplitr
          swap; · iexact HS0
          ipureintro; exact View.read_writes_of_cover _ _ _ _ _ (scover1_C c _ _ _ _ _ _ _ _ _ _ _ _ _ _)
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨HS0, Hr, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover1_B c _ _ _ _ _ _ _ _ _ _ _ _ _ _)
        isplitl [Hr]; · iexact Hr
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 38318 := N_1; omega)]
  refine .trans ?_ (PhiA1_join c)
  iintro ⟨HS0, Hr, Hg⟩
  isplitl [HS0]
  · iexists _; iexact HS0
  isplitl [Hr]; · iexact Hr
  iexact Hg

end Data

end Cert.Kernel.Fr

end
-- ==== Proof.K.Main.lean ====
/-
  The whole program as a run: seven stretches of host operations, the gather call, the scatter-and-mean call, one
  last host operation (the slice that drops the padding rows).  Between two items every unscoped buffer of the core is
  held at named contents: the launch memory, then each host stretch applied, then each call's arrays at what its
  pipeline's write-backs leave.  The run ends with every unscoped buffer at the last of these contents, so the result
  array and the two argument arrays can be read off it.
-/
import proofs.«414928_j58308476011188_1_alg».proof.Proof.K.Dat0
import proofs.«414928_j58308476011188_1_alg».proof.Proof.K.Dat1
import proofs.«414928_j58308476011188_1_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Before the gather call: the launch memory with the seven host stretches applied, read at the core's references. -/
abbrev R7 : (c : Dev nD) → (b : Ref sig .tc) → Buf (Elt F) ((c : Thread nD τ).loc b) := fun c b => V7 m c b
/-- After the gather call: its arrays at what its pipeline leaves, every other buffer as before. -/
def W8 (c : Dev nD) : Valuation τ sig (Elt F) :=
  Pipeline.withArrays spec0 c (V7 m c) fun w => (dat0 (R7 m) c).arrAt w cfg0.N
theorem W8_arr (c : Dev nD) (w : Fin cfg0.W) :
    W8 m c (Proc.devRef .tc (Pipeline.arrRef spec0 w)) = (dat0 (R7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = V7 m c (Proc.devRef .tc b) := by
  unfold W8; exact Pipeline.withArrays_of_ne spec0 c _ _ b hb
abbrev R8 : (c : Dev nD) → (b : Ref sig .tc) → Buf (Elt F) ((c : Thread nD τ).loc b) := fun c b => W8 m c b
theorem hF0 (c : Dev nD) (w : Fin cfg0.W) : (dat0 (R7 m) c).arrAt w cfg0.N = R8 m c (Pipeline.arrRef spec0 w) :=
  (W8_arr m c w).symm
theorem hrest0 (c : Dev nD) : ∀ b, b ∉ Finset.univ.image (Pipeline.arrRef spec0) → R8 m c b = R7 m c b :=
  fun b hb => W8_of_ne m c b fun w e => hb (Finset.mem_image.mpr ⟨w, Finset.mem_univ _, e⟩)

/-- After the scatter-and-mean call. -/
def W9 (c : Dev nD) : Valuation τ sig (Elt F) :=
  Pipeline.withArrays spec1 c (W8 m c) fun w => (dat1 (R8 m) c).arrAt w cfg1.N
theorem W9_arr (c : Dev nD) (w : Fin cfg1.W) :
    W9 m c (Proc.devRef .tc (Pipeline.arrRef spec1 w)) = (dat1 (R8 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
abbrev R9 : (c : Dev nD) → (b : Ref sig .tc) → Buf (Elt F) ((c : Thread nD τ).loc b) := fun c b => W9 m c b
theorem hF1 (c : Dev nD) (w : Fin cfg1.W) : (dat1 (R8 m) c).arrAt w cfg1.N = R9 m c (Pipeline.arrRef spec1 w) :=
  (W9_arr m c w).symm
theorem hrest1 (c : Dev nD) : ∀ b, b ∉ Finset.univ.image (Pipeline.arrRef spec1) → R9 m c b = R8 m c b :=
  fun b hb => W9_of_ne m c b fun w e => hb (Finset.mem_image.mpr ⟨w, Finset.mem_univ _, e⟩)

/-- At the end: the closing slice applied. -/
abbrev W10 : Dev nD → Valuation τ sig (Elt F) := fun c => StableHlo.after hostOps2 (W9 m c)

/-- No item writes an argument array: each ends as launched. -/
theorem W10_main_arg0 (c : Dev nD) : W10 m c (Proc.devRef .tc main_arg0) = m ((c : Thread nD τ).loc main_arg0) :=
  (StableHlo.after_of_writes_sub hostOps2 _ hostOps2_writes (r := main_arg0) (by decide)).trans <|
    (W9_of_ne m c main_arg0 (by decide)).trans <| (W8_of_ne m c main_arg0 (by decide)).trans <|
    (V7_of m c main_arg0 (by decide)).trans <| (V6_of m c main_arg0 (by decide)).trans <| (V5_of m c main_arg0 (by decide)).trans <|
    (V4_of m c main_arg0 (by decide)).trans <| (V3_of m c main_arg0 (by decide)).trans <| (V2_of m c main_arg0 (by decide)).trans <|
    (V1_of m c main_arg0 (by decide)).trans rfl
theorem W10_main_arg1 (c : Dev nD) : W10 m c (Proc.devRef .tc main_arg1) = m ((c : Thread nD τ).loc main_arg1) :=
  (StableHlo.after_of_writes_sub hostOps2 _ hostOps2_writes (r := main_arg1) (by decide)).trans <|
    (W9_of_ne m c main_arg1 (by decide)).trans <| (W8_of_ne m c main_arg1 (by decide)).trans <|
    (V7_of m c main_arg1 (by decide)).trans <| (V6_of m c main_arg1 (by decide)).trans <| (V5_of m c main_arg1 (by decide)).trans <|
    (V4_of m c main_arg1 (by decide)).trans <| (V3_of m c main_arg1 (by decide)).trans <| (V2_of m c main_arg1 (by decide)).trans <|
    (V1_of m c main_arg1 (by decide)).trans rfl

/-! ## The proof data family and the thread state -/

abbrev adm' : (p : Fin 2) → (pcfgs (F := F) p).Adm := fun p => (cfgs p).toPCfg_adm
/-- Each call's proof data at the contents it is entered with. -/
def pdats : (p : Fin 2) → (c : Dev nD) → Dat τ (Elt F) Unit ℕ (UR sig nD τ) ℕ (Pipeline.pin (pcfgs (F := F)) adm' p) c
  | ⟨0, _⟩ => fun c => dat0 (R7 m) c
  | ⟨1, _⟩ => fun c => dat1 (R8 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (W10 m c) ∗ ∃ r, prngReg c r)

/-! ## The two calls as segments -/

set_option backward.isDefEq.respectTransparency.types false in
/-- The gather call: entered from every unscoped buffer at `V7`, left at `W8`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R7 m) c).loose
  hwaits := Pipeline.hwaits_of_owed_zero _ _ _ _ L lv 0 fun _ _ => rfl
  pre c := iprop(StableHlo.held (c : Thread nD τ) (Pipeline.ucRefs τ sig) (V7 m c) ∗ Rd c)
  post c := iprop(StableHlo.held (c : Thread nD τ) (Pipeline.ucRefs τ sig) (W8 m c) ∗ Rd c)
  X c := iprop(∃ r, prngReg c r)
  Y c := iprop(∃ r, prngReg c r)
  Z c := Pipeline.unscopedRest (Ix := Unit) (Name := ℕ) (U := UR sig nD τ) (Lvl := ℕ) spec0 c (R7 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (R7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (R7 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (R7 m c) (R8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter-and-mean call: entered from every unscoped buffer at `W8`, left at `W9`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R8 m) c).loose
  hwaits := Pipeline.hwaits_of_owed_zero _ _ _ _ L lv 1 fun _ _ => rfl
  pre c := iprop(StableHlo.held (c : Thread nD τ) (Pipeline.ucRefs τ sig) (W8 m c) ∗ Rd c)
  post c := iprop(StableHlo.held (c : Thread nD τ) (Pipeline.ucRefs τ sig) (W9 m c) ∗ Rd c)
  X c := iprop(∃ r, prngReg c r)
  Y c := iprop(∃ r, prngReg c r)
  Z c := Pipeline.unscopedRest (Ix := Unit) (Name := ℕ) (U := UR sig nD τ) (Lvl := ℕ) spec1 c (R8 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (R8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (R8 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (R8 m c) (R9 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .region (reg0 m),
    .region (reg1 m),
    .host (hseg hostOps2 hostOps2_sub hostOps2_fresh (W9 m)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and the final memory holds every unscoped buffer of every core at the last boundary's contents: in
    particular the result array at `W10` and the two argument arrays as launched. -/
theorem run_value : θ_run defs (onTc (τ := τ) (main (F := F))) ⟨m, fun _ => 0, ρ⟩ (fun r => ∀ c : Dev nD,
      r.2.mem ((c.tc : Thread nD τ).loc main_v13) = W10 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rd c)) (Tₙ := Tn m)
    (hch := ⟨fun _ => .rfl, fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W10 m c) ∗ Rd c)
          ⊢ iprop(Tn m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c =>
      ⟨h c _ (mem_uc main_v13 (by decide)),
       (h c _ (mem_uc main_arg0 (by decide))).trans (W10_main_arg0 m c),
       (h c _ (mem_uc main_arg1 (by decide))).trans (W10_main_arg1 m c)⟩)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.Kernel.Fr

end
-- ==== Proof.KI.Base.lean ====
/-
  What the two tiled calls' frame proofs share.  Each call runs its body over a two-axis grid whose second axis is the
  reduction: the body zeroes a scratch accumulator at the axis's first position, adds one block product into it at every
  position, and copies it (the second call: its quotient form) into the output block at the last position.  So a grid
  point is in one of three cases by its position on the reduction axis — FIRST, MIDDLE, LAST — decided here in closed
  form over the linear point number (`t % 98`, `t % 391`), together with where the output window is idle and not written
  back (everywhere but LAST), the memrefs the body is called with, and each input window's block read off the array the
  call is entered with.
-/
import proofs.«414928_j58308476011188_1_alg».proof.Proof.Gen.KernelIdeal.Launch
import proofs.«414928_j58308476011188_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-! ## The first call (gather): reduction axis of 98 positions -/

/-- Point `t` of the 391 × 98 grid sits at reduction position `t % 98` of edge block `t / 98` (row-major, last axis fastest). -/
theorem coord0_1 (t : Fin cfg0.N) : (grid0.coords t 1).val = t.val % 98 := by
  show t.val / grid0.stride 1 % 98 = _
  rw [show grid0.stride 1 = 1 from by decide, Nat.div_one]
theorem coord0_0 (t : Fin cfg0.N) : (grid0.coords t 0).val = t.val / 98 := by
  have hN : t.val < 38318 := lt_of_lt_of_eq t.isLt (show cfg0.N = 38318 from N_0)
  show t.val / grid0.stride 0 % 391 = _
  rw [show grid0.stride 0 = 98 from by decide]; omega

/-- "The reduction position is 0": the body zeroes its accumulator. -/
abbrev cond0_0 (i : grid0.Coords) : Prop := (Scalar.cmpi .ne (Scalar.extui (Scalar.cmpi .eq (BitVec.ofNat 32 (i 1).val) 0#32)) 0#32) = 1#1
theorem cond0_0_iff : ∀ j : Fin 98, (Scalar.cmpi .ne (Scalar.extui (Scalar.cmpi .eq (BitVec.ofNat 32 j.val) 0#32)) 0#32) = 1#1 ↔ j.val = 0 := by decide +kernel
theorem hcond0_0 (t : Fin cfg0.N) : cond0_0 (grid0.coords t) ↔ t.val % 98 = 0 := by
  have h := cond0_0_iff ⟨t.val % 98, Nat.mod_lt _ (by decide)⟩
  unfold cond0_0; rw [coord0_1]; exact h
/-- "The reduction position is the last": the body copies the accumulator out. -/
abbrev cond0_1 (i : grid0.Coords) : Prop := k0_cond2 i = 1#1
theorem cond0_1_iff : ∀ j : Fin 98, (Scalar.cmpi .ne (Scalar.extui (Scalar.cmpi .eq (BitVec.ofNat 32 j.val) 97#32)) 0#32) = 1#1 ↔ j.val = 97 := by decide +kernel
theorem hcond0_1 (t : Fin cfg0.N) : cond0_1 (grid0.coords t) ↔ t.val % 98 = 97 := by
  have h := cond0_1_iff ⟨t.val % 98, Nat.mod_lt _ (by decide)⟩
  unfold cond0_1 k0_cond2; dsimp only; rw [coord0_1]; exact h

theorem liveAt0_0 : ∀ t : Fin cfg0.N, cfg0.idle 0 (grid0.coords t) = false := fun _ => rfl
theorem liveAt0_1 : ∀ t : Fin cfg0.N, cfg0.idle 1 (grid0.coords t) = false := fun _ => rfl
/-- Off the last position the output window is idle; at it, live. -/
theorem idleAt0_2 (t : Fin cfg0.N) (h : ¬cond0_1 (grid0.coords t)) : cfg0.idle 2 (grid0.coords t) = true := by
  show (!(k0_cond2 (grid0.coords t) == 1#1)) = true
  simpa using h
theorem liveAt0_2 (t : Fin cfg0.N) (h : cond0_1 (grid0.coords t)) : cfg0.idle 2 (grid0.coords t) = false := by
  show (!(k0_cond2 (grid0.coords t) == 1#1)) = false
  simpa using h

/-- The output window's block index at point `t` is the edge block `t / 98`. -/
theorem index0_2 (t : Fin cfg0.N) : (cfg0.win 2).index t = ![t.val / 98, 0] := by
  have hN : t.val < 38318 := lt_of_lt_of_eq t.isLt (show cfg0.N = 38318 from N_0)
  show cc0_transform_2 (grid0.coords t) = _
  unfold cc0_transform_2; dsimp only
  rw [coord0_0, BitVec.toNat_ofNat, Nat.mod_eq_of_lt (by omega)]; rfl
/-- The output block is written back exactly at the last reduction position. -/
theorem flush0_2 (t : Fin cfg0.N) : (cfg0.win 2).flush t = true ↔ t.val % 98 = 97 := by
  have hN : t.val < 38318 := lt_of_lt_of_eq t.isLt (show cfg0.N = 38318 from N_0)
  unfold Window.flush
  have hNe : cfg0.grid.N = 38318 := N_0
  rw [show (cfg0.win 2).isOut = true from rfl, Bool.true_and, Bool.or_eq_true, decide_eq_true_eq, decide_eq_true_eq]
  constructor
  · rintro (h | ⟨h, hne⟩)
    · omega
    · rw [index0_2, index0_2] at hne
      by_contra hc
      exact hne (by show ![(t.val + 1) / 98, 0] = ![t.val / 98, 0]; rw [show (t.val + 1) / 98 = t.val / 98 from by omega])
  · intro h
    by_cases hl : t.val + 1 = 38318
    · exact .inl (hl.trans hNe.symm)
    · refine .inr ⟨by omega, ?_⟩
      rw [index0_2, index0_2]
      intro e
      have := congrFun e 0
      simp only [Matrix.cons_val_zero] at this
      omega
theorem noFlush0_2 (t : Fin cfg0.N) (h : ¬cond0_1 (grid0.coords t)) : (cfg0.win 2).flush t = false := by
  rw [← Bool.not_eq_true, flush0_2]; exact fun e => h ((hcond0_1 t).mpr e)

/-- The current staging memrefs of the three windows at point `t`, and the body as the pipeline calls it there. -/
abbrev bodyAt0 (t : Fin cfg0.N) : Prog (TpuEff nD τ sig (Elt F) Λ₀ .tc) PUnit :=
  cc0__gather_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (Memref.whole cc0_scratch0) (Memref.isWhole_whole _)

abbrev ms0_0 (t : Fin cfg0.N) : Memref sig .tc .vmem S1x4096 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x33 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x33 .f32 := win0_2.stage (cfg0.slots t 2)
abbrev hs0_2 (t : Fin cfg0.N) : (ms0_2 t).IsWhole := hstage0_2 ((cfg0.slots t 2).cast nbuf0_2)
/-- The accumulator: a whole scoped buffer of the call's own. -/
abbrev scM0 : Memref sig .tc .vmem S4096x33 .f32 := Memref.whole cc0_scratch0

/-- The other call's scoped buffers, which ride along untouched: each whole at some contents. -/
def other0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The call's scoped rest and the generator register, with the accumulator split off as a memref owned at some contents. -/
theorem PhiA0_split (c : Dev nD) :
    (Pipeline.ΦA spec0 c : sProp 𝕄) ⊢ iprop((∃ d, owns (c : Thread nD τ) scM0 fullShare d) ∗ other0 c ∗ (∃ r, prngReg c r)) := by
  unfold Pipeline.ΦA other0; rw [scopedRest0_eq]; simp only [scM0, owns_whole]
  iintro ⟨⟨HS, Hr⟩, Hg⟩
  isplitl [HS]; · iexact HS
  isplitl [Hr]; · iexact Hr
  iexact Hg
theorem PhiA0_join (c : Dev nD) :
    iprop((∃ d, owns (c : Thread nD τ) scM0 fullShare d) ∗ other0 c ∗ (∃ r, prngReg c r)) ⊢ (Pipeline.ΦA spec0 c : sProp 𝕄) := by
  unfold Pipeline.ΦA other0; rw [scopedRest0_eq]; simp only [scM0, owns_whole]
  iintro ⟨HS, Hr, Hg⟩
  isplitl [HS Hr]
  · isplitl [HS]; · iexact HS
    iexact Hr
  iexact Hg

/-! ## The second call (scatter and mean): reduction axis of 391 positions -/

/-- Point `t` of the 98 × 391 grid sits at reduction position `t % 391` of node block `t / 391` (row-major, last axis fastest). -/
theorem coord1_1 (t : Fin cfg1.N) : (grid1.coords t 1).val = t.val % 391 := by
  show t.val / grid1.stride 1 % 391 = _
  rw [show grid1.stride 1 = 1 from by decide, Nat.div_one]
theorem coord1_0 (t : Fin cfg1.N) : (grid1.coords t 0).val = t.val / 391 := by
  have hN : t.val < 38318 := lt_of_lt_of_eq t.isLt (show cfg1.N = 38318 from N_1)
  show t.val / grid1.stride 0 % 98 = _
  rw [show grid1.stride 0 = 391 from by decide]; omega

/-- "The reduction position is 0": the body zeroes its accumulator. -/
abbrev cond1_0 (i : grid1.Coords) : Prop := (Scalar.cmpi .ne (Scalar.extui (Scalar.cmpi .eq (BitVec.ofNat 32 (i 1).val) 0#32)) 0#32) = 1#1
theorem cond1_0_iff : ∀ j : Fin 391, (Scalar.cmpi .ne (Scalar.extui (Scalar.cmpi .eq (BitVec.ofNat 32 j.val) 0#32)) 0#32) = 1#1 ↔ j.val = 0 := by decide +kernel
theorem hcond1_0 (t : Fin cfg1.N) : cond1_0 (grid1.coords t) ↔ t.val % 391 = 0 := by
  have h := cond1_0_iff ⟨t.val % 391, Nat.mod_lt _ (by decide)⟩
  unfold cond1_0; rw [coord1_1]; exact h
/-- "The reduction position is the last": the body stores the mean. -/
abbrev cond1_1 (i : grid1.Coords) : Prop := k1_cond2 i = 1#1
theorem cond1_1_iff : ∀ j : Fin 391, (Scalar.cmpi .ne (Scalar.extui (Scalar.cmpi .eq (BitVec.ofNat 32 j.val) 390#32)) 0#32) = 1#1 ↔ j.val = 390 := by decide +kernel
theorem hcond1_1 (t : Fin cfg1.N) : cond1_1 (grid1.coords t) ↔ t.val % 391 = 390 := by
  have h := cond1_1_iff ⟨t.val % 391, Nat.mod_lt _ (by decide)⟩
  unfold cond1_1 k1_cond2; dsimp only; rw [coord1_1]; exact h

theorem liveAt1_0 : ∀ t : Fin cfg1.N, cfg1.idle 0 (grid1.coords t) = false := fun _ => rfl
theorem liveAt1_1 : ∀ t : Fin cfg1.N, cfg1.idle 1 (grid1.coords t) = false := fun _ => rfl
/-- Off the last position the output window is idle; at it, live. -/
theorem idleAt1_2 (t : Fin cfg1.N) (h : ¬cond1_1 (grid1.coords t)) : cfg1.idle 2 (grid1.coords t) = true := by
  show (!(k1_cond2 (grid1.coords t) == 1#1)) = true
  simpa using h
theorem liveAt1_2 (t : Fin cfg1.N) (h : cond1_1 (grid1.coords t)) : cfg1.idle 2 (grid1.coords t) = false := by
  show (!(k1_cond2 (grid1.coords t) == 1#1)) = false
  simpa using h

/-- The output window's block index at point `t` is the node block `t / 391`. -/
theorem index1_2 (t : Fin cfg1.N) : (cfg1.win 2).index t = ![t.val / 391, 0] := by
  have hN : t.val < 38318 := lt_of_lt_of_eq t.isLt (show cfg1.N = 38318 from N_1)
  show cc1_transform_2 (grid1.coords t) = _
  unfold cc1_transform_2; dsimp only
  rw [coord1_0, BitVec.toNat_ofNat, Nat.mod_eq_of_lt (by omega)]; rfl
/-- The output block is written back exactly at the last reduction position. -/
theorem flush1_2 (t : Fin cfg1.N) : (cfg1.win 2).flush t = true ↔ t.val % 391 = 390 := by
  have hN : t.val < 38318 := lt_of_lt_of_eq t.isLt (show cfg1.N = 38318 from N_1)
  unfold Window.flush
  have hNe : cfg1.grid.N = 38318 := N_1
  rw [show (cfg1.win 2).isOut = true from rfl, Bool.true_and, Bool.or_eq_true, decide_eq_true_eq, decide_eq_true_eq]
  constructor
  · rintro (h | ⟨h, hne⟩)
    · omega
    · rw [index1_2, index1_2] at hne
      by_contra hc
      exact hne (by show ![(t.val + 1) / 391, 0] = ![t.val / 391, 0]; rw [show (t.val + 1) / 391 = t.val / 391 from by omega])
  · intro h
    by_cases hl : t.val + 1 = 38318
    · exact .inl (hl.trans hNe.symm)
    · refine .inr ⟨by omega, ?_⟩
      rw [index1_2, index1_2]
      intro e
      have := congrFun e 0
      simp only [Matrix.cons_val_zero] at this
      omega
theorem noFlush1_2 (t : Fin cfg1.N) (h : ¬cond1_1 (grid1.coords t)) : (cfg1.win 2).flush t = false := by
  rw [← Bool.not_eq_true, flush1_2]; exact fun e => h ((hcond1_1 t).mpr e)

/-- The current staging memrefs of the three windows at point `t`, and the body as the pipeline calls it there. -/
abbrev bodyAt1 (t : Fin cfg1.N) : Prog (TpuEff nD τ sig (Elt F) Λ₀ .tc) PUnit :=
  cc1__scatter_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (Memref.whole cc1_scratch0) (Memref.isWhole_whole _)

abbrev ms1_0 (t : Fin cfg1.N) : Memref sig .tc .vmem S1x4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x33 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x32 .f32 := win1_2.stage (cfg1.slots t 2)
abbrev hs1_2 (t : Fin cfg1.N) : (ms1_2 t).IsWhole := hstage1_2 ((cfg1.slots t 2).cast nbuf1_2)
abbrev scM1 : Memref sig .tc .vmem S1024x33 .f32 := Memref.whole cc1_scratch0

/-- The other call's scoped buffers, which ride along untouched: each whole at some contents. -/
def other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

theorem PhiA1_split (c : Dev nD) :
    (Pipeline.ΦA spec1 c : sProp 𝕄) ⊢ iprop((∃ d, owns (c : Thread nD τ) scM1 fullShare d) ∗ other1 c ∗ (∃ r, prngReg c r)) := by
  unfold Pipeline.ΦA other1; rw [scopedRest1_eq]; simp only [scM1, owns_whole]
  iintro ⟨⟨H1, H2, H3, H4, H5, H6, H7, HS⟩, Hg⟩
  isplitl [HS]; · iexact HS
  isplitl [H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    iexact H7
  iexact Hg
theorem PhiA1_join (c : Dev nD) :
    iprop((∃ d, owns (c : Thread nD τ) scM1 fullShare d) ∗ other1 c ∗ (∃ r, prngReg c r)) ⊢ (Pipeline.ΦA spec1 c : sProp 𝕄) := by
  unfold Pipeline.ΦA other1; rw [scopedRest1_eq]; simp only [scM1, owns_whole]
  iintro ⟨HS, ⟨H1, H2, H3, H4, H5, H6, H7⟩, Hg⟩
  isplitl [HS H1 H2 H3 H4 H5 H6 H7]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

/-! ## The windows' blocks, read off the arrays a call is entered with -/

section Blocks
variable (V : (c : Dev nD) → (b : Ref sig .tc) → Buf (Elt F) ((c : Thread nD τ).loc b))

/-- The first call's window `w` at point `t`: its block of the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: unfetched, the block
    index has not moved and the body left the buffer as it was. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The second call's window `w` at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Fr

end
-- ==== Proof.KI.Run0.lean ====
/-
  The first call's body (gather) run symbolically in each of its three cases, on whole staging memrefs.  The body zeroes
  the accumulator when the reduction position is 0, then loads the index block, the feature block and the accumulator,
  stores accumulator + (one-hot of the indices)ᵀ · features back, and at the last position copies the accumulator into
  the output block.  Each run records, as lists of stored pieces, what the accumulator and (at the last position) the
  output block end with.
-/
import proofs.«414928_j58308476011188_1_alg».proof.Proof.KI.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- FIRST position: the accumulator, found at anything, ends at its two stores' pieces; the output block is untouched. -/
noncomputable def kernelRun0_A (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : cond0_0 i) (hc1 : ¬cond0_1 i)
    (x0 : Vec F S1x4096 .i32) (x1 : Vec F S1024x33 .f32) :
    Σ' (L2 : List (View.Piece (Elt F) S4096x33 .f32)), { LS0 : List (View.Piece (Elt F) S4096x33 .f32) //
      ∀ (xi2 : Vec F S4096x33 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- MIDDLE position: the accumulator, found at `xs0`, ends at its one store's piece; the output block is untouched. -/
noncomputable def kernelRun0_B (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : ¬cond0_1 i)
    (x0 : Vec F S1x4096 .i32) (x1 : Vec F S1024x33 .f32) (xs0 : Vec F S4096x33 .f32) :
    Σ' (L2 : List (View.Piece (Elt F) S4096x33 .f32)), { LS0 : List (View.Piece (Elt F) S4096x33 .f32) //
      ∀ (xi2 : Vec F S4096x33 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- LAST position: the accumulator, found at `xs0`, ends at its one store's piece, and the output block, found at anything,
    at the piece copied out of it. -/
noncomputable def kernelRun0_C (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : cond0_1 i)
    (x0 : Vec F S1x4096 .i32) (x1 : Vec F S1024x33 .f32) (xs0 : Vec F S4096x33 .f32) :
    Σ' (L2 : List (View.Piece (Elt F) S4096x33 .f32)), { LS0 : List (View.Piece (Elt F) S4096x33 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Dat0.lean ====
/-
  The first call (gather) point by point: what its accumulator and its output block hold after each grid point, the
  invariant that carries the accumulator from one point to the next, the proof data of its pipeline at the arrays the
  call is entered with, and the body's obligation at every point.

  After point `n` the accumulator holds the sum of the block products of the points since the last reset (the points
  whose number is ≡ 0 mod 98 reset it): `outsAt0 … n` follows the body's three cases by recursion on `n`.  The output
  block is stored at the last position only and is idle elsewhere.
-/
import proofs.«414928_j58308476011188_1_alg».proof.Proof.KI.Run0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- A staging buffer of the output window, and the accumulator, as views: contents are stated through them. -/
abbrev VO0 : View sig .tc .vmem S4096x33 .f32 := (Memref.whole cc0_stg2_0 : Memref sig .tc .vmem S4096x33 .f32).view
abbrev VS0 : View sig .tc .vmem S4096x33 .f32 := scM0.view

/-! ## What each case leaves -/

/-- FIRST and MIDDLE store nothing into the output block: a placeholder nothing consults (the window is idle there). -/
def out0_A (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : cond0_0 i) (hc1 : ¬cond0_1 i)
    (x0 : Vec F S1x4096 .i32) (x1 : Vec F S1024x33 .f32) : Vec F S4096x33 .f32 :=
  VO0.read (Elt F) (VO0.writes (Elt F) VO0.junk (kernelRun0_A c i arg2 harg2 arg3 harg3 arg4 harg4 arg5 harg5 hc0 hc1 x0 x1).1)

theorem scover0_A (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : cond0_0 i) (hc1 : ¬cond0_1 i)
    (x0 : Vec F S1x4096 .i32) (x1 : Vec F S1024x33 .f32) (y : S4096x33.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S4096x33.size (by sl_kernel_rfl) y

/-- What FIRST leaves in the accumulator. -/
def sout0_A (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : cond0_0 i) (hc1 : ¬cond0_1 i)
    (x0 : Vec F S1x4096 .i32) (x1 : Vec F S1024x33 .f32) : Vec F S4096x33 .f32 :=
  VS0.read (Elt F) (VS0.writes (Elt F) VS0.junk (kernelRun0_A c i arg2 harg2 arg3 harg3 arg4 harg4 arg5 harg5 hc0 hc1 x0 x1).2.1)

def out0_B (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : ¬cond0_1 i)
    (x0 : Vec F S1x4096 .i32) (x1 : Vec F S1024x33 .f32) (xs0 : Vec F S4096x33 .f32) : Vec F S4096x33 .f32 :=
  VO0.read (Elt F) (VO0.writes (Elt F) VO0.junk (kernelRun0_B c i arg2 harg2 arg3 harg3 arg4 harg4 arg5 harg5 hc0 hc1 x0 x1 xs0).1)

theorem scover0_B (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : ¬cond0_1 i)
    (x0 : Vec F S1x4096 .i32) (x1 : Vec F S1024x33 .f32) (xs0 : Vec F S4096x33 .f32) (y : S4096x33.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S4096x33.size (by sl_kernel_rfl) y

/-- What MIDDLE leaves in the accumulator, over what it found there. -/
def sout0_B (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : ¬cond0_1 i)
    (x0 : Vec F S1x4096 .i32) (x1 : Vec F S1024x33 .f32) (xs0 : Vec F S4096x33 .f32) : Vec F S4096x33 .f32 :=
  VS0.read (Elt F) (VS0.writes (Elt F) VS0.junk (kernelRun0_B c i arg2 harg2 arg3 harg3 arg4 harg4 arg5 harg5 hc0 hc1 x0 x1 xs0).2.1)

theorem cover0_C (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : cond0_1 i)
    (x0 : Vec F S1x4096 .i32) (x1 : Vec F S1024x33 .f32) (xs0 : Vec F S4096x33 .f32) (y : S4096x33.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S4096x33.size (by sl_kernel_rfl) y

/-- What LAST leaves in the output block. -/
def out0_C (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : cond0_1 i)
    (x0 : Vec F S1x4096 .i32) (x1 : Vec F S1024x33 .f32) (xs0 : Vec F S4096x33 .f32) : Vec F S4096x33 .f32 :=
  VO0.read (Elt F) (VO0.writes (Elt F) VO0.junk (kernelRun0_C c i arg2 harg2 arg3 harg3 arg4 harg4 arg5 harg5 hc0 hc1 x0 x1 xs0).1)

theorem scover0_C (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : cond0_1 i)
    (x0 : Vec F S1x4096 .i32) (x1 : Vec F S1024x33 .f32) (xs0 : Vec F S4096x33 .f32) (y : S4096x33.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S4096x33.size (by sl_kernel_rfl) y

/-- What LAST leaves in the accumulator. -/
def sout0_C (c : Dev nD) (i : grid0.Coords) (arg2 : Memref sig .tc .vmem S1x4096 .i32) (harg2 : arg2.IsWhole) (arg3 : Memref sig .tc .vmem S1024x33 .f32) (harg3 : arg3.IsWhole) (arg4 : Memref sig .tc .vmem S4096x33 .f32) (harg4 : arg4.IsWhole) (arg5 : Memref sig .tc .vmem S4096x33 .f32) (harg5 : arg5.IsWhole) (hc0 : ¬cond0_0 i) (hc1 : cond0_1 i)
    (x0 : Vec F S1x4096 .i32) (x1 : Vec F S1024x33 .f32) (xs0 : Vec F S4096x33 .f32) : Vec F S4096x33 .f32 :=
  VS0.read (Elt F) (VS0.writes (Elt F) VS0.junk (kernelRun0_C c i arg2 harg2 arg3 harg3 arg4 harg4 arg5 harg5 hc0 hc1 x0 x1 xs0).2.1)

section Data
variable (V : (c : Dev nD) → (b : Ref sig .tc) → Buf (Elt F) ((c : Thread nD τ).loc b))

/-! ## Point by point -/

/-- THE ACCUMULATION: the output block (first component) and the accumulator (second) after the body at point `n`:
    the case the point's position selects, run at the point's memrefs and input blocks, over what point `n - 1` left in
    the accumulator. -/
def outsAt0 (c : Dev nD) : (n : ℕ) → n < cfg0.N → Vec F S4096x33 .f32 × Vec F S4096x33 .f32
  | 0, hn => (out0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
      sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 98 = 0 then
      if h1 : (n + 1) % 98 = 97 then
        False.elim (by omega)
      else
        (out0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩),
          sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 98 = 97 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
          sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2,
          sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 98 = 0) (h1 : ¬t.val % 98 = 97) :
    outsAt0 V c t.val t.isLt = (out0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t),
      sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 98 = 0) (h1 : ¬t.val % 98 = 97) :
    outsAt0 V c t.val t.isLt = (out0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 98 = 0) (h1 : t.val % 98 = 97) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the call's scoped rest at anything; afterwards the
    accumulator at what the point before left in it, and the generator register at some state. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ other0 c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare ((outsAt0 V c n hn).2) ∗ other0 c ∗ (∃ r, prngReg c r)) := rfl
theorem PhiS0_pos (c : Dev nD) (n : ℕ) (h : n ≤ cfg0.N) (hz : n ≠ 0) :
    PhiS0 V c n h = iprop(owns (c : Thread nD τ) scM0 fullShare ((outsAt0 V c (n - 1) (by omega)).2) ∗ other0 c ∗ (∃ r, prngReg c r)) := by
  cases n with
  | zero => exact absurd rfl hz
  | succ n => rfl

/-! ## The pipeline's proof data -/

/-- The proof data of the first call on core `c`, at the arrays it is entered with (`V`): after the body each input's
    buffer at its block, the output's at `outsAt0`'s first component; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the point's position says which case it is in; the
    invariant hands the body the accumulator at what the point before left (at anything at the first point) and takes it
    back at this point's contents; the output block is handed back untouched off the last position. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 98 = 0
  · have h1 : ¬t.val % 98 = 97 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V c t, PhiS0_zero V c _ _ hz]
      iintro ⟨HP, Ho, ⟨%d0, H0⟩, ⟨%d1, H1⟩, ⟨%d2, H2⟩⟩
      ihave HP' := (PhiA0_split c) $$ HP
      icases HP' with ⟨HS0, Hr, Hg⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover0_A c _ _ _ _ _ _ _ _ _ _ _ _ _)
        isplitl [Hr]; · iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨HS0, Hr, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover0_A c _ _ _ _ _ _ _ _ _ _ _ _ _)
        isplitl [Hr]; · iexact Hr
        iexact Hg
      isplitl [Ho]; · iexact Ho
      isplitl [H0]; · iexact H0
      isplitl [H1]; · iexact H1
      iexists _; iexact H2
  · have hz : t.val ≠ 0 := fun e => h0 (by rw [e])
    by_cases h1 : t.val % 98 = 97
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨HS0, Hr, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0]
        · unfold owns; iexists _; isplitr
          swap; · iexact HS0
          ipureintro; exact View.read_writes_of_cover _ _ _ _ _ (scover0_C c _ _ _ _ _ _ _ _ _ _ _ _ _ _)
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨HS0, Hr, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover0_B c _ _ _ _ _ _ _ _ _ _ _ _ _ _)
        isplitl [Hr]; · iexact Hr
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the scoped rest back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 38318 := N_0; omega)]
  refine .trans ?_ (PhiA0_join c)
  iintro ⟨HS0, Hr, Hg⟩
  isplitl [HS0]
  · iexists _; iexact HS0
  isplitl [Hr]; · iexact Hr
  iexact Hg

end Data

end Cert.KernelIdeal.Fr

end
-- ==== Proof.KI.Run1.lean ====
/-
  The second call's body (scatter and mean) run symbolically in each of its three cases, on whole staging memrefs.  The
  body zeroes the accumulator when the reduction position is 0, then loads the index block, the gathered block and the
  accumulator, stores accumulator + (one-hot of the indices) · gathered back, and at the last position stores the
  accumulator's first 32 columns divided by the larger of its last column and 1 into the output block.  Each run records,
  as lists of stored pieces, what the accumulator and (at the last position) the output block end with.
-/
import proofs.«414928_j58308476011188_1_alg».proof.Proof.KI.Base

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- FIRST position: the accumulator, found at anything, ends at its two stores' pieces; the output block is untouched. -/
noncomputable def kernelRun1_A (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : cond1_0 i) (hc1 : ¬cond1_1 i)
    (x0 : Vec F S1x4096 .i32) (x1 : Vec F S4096x33 .f32) :
    Σ' (L2 : List (View.Piece (Elt F) S1024x32 .f32)), { LS0 : List (View.Piece (Elt F) S1024x33 .f32) //
      ∀ (xi2 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- MIDDLE position: the accumulator, found at `xs0`, ends at its one store's piece; the output block is untouched. -/
noncomputable def kernelRun1_B (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : ¬cond1_1 i)
    (x0 : Vec F S1x4096 .i32) (x1 : Vec F S4096x33 .f32) (xs0 : Vec F S1024x33 .f32) :
    Σ' (L2 : List (View.Piece (Elt F) S1024x32 .f32)), { LS0 : List (View.Piece (Elt F) S1024x33 .f32) //
      ∀ (xi2 : Vec F S1024x32 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨[], ?_, fun xi2 E K => ?run⟩
  case run =>
    simp only [cc1__scatter_kernel_eq_skeleton]; unfold cc1__scatter_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

set_option maxHeartbeats 1000000 in
/-- LAST position: the accumulator, found at `xs0`, ends at its one store's piece, and the output block, found at anything,
    at the piece computed from it. -/
noncomputable def kernelRun1_C (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : cond1_1 i)
    (x0 : Vec F S1x4096 .i32) (x1 : Vec F S4096x33 .f32) (xs0 : Vec F S1024x33 .f32) :
    Σ' (L2 : List (View.Piece (Elt F) S1024x32 .f32)), { LS0 : List (View.Piece (Elt F) S1024x33 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.Dat1.lean ====
/-
  The second call (scatter and mean) point by point: what its accumulator and its output block hold after each grid
  point, the invariant that carries the accumulator from one point to the next, the proof data of its pipeline at the
  arrays the call is entered with, and the body's obligation at every point.

  After point `n` the accumulator holds the sum of the block products of the points since the last reset (the points
  whose number is ≡ 0 mod 391 reset it): `outsAt1 … n` follows the body's three cases by recursion on `n`.  The output
  block (the accumulator's first 32 columns over the larger of its last column and 1) is stored at the last position only
  and is idle elsewhere.
-/
import proofs.«414928_j58308476011188_1_alg».proof.Proof.KI.Run1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

/-- A staging buffer of the output window, and the accumulator, as views: contents are stated through them. -/
abbrev VO1 : View sig .tc .vmem S1024x32 .f32 := (Memref.whole cc1_stg2_0 : Memref sig .tc .vmem S1024x32 .f32).view
abbrev VS1 : View sig .tc .vmem S1024x33 .f32 := scM1.view

/-! ## What each case leaves -/

/-- FIRST and MIDDLE store nothing into the output block: a placeholder nothing consults (the window is idle there). -/
def out1_A (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : cond1_0 i) (hc1 : ¬cond1_1 i)
    (x0 : Vec F S1x4096 .i32) (x1 : Vec F S4096x33 .f32) : Vec F S1024x32 .f32 :=
  VO1.read (Elt F) (VO1.writes (Elt F) VO1.junk (kernelRun1_A c i arg2 harg2 arg3 harg3 arg4 harg4 arg5 harg5 hc0 hc1 x0 x1).1)

theorem scover1_A (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : cond1_0 i) (hc1 : ¬cond1_1 i)
    (x0 : Vec F S1x4096 .i32) (x1 : Vec F S4096x33 .f32) (y : S1024x33.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x33.size (by sl_kernel_rfl) y

/-- What FIRST leaves in the accumulator. -/
def sout1_A (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : cond1_0 i) (hc1 : ¬cond1_1 i)
    (x0 : Vec F S1x4096 .i32) (x1 : Vec F S4096x33 .f32) : Vec F S1024x33 .f32 :=
  VS1.read (Elt F) (VS1.writes (Elt F) VS1.junk (kernelRun1_A c i arg2 harg2 arg3 harg3 arg4 harg4 arg5 harg5 hc0 hc1 x0 x1).2.1)

def out1_B (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : ¬cond1_1 i)
    (x0 : Vec F S1x4096 .i32) (x1 : Vec F S4096x33 .f32) (xs0 : Vec F S1024x33 .f32) : Vec F S1024x32 .f32 :=
  VO1.read (Elt F) (VO1.writes (Elt F) VO1.junk (kernelRun1_B c i arg2 harg2 arg3 harg3 arg4 harg4 arg5 harg5 hc0 hc1 x0 x1 xs0).1)

theorem scover1_B (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : ¬cond1_1 i)
    (x0 : Vec F S1x4096 .i32) (x1 : Vec F S4096x33 .f32) (xs0 : Vec F S1024x33 .f32) (y : S1024x33.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x33.size (by sl_kernel_rfl) y

/-- What MIDDLE leaves in the accumulator, over what it found there. -/
def sout1_B (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : ¬cond1_1 i)
    (x0 : Vec F S1x4096 .i32) (x1 : Vec F S4096x33 .f32) (xs0 : Vec F S1024x33 .f32) : Vec F S1024x33 .f32 :=
  VS1.read (Elt F) (VS1.writes (Elt F) VS1.junk (kernelRun1_B c i arg2 harg2 arg3 harg3 arg4 harg4 arg5 harg5 hc0 hc1 x0 x1 xs0).2.1)

theorem cover1_C (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : cond1_1 i)
    (x0 : Vec F S1x4096 .i32) (x1 : Vec F S4096x33 .f32) (xs0 : Vec F S1024x33 .f32) (y : S1024x32.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x32.size (by sl_kernel_rfl) y

/-- What LAST leaves in the output block. -/
def out1_C (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : cond1_1 i)
    (x0 : Vec F S1x4096 .i32) (x1 : Vec F S4096x33 .f32) (xs0 : Vec F S1024x33 .f32) : Vec F S1024x32 .f32 :=
  VO1.read (Elt F) (VO1.writes (Elt F) VO1.junk (kernelRun1_C c i arg2 harg2 arg3 harg3 arg4 harg4 arg5 harg5 hc0 hc1 x0 x1 xs0).1)

theorem scover1_C (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : cond1_1 i)
    (x0 : Vec F S1x4096 .i32) (x1 : Vec F S4096x33 .f32) (xs0 : Vec F S1024x33 .f32) (y : S1024x33.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x33.size (by sl_kernel_rfl) y

/-- What LAST leaves in the accumulator. -/
def sout1_C (c : Dev nD) (i : grid1.Coords) (arg2 : Memref sig .tc .vmem S1x4096 .i32) (harg2 : arg2.IsWhole) (arg3 : Memref sig .tc .vmem S4096x33 .f32) (harg3 : arg3.IsWhole) (arg4 : Memref sig .tc .vmem S1024x32 .f32) (harg4 : arg4.IsWhole) (arg5 : Memref sig .tc .vmem S1024x33 .f32) (harg5 : arg5.IsWhole) (hc0 : ¬cond1_0 i) (hc1 : cond1_1 i)
    (x0 : Vec F S1x4096 .i32) (x1 : Vec F S4096x33 .f32) (xs0 : Vec F S1024x33 .f32) : Vec F S1024x33 .f32 :=
  VS1.read (Elt F) (VS1.writes (Elt F) VS1.junk (kernelRun1_C c i arg2 harg2 arg3 harg3 arg4 harg4 arg5 harg5 hc0 hc1 x0 x1 xs0).2.1)

section Data
variable (V : (c : Dev nD) → (b : Ref sig .tc) → Buf (Elt F) ((c : Thread nD τ).loc b))

/-! ## Point by point -/

/-- THE ACCUMULATION: the output block (first component) and the accumulator (second) after the body at point `n`:
    the case the point's position selects, run at the point's memrefs and input blocks, over what point `n - 1` left in
    the accumulator. -/
def outsAt1 (c : Dev nD) : (n : ℕ) → n < cfg1.N → Vec F S1024x32 .f32 × Vec F S1024x33 .f32
  | 0, hn => (out1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩),
      sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 391 = 0 then
      if h1 : (n + 1) % 391 = 390 then
        False.elim (by omega)
      else
        (out1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩),
          sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 391 = 390 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2,
          sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 391 = 0) (h1 : ¬t.val % 391 = 390) :
    outsAt1 V c t.val t.isLt = (out1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t),
      sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 391 = 0) (h1 : ¬t.val % 391 = 390) :
    outsAt1 V c t.val t.isLt = (out1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2,
      sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 391 = 0) (h1 : t.val % 391 = 390) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the call's scoped rest at anything; afterwards the
    accumulator at what the point before left in it, and the generator register at some state. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ other1 c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare ((outsAt1 V c n hn).2) ∗ other1 c ∗ (∃ r, prngReg c r)) := rfl
theorem PhiS1_pos (c : Dev nD) (n : ℕ) (h : n ≤ cfg1.N) (hz : n ≠ 0) :
    PhiS1 V c n h = iprop(owns (c : Thread nD τ) scM1 fullShare ((outsAt1 V c (n - 1) (by omega)).2) ∗ other1 c ∗ (∃ r, prngReg c r)) := by
  cases n with
  | zero => exact absurd rfl hz
  | succ n => rfl

/-! ## The pipeline's proof data -/

/-- The proof data of the second call on core `c`, at the arrays it is entered with (`V`): after the body each input's
    buffer at its block, the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the point's position says which case it is in; the
    invariant hands the body the accumulator at what the point before left (at anything at the first point) and takes it
    back at this point's contents; the output block is handed back untouched off the last position. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 391 = 0
  · have h1 : ¬t.val % 391 = 390 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HP, Ho, ⟨%d0, H0⟩, ⟨%d1, H1⟩, ⟨%d2, H2⟩⟩
      ihave HP' := (PhiA1_split c) $$ HP
      icases HP' with ⟨HS0, Hr, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover1_A c _ _ _ _ _ _ _ _ _ _ _ _ _)
        isplitl [Hr]; · iexact Hr
        iexact Hg
      isplitl [Ho]; · iexact Ho
      isplitl [H0]; · iexact H0
      isplitl [H1]; · iexact H1
      iexists _; iexact H2
    · rw [PhiS1_castSucc V c t, PhiS1_pos V c _ _ hz]
      iintro ⟨⟨HS0, Hr, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover1_A c _ _ _ _ _ _ _ _ _ _ _ _ _)
        isplitl [Hr]; · iexact Hr
        iexact Hg
      isplitl [Ho]; · iexact Ho
      isplitl [H0]; · iexact H0
      isplitl [H1]; · iexact H1
      iexists _; iexact H2
  · have hz : t.val ≠ 0 := fun e => h0 (by rw [e])
    by_cases h1 : t.val % 391 = 390
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨HS0, Hr, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0]
        · unfold owns; iexists _; isplitr
          swap; · iexact HS0
          ipureintro; exact View.read_writes_of_cover _ _ _ _ _ (scover1_C c _ _ _ _ _ _ _ _ _ _ _ _ _ _)
        isplitl [Hr]; · iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨HS0, Hr, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0]
        · unfold owns; iexists _; isplitr
          swap; · iexact HS0
          ipureintro; exact View.read_writes_of_cover _ _ _ _ _ (scover1_B c _ _ _ _ _ _ _ _ _ _ _ _ _ _)
        isplitl [Hr]; · iexact Hr
        iexact Hg
      isplitl [Ho]; · iexact Ho
      isplitl [H0]; · iexact H0
      isplitl [H1]; · iexact H1
      iexists _; iexact H2

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 38318 := N_1; omega)]
  refine .trans ?_ (PhiA1_join c)
  iintro ⟨HS0, Hr, Hg⟩
  isplitl [HS0]
  · iexists _; iexact HS0
  isplitl [Hr]; · iexact Hr
  iexact Hg

end Data

end Cert.KernelIdeal.Fr

end
-- ==== Proof.KI.Main.lean ====
/-
  The whole program as a run: seven stretches of host operations, the gather call, the scatter-and-mean call, one
  last host operation (the slice that drops the padding rows).  Between two items every unscoped buffer of the core is
  held at named contents: the launch memory, then each host stretch applied, then each call's arrays at what its
  pipeline's write-backs leave.  The run ends with every unscoped buffer at the last of these contents, so the result
  array and the two argument arrays can be read off it.
-/
import proofs.«414928_j58308476011188_1_alg».proof.Proof.KI.Dat0
import proofs.«414928_j58308476011188_1_alg».proof.Proof.KI.Dat1
import proofs.«414928_j58308476011188_1_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Before the gather call: the launch memory with the seven host stretches applied, read at the core's references. -/
abbrev R7 : (c : Dev nD) → (b : Ref sig .tc) → Buf (Elt F) ((c : Thread nD τ).loc b) := fun c b => V7 m c b
/-- After the gather call: its arrays at what its pipeline leaves, every other buffer as before. -/
def W8 (c : Dev nD) : Valuation τ sig (Elt F) :=
  Pipeline.withArrays spec0 c (V7 m c) fun w => (dat0 (R7 m) c).arrAt w cfg0.N
theorem W8_arr (c : Dev nD) (w : Fin cfg0.W) :
    W8 m c (Proc.devRef .tc (Pipeline.arrRef spec0 w)) = (dat0 (R7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = V7 m c (Proc.devRef .tc b) := by
  unfold W8; exact Pipeline.withArrays_of_ne spec0 c _ _ b hb
abbrev R8 : (c : Dev nD) → (b : Ref sig .tc) → Buf (Elt F) ((c : Thread nD τ).loc b) := fun c b => W8 m c b
theorem hF0 (c : Dev nD) (w : Fin cfg0.W) : (dat0 (R7 m) c).arrAt w cfg0.N = R8 m c (Pipeline.arrRef spec0 w) :=
  (W8_arr m c w).symm
theorem hrest0 (c : Dev nD) : ∀ b, b ∉ Finset.univ.image (Pipeline.arrRef spec0) → R8 m c b = R7 m c b :=
  fun b hb => W8_of_ne m c b fun w e => hb (Finset.mem_image.mpr ⟨w, Finset.mem_univ _, e⟩)

/-- After the scatter-and-mean call. -/
def W9 (c : Dev nD) : Valuation τ sig (Elt F) :=
  Pipeline.withArrays spec1 c (W8 m c) fun w => (dat1 (R8 m) c).arrAt w cfg1.N
theorem W9_arr (c : Dev nD) (w : Fin cfg1.W) :
    W9 m c (Proc.devRef .tc (Pipeline.arrRef spec1 w)) = (dat1 (R8 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
abbrev R9 : (c : Dev nD) → (b : Ref sig .tc) → Buf (Elt F) ((c : Thread nD τ).loc b) := fun c b => W9 m c b
theorem hF1 (c : Dev nD) (w : Fin cfg1.W) : (dat1 (R8 m) c).arrAt w cfg1.N = R9 m c (Pipeline.arrRef spec1 w) :=
  (W9_arr m c w).symm
theorem hrest1 (c : Dev nD) : ∀ b, b ∉ Finset.univ.image (Pipeline.arrRef spec1) → R9 m c b = R8 m c b :=
  fun b hb => W9_of_ne m c b fun w e => hb (Finset.mem_image.mpr ⟨w, Finset.mem_univ _, e⟩)

/-- At the end: the closing slice applied. -/
abbrev W10 : Dev nD → Valuation τ sig (Elt F) := fun c => StableHlo.after hostOps2 (W9 m c)

/-- No item writes an argument array: each ends as launched. -/
theorem W10_main_arg0 (c : Dev nD) : W10 m c (Proc.devRef .tc main_arg0) = m ((c : Thread nD τ).loc main_arg0) :=
  (StableHlo.after_of_writes_sub hostOps2 _ hostOps2_writes (r := main_arg0) (by decide)).trans <|
    (W9_of_ne m c main_arg0 (by decide)).trans <| (W8_of_ne m c main_arg0 (by decide)).trans <|
    (V7_of m c main_arg0 (by decide)).trans <| (V6_of m c main_arg0 (by decide)).trans <| (V5_of m c main_arg0 (by decide)).trans <|
    (V4_of m c main_arg0 (by decide)).trans <| (V3_of m c main_arg0 (by decide)).trans <| (V2_of m c main_arg0 (by decide)).trans <|
    (V1_of m c main_arg0 (by decide)).trans rfl
theorem W10_main_arg1 (c : Dev nD) : W10 m c (Proc.devRef .tc main_arg1) = m ((c : Thread nD τ).loc main_arg1) :=
  (StableHlo.after_of_writes_sub hostOps2 _ hostOps2_writes (r := main_arg1) (by decide)).trans <|
    (W9_of_ne m c main_arg1 (by decide)).trans <| (W8_of_ne m c main_arg1 (by decide)).trans <|
    (V7_of m c main_arg1 (by decide)).trans <| (V6_of m c main_arg1 (by decide)).trans <| (V5_of m c main_arg1 (by decide)).trans <|
    (V4_of m c main_arg1 (by decide)).trans <| (V3_of m c main_arg1 (by decide)).trans <| (V2_of m c main_arg1 (by decide)).trans <|
    (V1_of m c main_arg1 (by decide)).trans rfl

/-! ## The proof data family and the thread state -/

abbrev adm' : (p : Fin 2) → (pcfgs (F := F) p).Adm := fun p => (cfgs p).toPCfg_adm
/-- Each call's proof data at the contents it is entered with. -/
def pdats : (p : Fin 2) → (c : Dev nD) → Dat τ (Elt F) Unit ℕ (UR sig nD τ) ℕ (Pipeline.pin (pcfgs (F := F)) adm' p) c
  | ⟨0, _⟩ => fun c => dat0 (R7 m) c
  | ⟨1, _⟩ => fun c => dat1 (R8 m) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev Rd (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (W10 m c) ∗ ∃ r, prngReg c r)

/-! ## The two calls as segments -/

set_option backward.isDefEq.respectTransparency.types false in
/-- The gather call: entered from every unscoped buffer at `V7`, left at `W8`. -/
def reg0 : Pipeline.RegionSeg (pcfgs (F := F)) adm' (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R7 m) c).loose
  hwaits := Pipeline.hwaits_of_owed_zero _ _ _ _ L lv 0 fun _ _ => rfl
  pre c := iprop(StableHlo.held (c : Thread nD τ) (Pipeline.ucRefs τ sig) (V7 m c) ∗ Rd c)
  post c := iprop(StableHlo.held (c : Thread nD τ) (Pipeline.ucRefs τ sig) (W8 m c) ∗ Rd c)
  X c := iprop(∃ r, prngReg c r)
  Y c := iprop(∃ r, prngReg c r)
  Z c := Pipeline.unscopedRest (Ix := Unit) (Name := ℕ) (U := UR sig nD τ) (Lvl := ℕ) spec0 c (R7 m c)
  hentry c := by
    rw [Pipeline.ownSems0_none]
    have hsplit := Pipeline.arrays_of_unscopedBufs (p := 0) (pcfgs (F := F)) adm' (pdats m) launch0.win launch0.arr_whole c
      ((pdats m 0 c).share_full fun _ => rfl) (R7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (R7 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm' (Ix := Unit) (Name := ℕ) (U := UR sig nD τ) (Lvl := ℕ)
      launch0.win launch0.arr_whole c (pdats m) ((pdats m 0 c).share_full fun _ => rfl)
      (R7 m c) (R8 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scatter-and-mean call: entered from every unscoped buffer at `W8`, left at `W9`. -/
def reg1 : Pipeline.RegionSeg (pcfgs (F := F)) adm' (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R8 m) c).loose
  hwaits := Pipeline.hwaits_of_owed_zero _ _ _ _ L lv 1 fun _ _ => rfl
  pre c := iprop(StableHlo.held (c : Thread nD τ) (Pipeline.ucRefs τ sig) (W8 m c) ∗ Rd c)
  post c := iprop(StableHlo.held (c : Thread nD τ) (Pipeline.ucRefs τ sig) (W9 m c) ∗ Rd c)
  X c := iprop(∃ r, prngReg c r)
  Y c := iprop(∃ r, prngReg c r)
  Z c := Pipeline.unscopedRest (Ix := Unit) (Name := ℕ) (U := UR sig nD τ) (Lvl := ℕ) spec1 c (R8 m c)
  hentry c := by
    rw [Pipeline.ownSems0_none]
    have hsplit := Pipeline.arrays_of_unscopedBufs (p := 1) (pcfgs (F := F)) adm' (pdats m) launch1.win launch1.arr_whole c
      ((pdats m 1 c).share_full fun _ => rfl) (R8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (R8 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m) ((pdats m 1 c).share_full fun _ => rfl)
      (R8 m c) (R9 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm' (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .host (hseg hostOps0_5 hostOps0_5_sub hostOps0_5_fresh (V5 m)),
    .host (hseg hostOps0_6 hostOps0_6_sub hostOps0_6_fresh (V6 m)),
    .region (reg0 m),
    .region (reg1 m),
    .host (hseg hostOps2 hostOps2_sub hostOps2_fresh (W9 m)) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and the final memory holds every unscoped buffer of every core at the last boundary's contents: in
    particular the result array at `W10` and the two argument arrays as launched. -/
theorem run_value : θ_run defs (onTc (τ := τ) (main (F := F))) ⟨m, fun _ => 0, ρ⟩ (fun r => ∀ c : Dev nD,
      r.2.mem ((c.tc : Thread nD τ).loc main_v13) = W10 m c (Proc.devRef .tc main_v13)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm' (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rd c)) (Tₙ := Tn m)
    (hch := ⟨fun _ => .rfl, fun _ => .rfl, fun _ => .rfl, fun _ => .rfl, fun _ => .rfl, fun _ => .rfl, fun _ => .rfl, fun _ => .rfl,
      fun _ => .rfl, fun _ => .rfl, fun c => by
        show iprop(StableHlo.held (c : Thread nD τ) (Pipeline.ucRefs τ sig) (W10 m c) ∗ Rd c)
          ⊢ iprop(Tn m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c =>
      ⟨h c _ (mem_uc main_v13 (by decide)),
       (h c _ (mem_uc main_arg0 (by decide))).trans (W10_main_arg0 m c),
       (h c _ (mem_uc main_arg1 (by decide))).trans (W10_main_arg1 m c)⟩)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.KernelIdeal.Fr

end
-- ==== Proof.Spec.lean ====
/-
  The mathematics both programs compute, stated once over the argument arrays.

  The inputs are the node features `x : 100000 × 32` (extended reals) and the edge list `ei : 2 × 1600000` (32-bit
  words): edge `e` runs from node `col e = ei[1, e]` to node `row e = ei[0, e]`.  The result at node `n`, feature `d` is the
  MEAN of the features of the sources of the edges that end at `n`:

      msg n d = ∑ e, [row e = n] · x (col e) d          deg n = ∑ e, [row e = n] · 1
      G n d   = msg n d / max (deg n) 1

  a row word is compared as a signed integer with the node number (a word outside `0 … 99999` ends at no node), and the
  column word is read as a node number under the hypothesis `ColOk` that it is one (`0 ≤ col e < 100000`).  The constant
  `1` is kept as the float word both programs carry.  Also here: the padded arrays the tiled program builds on the way
  (the features with a column of ones and 352 rows of zeros; the two index rows padded to 1601536 words), the one-hot
  weight of a node number against a word, and the two intermediate sums in the tiled program's own index sets.
-/
import Idealize.ShloMosaic.PureOps.Ideal
import Idealize.ShloMosaic.Lib.ValueIdx

noncomputable section

open scoped BigOperators

namespace Cert.Spec

open Idealize.ShloMosaic Idealize.ShloMosaic.ValueIdx

/-- The float word `1.0`, as both programs print it. -/
abbrev one : EReal := Ideal.ofBits .f32 0x3F800000#32
/-- The float word `0.0`. -/
abbrev zero : EReal := Ideal.ofBits .f32 0x00000000#32

abbrev SX : Shape := ⟨2, ![100000, 32]⟩
abbrev SE : Shape := ⟨2, ![2, 1600000]⟩
abbrev SXaug : Shape := ⟨2, ![100352, 33]⟩
abbrev SG : Shape := ⟨2, ![1601536, 33]⟩
abbrev SOutPad : Shape := ⟨2, ![100352, 32]⟩
abbrev SIdxPad : Shape := ⟨2, ![1, 1601536]⟩

/-- The row word of edge `e` (the node the edge ends at). -/
def rowW (ei : SE.Idx → BitVec 32) (e : Fin 1600000) : BitVec 32 := ei (ix2 (0 : Fin 2) e)
/-- The column word of edge `e` (the node the edge starts from). -/
def colW (ei : SE.Idx → BitVec 32) (e : Fin 1600000) : BitVec 32 := ei (ix2 (1 : Fin 2) e)

/-- Every column word names a node: `0 ≤ col e < 100000` as signed integers. -/
def ColOk (ei : SE.Idx → BitVec 32) : Prop :=
  ∀ e : Fin 1600000, 0 ≤ (colW ei e).toInt ∧ (colW ei e).toInt < 100000

/-- The node a column word names (meaningful under `ColOk`). -/
def colOf (ei : SE.Idx → BitVec 32) (e : Fin 1600000) : Fin 100000 :=
  ⟨(colW ei e).toNat % 100000, Nat.mod_lt _ (by decide)⟩

/-- The sum of the source features over the edges ending at node `n`. -/
def msg (x : SX.Idx → EReal) (ei : SE.Idx → BitVec 32) (n : Fin 100000) (d : Fin 32) : EReal :=
  ∑ e : Fin 1600000, if (rowW ei e).toInt = (n.val : Int) then x (ix2 (colOf ei e) d) else 0
/-- The number of edges ending at node `n`, counted in the float word `1.0`. -/
def deg (ei : SE.Idx → BitVec 32) (n : Fin 100000) : EReal :=
  ∑ e : Fin 1600000, if (rowW ei e).toInt = (n.val : Int) then one else 0
/-- THE RESULT: the mean of the source features over the edges ending at each node (the sum itself at an isolated node). -/
def G (x : SX.Idx → EReal) (ei : SE.Idx → BitVec 32) : SX.Idx → EReal :=
  fun i => Ideal.div (msg x ei (i 0 : Fin 100000) (i 1 : Fin 32)) (max (deg ei (i 0 : Fin 100000)) one)

/-! ## What the tiled program builds on the way -/

/-- The features with a column of ones appended and 352 rows of zeros below. -/
def xaug (x : SX.Idx → EReal) : SXaug.Idx → EReal := fun i =>
  if h0 : (i 0).val < 100000 then
    if h1 : (i 1).val < 32 then x (ix2 (⟨(i 0).val, h0⟩ : Fin 100000) (⟨(i 1).val, h1⟩ : Fin 32)) else one
  else zero
/-- The column words padded with the word `0` to 1601536 entries, as one row. -/
def colPad (ei : SE.Idx → BitVec 32) : SIdxPad.Idx → BitVec 32 := fun i =>
  if h : (i 1).val < 1600000 then colW ei ⟨(i 1).val, h⟩ else 0#32
/-- The row words padded with the word `100351` (a row past the last node) to 1601536 entries, as one row. -/
def rowPad (ei : SE.Idx → BitVec 32) : SIdxPad.Idx → BitVec 32 := fun i =>
  if h : (i 1).val < 1600000 then rowW ei ⟨(i 1).val, h⟩ else 100351#32

/-- The one-hot weight of node number `n` against the word `w`: `1` when `w` is the 32-bit word of `n`, else `0`
    (as the tiled program computes it: the comparison's bit widened to a word and converted to a float). -/
def oh (n : Nat) (w : BitVec 32) : EReal :=
  (FloatOps.sitofp (F := Ideal) .f32 ((IntOp.cmpi .eq (BitVec.ofNat 32 n) w).setWidth 32) : EReal)

/-- GATHER, as the first tiled call leaves it: row `e` is the one-hot combination of the rows of the padded features. -/
def gathered (xa : SXaug.Idx → EReal) (cp : SIdxPad.Idx → BitVec 32) : SG.Idx → EReal := fun i =>
  ∑ n : Fin 100352, oh n.val (cp (ix2 (0 : Fin 1) (i 0 : Fin 1601536))) * xa (ix2 n (i 1 : Fin 33))

/-- SCATTER and MEAN, as the second tiled call leaves it: row `n` is the one-hot combination of the gathered rows, its
    first 32 entries divided by the larger of its last entry and `1`. -/
def outPad (g : SG.Idx → EReal) (rp : SIdxPad.Idx → BitVec 32) : SOutPad.Idx → EReal := fun i =>
  Ideal.div (∑ e : Fin 1601536, oh (i 0).val (rp (ix2 (0 : Fin 1) e)) * g (ix2 e (⟨(i 1).val, Nat.lt_succ_of_lt (i 1).isLt⟩ : Fin 33)))
    (max (∑ e : Fin 1601536, oh (i 0).val (rp (ix2 (0 : Fin 1) e)) * g (ix2 e (⟨32, by decide⟩ : Fin 33))) one)

end Cert.Spec

end
-- ==== Proof.PreCol.lean ====
/-
  The printed precondition, read back: every column word of the edge list names a node.

  The precondition is the conjunction of two `all`s: every feature is finite, and every word `w` of row 1 of the
  edge array satisfies `0 ≤ w` and `w < 100000` as signed integers.  Only the second conjunct is read here.  An `all`
  that is 1 is 1 at each element.  Element `e` of the compared vector is the reshape to 1600000 words of the slice
  [1:2, 0:1600000] of the edge array, which reads the array at (1, e); the two bounds are scalars broadcast to every
  element.  So the two signed comparisons at element `e` are the two halves of `ColOk` at edge `e`.
-/
import proofs.«414928_j58308476011188_1_alg».proof.Proof.Gen.Pre_finite_inputs
import proofs.«414928_j58308476011188_1_alg».proof.Proof.Spec
import Idealize.ShloMosaic.Lib.ReduceAll
import Idealize.ShloMosaic.Lib.StableHlo.Predicate
import Idealize.ShloMosaic.Lib.ValueIdx
import Idealize.ShloMosaic.Lib.ValueLayout

noncomputable section

namespace Cert.PreCol

open Idealize.ShloMosaic Idealize.ShloMosaic.ValueIdx
open Cert.Pre_finite_inputs

/-- The scalar shape has exactly one index. -/
instance : Subsingleton S_.Idx := ⟨fun a b => funext fun d => d.elim0⟩

/-- Element `e` of the column vector the precondition compares — the slice [1:2, 0:1600000] of the edge array, reshaped
    to 1600000 words — is the array's word at (1, e): the reshape drops the leading unit axis, so it reads the slice at
    (0, e), and the slice starts at row 1. -/
private theorem col_read (ei : IVec S2x1600000 32) (hs : S2x1600000.Slices ![1, 0] S1x1600000)
    (hc : S1x1600000.ShapeCasts S1600000) (e : Fin 1600000) :
    shapeCast S1600000 (extractStridedSlice S1x1600000 ![1, 0] ei hs) hc (ix1 e) = ei (ix2 (1 : Fin 2) e) :=
  (shapeCast_1a_a_apply _ hc e).trans (slice2_axis0_apply 1 ei hs (0 : Fin 1) e (1 : Fin 2) rfl)

/-- THE PRECONDITION DECODED: each column word is a node number, `0 ≤ col e < 100000` as signed integers. -/
theorem colOk_of_pre {F : FTy → Type} [FloatOps F] (x : FVec F Cert.Pre_finite_inputs.S100000x32 .f32) (ei : IVec Cert.Pre_finite_inputs.S2x1600000 32)
    (h : Cert.Pre_finite_inputs.fn (F := F) x ei = fun _ => 1#1) : Cert.Spec.ColOk ei := by
  intro e
  -- the result has one index; there the outer conjunction is 1, so its second conjunct, the `all` over the words, is 1
  have h0 := congrFun h ValueIdx.ix0
  dsimp only [Cert.Pre_finite_inputs.fn] at h0
  have hall := (IntOp.andi_eq_one.1 h0).2
  -- an `all` that is 1 is 1 at element `e`, and there the inner conjunction gives the two comparisons
  have he := Host.reduce_andi_all _ _ _ _ _ hall (ix1 e)
  obtain ⟨hge, hlt⟩ := IntOp.andi_eq_one.1 he
  -- a signed comparison that is 1 is the order of the signed values; the compared word is the array's word at (1, e)
  have hge' := IntOp.cmpi_sge.1 hge
  have hlt' := IntOp.cmpi_slt.1 hlt
  rw [col_read] at hge' hlt'
  exact ⟨hge', hlt'⟩

end Cert.PreCol

end
-- ==== Proof.KI.Pay.lean ====
/-
  The two tiled calls' arithmetic at the ideal values, read at one index.

  Every float is an extended real and every operation is exact, so each stored value is a closed expression in the
  values loaded before it: the zero fill is `0`; the accumulation step adds to the running block the sum, over the
  contracted axis, of the one-hot weight times the other operand; the final step divides the first 32 columns of a
  row by the larger of its last column and `1`.  The one-hot weight of row `r` of the comparison matrix against the
  index word `w` is the comparison of the word of `base * 1024 + r` with `w`, widened and converted: the row number
  word plus the word `base * 1024` is the word of the sum, because the word of a natural number is a ring map.
-/
import proofs.«414928_j58308476011188_1_alg».proof.Proof.Gen.KernelIdeal.Skeleton
import proofs.«414928_j58308476011188_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Cert.Spec Idealize.ShloMosaic Idealize.ShloMosaic.ValueIdx

/-! ## Words -/

/-- The word of a row number plus the word of `c` times the word `1024` is the word of `c * 1024 + r`. -/
private theorem word_base_add (c r : Nat) :
    BitVec.ofNat 32 r + BitVec.ofNat 32 c * 1024#32 = BitVec.ofNat 32 (c * 1024 + r) := by
  rw [Nat.add_comm, BitVec.ofNat_add, BitVec.ofNat_mul]

/-! ## The zero fills -/

theorem pay0_1 (j : S4096x33.Idx) : k0_pay1 (F := Ideal) j = 0 := by
  unfold k0_pay1
  rw [shapeCast_self]
  exact Ideal.ofBits_zero_f32

theorem pay1_1 (j : S1024x33.Idx) : k1_pay1 (F := Ideal) j = 0 := by
  unfold k1_pay1
  rw [shapeCast_self]
  exact Ideal.ofBits_zero_f32

/-! ## The one-hot weight at an index -/

/-- Row `r`, column `e` of the comparison matrix: the word of `r` plus the word `c * 1024`, compared with the index
    word of column `e`, widened and converted — the one-hot weight of `c * 1024 + r` against that word. -/
private theorem onehot_apply (c : Nat) (v7 : Vec Ideal S1x4096 .i32)
    (hi : S1024x4096.Iotas .tc 32 [0]) (hs : S1x4096.ShapeCasts S1x4096) (hb : S1x4096.Broadcasts S1024x4096)
    (h1 : 1 < 32) (hf : FTy.bits .bf16 < FTy.bits .f32) (r : Fin 1024) (e : Fin 4096) :
    (truncf .bf16 (sitofp (F := Ideal) .f32 (extui 32 (cmpi .eq
        (addi (iota .tc S1024x4096 32 [0] hi) (broadcast S1024x4096 (Scalar.muli (BitVec.ofNat 32 c) 1024#32)))
        (broadcastTo S1024x4096 (shapeCast S1x4096 v7 hs) hb)) h1)) hf : FVec Ideal S1024x4096 .bf16) (ix2 r e)
      = oh (c * 1024 + r.val) (v7 (ix2 (0 : Fin 1) e)) := by
  show FloatOps.sitofp (F := Ideal) .f32 ((IntOp.cmpi .eq
      (IntOp.addi (iota .tc S1024x4096 32 [0] hi (ix2 r e)) (IntOp.muli (BitVec.ofNat 32 c) 1024#32))
      (broadcastTo S1024x4096 (shapeCast S1x4096 v7 hs) hb (ix2 r e))).setWidth 32) = _
  rw [iota_single_apply, shapeCast_self, broadcastTo_1b_ab_apply]
  show FloatOps.sitofp (F := Ideal) .f32 ((IntOp.cmpi .eq
      (BitVec.ofNat 32 r.val + BitVec.ofNat 32 c * 1024#32) (v7 (ix2 (0 : Fin 1) e))).setWidth 32) = _
  rw [word_base_add]
  rfl

/-! ## The operand indices of the two contractions -/

private theorem lhs0_0 (j : S4096x33.Idx) (q : dot_S1024x4096_S1024x33_S4096x33_0_0_1_1_n_n.contr.Idx) :
    (dot_S1024x4096_S1024x33_S4096x33_0_0_1_1_n_n.lhsIdx j q 0).val = (q ⟨0, by decide⟩).val :=
  dot_S1024x4096_S1024x33_S4096x33_0_0_1_1_n_n.lhsIdx_val_of_single rfl j q
private theorem lhs0_1 (j : S4096x33.Idx) (q : dot_S1024x4096_S1024x33_S4096x33_0_0_1_1_n_n.contr.Idx) :
    (dot_S1024x4096_S1024x33_S4096x33_0_0_1_1_n_n.lhsIdx j q 1).val = (j 0).val := by
  unfold DotDims.lhsIdx
  rw [dif_neg (show ¬(1 : Fin S1024x4096.rank) ∈ dot_S1024x4096_S1024x33_S4096x33_0_0_1_1_n_n.lhsBatch by decide), dif_pos (show (1 : Fin S1024x4096.rank) ∈ dot_S1024x4096_S1024x33_S4096x33_0_0_1_1_n_n.lhsNonContracting by decide)]
  rfl
private theorem rhs0_0 (j : S4096x33.Idx) (q : dot_S1024x4096_S1024x33_S4096x33_0_0_1_1_n_n.contr.Idx) :
    (dot_S1024x4096_S1024x33_S4096x33_0_0_1_1_n_n.rhsIdx j q 0).val = (q ⟨0, by decide⟩).val :=
  dot_S1024x4096_S1024x33_S4096x33_0_0_1_1_n_n.rhsIdx_val_of_single rfl j q
private theorem rhs0_1 (j : S4096x33.Idx) (q : dot_S1024x4096_S1024x33_S4096x33_0_0_1_1_n_n.contr.Idx) :
    (dot_S1024x4096_S1024x33_S4096x33_0_0_1_1_n_n.rhsIdx j q 1).val = (j 1).val := by
  unfold DotDims.rhsIdx
  rw [dif_neg (show ¬(1 : Fin S1024x33.rank) ∈ dot_S1024x4096_S1024x33_S4096x33_0_0_1_1_n_n.rhsBatch by decide), dif_pos (show (1 : Fin S1024x33.rank) ∈ dot_S1024x4096_S1024x33_S4096x33_0_0_1_1_n_n.rhsNonContracting by decide)]
  rfl

private theorem lhs1_0 (j : S1024x33.Idx) (q : dot_S1024x4096_S4096x33_S1024x33_1_0_0_1_n_n.contr.Idx) :
    (dot_S1024x4096_S4096x33_S1024x33_1_0_0_1_n_n.lhsIdx j q 0).val = (j 0).val := by
  unfold DotDims.lhsIdx
  rw [dif_neg (show ¬(0 : Fin S1024x4096.rank) ∈ dot_S1024x4096_S4096x33_S1024x33_1_0_0_1_n_n.lhsBatch by decide), dif_pos (show (0 : Fin S1024x4096.rank) ∈ dot_S1024x4096_S4096x33_S1024x33_1_0_0_1_n_n.lhsNonContracting by decide)]
  rfl
private theorem lhs1_1 (j : S1024x33.Idx) (q : dot_S1024x4096_S4096x33_S1024x33_1_0_0_1_n_n.contr.Idx) :
    (dot_S1024x4096_S4096x33_S1024x33_1_0_0_1_n_n.lhsIdx j q 1).val = (q ⟨0, by decide⟩).val :=
  dot_S1024x4096_S4096x33_S1024x33_1_0_0_1_n_n.lhsIdx_val_of_single rfl j q
private theorem rhs1_0 (j : S1024x33.Idx) (q : dot_S1024x4096_S4096x33_S1024x33_1_0_0_1_n_n.contr.Idx) :
    (dot_S1024x4096_S4096x33_S1024x33_1_0_0_1_n_n.rhsIdx j q 0).val = (q ⟨0, by decide⟩).val :=
  dot_S1024x4096_S4096x33_S1024x33_1_0_0_1_n_n.rhsIdx_val_of_single rfl j q
private theorem rhs1_1 (j : S1024x33.Idx) (q : dot_S1024x4096_S4096x33_S1024x33_1_0_0_1_n_n.contr.Idx) :
    (dot_S1024x4096_S4096x33_S1024x33_1_0_0_1_n_n.rhsIdx j q 1).val = (j 1).val := by
  unfold DotDims.rhsIdx
  rw [dif_neg (show ¬(1 : Fin S4096x33.rank) ∈ dot_S1024x4096_S4096x33_S1024x33_1_0_0_1_n_n.rhsBatch by decide), dif_pos (show (1 : Fin S4096x33.rank) ∈ dot_S1024x4096_S4096x33_S1024x33_1_0_0_1_n_n.rhsNonContracting by decide)]
  rfl

/-! ## The accumulation steps -/

/-- The first call's step: the running block plus, over the 1024 rows of the feature block, the one-hot weight of the
    row's node number against the edge's column word times the feature. -/
theorem pay0_2 (i : grid0.Coords) (v7 : Vec Ideal S1x4096 .i32) (v14 : Vec Ideal S1024x33 .f32) (v17 : Vec Ideal S4096x33 .f32) (e : Fin 4096) (d : Fin 33) :
    k0_pay2 i v7 v14 v17 (ix2 e d) = v17 (ix2 e d) + ∑ n : Fin 1024, oh ((i 1).val * 1024 + n.val) (v7 (ix2 (0 : Fin 1) e)) * v14 (ix2 n d) := by
  unfold k0_pay2
  rw [shapeCast_self]
  refine congrArg (v17 (ix2 e d) + ·) ?_
  refine (Ideal.matmul_constant_zero_apply dot_S1024x4096_S1024x33_S4096x33_0_0_1_1_n_n none _ _ (ix2 e d)).trans ?_
  rw [← Equiv.sum_comp (contrEquiv1 dot_S1024x4096_S1024x33_S4096x33_0_0_1_1_n_n 1024 rfl rfl).symm]
  refine Finset.sum_congr rfl fun k _ => ?_
  have hk := contrEquiv1_symm_val dot_S1024x4096_S1024x33_S4096x33_0_0_1_1_n_n 1024 rfl rfl k
  have el : dot_S1024x4096_S1024x33_S4096x33_0_0_1_1_n_n.lhsIdx (ix2 e d) ((contrEquiv1 dot_S1024x4096_S1024x33_S4096x33_0_0_1_1_n_n 1024 rfl rfl).symm k) = ix2 k e :=
    funext fun a => Fin.ext (by
      match a with
      | ⟨0, _⟩ => exact (lhs0_0 _ _).trans hk
      | ⟨1, _⟩ => exact lhs0_1 _ _)
  have er : dot_S1024x4096_S1024x33_S4096x33_0_0_1_1_n_n.rhsIdx (ix2 e d) ((contrEquiv1 dot_S1024x4096_S1024x33_S4096x33_0_0_1_1_n_n 1024 rfl rfl).symm k) = ix2 k d :=
    funext fun a => Fin.ext (by
      match a with
      | ⟨0, _⟩ => exact (rhs0_0 _ _).trans hk
      | ⟨1, _⟩ => exact rhs0_1 _ _)
  rw [el, er]
  refine congrArg₂ (· * ·) ?_ ?_
  · exact onehot_apply (i 1).val v7 _ _ _ _ _ k e
  · exact congrFun (shapeCast_self v14 _) (ix2 k d)

/-- The second call's step: the running block plus, over the 4096 edges of the gathered block, the one-hot weight of the
    row's node number against the edge's row word times the gathered feature. -/
theorem pay1_2 (i : grid1.Coords) (v7 : Vec Ideal S1x4096 .i32) (v14 : Vec Ideal S4096x33 .f32) (v17 : Vec Ideal S1024x33 .f32) (n : Fin 1024) (d : Fin 33) :
    k1_pay2 i v7 v14 v17 (ix2 n d) = v17 (ix2 n d) + ∑ e : Fin 4096, oh ((i 0).val * 1024 + n.val) (v7 (ix2 (0 : Fin 1) e)) * v14 (ix2 e d) := by
  unfold k1_pay2
  rw [shapeCast_self]
  refine congrArg (v17 (ix2 n d) + ·) ?_
  refine (Ideal.matmul_constant_zero_apply dot_S1024x4096_S4096x33_S1024x33_1_0_0_1_n_n none _ _ (ix2 n d)).trans ?_
  rw [← Equiv.sum_comp (contrEquiv1 dot_S1024x4096_S4096x33_S1024x33_1_0_0_1_n_n 4096 rfl rfl).symm]
  refine Finset.sum_congr rfl fun k _ => ?_
  have hk := contrEquiv1_symm_val dot_S1024x4096_S4096x33_S1024x33_1_0_0_1_n_n 4096 rfl rfl k
  have el : dot_S1024x4096_S4096x33_S1024x33_1_0_0_1_n_n.lhsIdx (ix2 n d) ((contrEquiv1 dot_S1024x4096_S4096x33_S1024x33_1_0_0_1_n_n 4096 rfl rfl).symm k) = ix2 n k :=
    funext fun a => Fin.ext (by
      match a with
      | ⟨0, _⟩ => exact lhs1_0 _ _
      | ⟨1, _⟩ => exact (lhs1_1 _ _).trans hk)
  have er : dot_S1024x4096_S4096x33_S1024x33_1_0_0_1_n_n.rhsIdx (ix2 n d) ((contrEquiv1 dot_S1024x4096_S4096x33_S1024x33_1_0_0_1_n_n 4096 rfl rfl).symm k) = ix2 k d :=
    funext fun a => Fin.ext (by
      match a with
      | ⟨0, _⟩ => exact (rhs1_0 _ _).trans hk
      | ⟨1, _⟩ => exact rhs1_1 _ _)
  rw [el, er]
  refine congrArg₂ (· * ·) ?_ ?_
  · exact onehot_apply (i 0).val v7 _ _ _ _ _ n k
  · exact congrFun (shapeCast_self v14 _) (ix2 k d)

/-! ## The mean -/

/-- A column `[a, 1]` broadcast to `[a, b]` reads, at `(p, c)`, the operand's row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The last step: each of the first 32 entries of a row divided by the larger of the row's last entry and `1`. -/
theorem pay1_3 (v26 : Vec Ideal S1024x33 .f32) (n : Fin 1024) (d : Fin 32) :
    k1_pay3 v26 (ix2 n d) = Ideal.div (v26 (ix2 n (⟨d.val, Nat.lt_succ_of_lt d.isLt⟩ : Fin 33))) (max (v26 (ix2 n (⟨32, by decide⟩ : Fin 33))) one) := by
  unfold k1_pay3
  show Ideal.div (extractStridedSlice S1024x32 ![0, 0] v26 slices_S1024x33_o0_0_S1024x32 (ix2 n d))
      (broadcastTo S1024x32 (maximumf (extractStridedSlice S1024x1 ![0, 32] v26 slices_S1024x33_o0_32_S1024x1)
        (broadcast S1024x1 (Scalar.ofBits (F := Ideal) .f32 0x3F800000#32))) broadcasts_S1024x1_S1024x32 (ix2 n d)) = _
  refine congrArg₂ Ideal.div ?_ ?_
  · exact slice2_axis1_apply 0 v26 _ n d _ (Nat.zero_add _).symm
  · refine (broadcastTo_a1_ab_apply _ _ n d).trans ?_
    refine congrArg₂ max ?_ rfl
    exact slice2_axis1_apply 32 v26 _ n (0 : Fin 1) _ rfl

end Cert.KernelIdeal.Pay

end
-- ==== Proof.KI.Val0.lean ====
/-
  The value of the gather call's output array after its whole grid has run, at the ideal values, as one function of
  the arrays the call is entered with.

  The call runs over 391 edge blocks of 4096 edges, and for each over 98 reduction positions of 1024 rows of the padded
  features.  At a position the body adds to an accumulator block the product of the one-hot matrix of the block's index
  words (against the row numbers of the position's 1024 rows) with those rows; the accumulator starts from zero at the
  first position and is copied to the output block at the last.  So after position s the accumulator at edge e, column d
  holds the one-hot combination of the first (s + 1) * 1024 rows against the index word of e, and what is written back
  is the combination of all 98 * 1024 = 100352 rows: the gathered row.  The 391 written blocks tile the output array.

  In order: what each case of the body leaves, as the step function of the blocks it reads; the input blocks and the
  output block read off their arrays at explicit coordinates; the accumulator after each point, by induction on the
  point; the written-back block, the cover, and the array.
-/
import proofs.«414928_j58308476011188_1_alg».proof.Proof.KI.Dat0
import proofs.«414928_j58308476011188_1_alg».proof.Proof.KI.Pay
import proofs.«414928_j58308476011188_1_alg».proof.Proof.Spec
import Idealize.ShloMosaic.Lib.Pipeline.Value
import Idealize.ShloMosaic.Lib.ValueIdx
import Idealize.ShloMosaic.Lib.Tactic
import Mathlib.Algebra.BigOperators.Fin

set_option maxRecDepth 16384

noncomputable section

open scoped BigOperators

namespace Cert.KernelIdeal.Val0

open Cert.KernelIdeal Cert.KernelIdeal.Gen Cert.KernelIdeal.Fr Cert.Spec
open Idealize.ShloMosaic Idealize.ShloMosaic.ValueIdx Idealize.ShloMosaic.TcCoe Idealize.SL.Sem
open Idealize.ShloMosaic.Pipeline (Dat)

/-! ## What each case of the body leaves, as the step function of the blocks it reads

The body's step takes the index block, the feature block and an accumulator block, and returns the accumulator block
plus the product of the one-hot matrix of the index block (rows numbered from 1024 times the reduction position) with
the feature block.  At the first reduction position the accumulator it adds to is the zero block stored just before;
at the last position the output block receives a copy of the accumulator just stored. -/

section Pieces
variable {F : FTy → Type} [FloatOps F]

theorem hz : (![0, 0] : Fin 2 → Nat) = fun _ => 0 := funext fun a => by fin_cases a <;> rfl

/-- A middle position leaves the step applied to what the accumulator held. -/
theorem soutB_eq (c : Dev nD) (i : grid0.Coords) (a2 : Memref sig .tc .vmem S1x4096 .i32) (h2 : a2.IsWhole) (a3 : Memref sig .tc .vmem S1024x33 .f32) (h3 : a3.IsWhole) (a4 : Memref sig .tc .vmem S4096x33 .f32) (h4 : a4.IsWhole) (a5 : Memref sig .tc .vmem S4096x33 .f32) (h5 : a5.IsWhole) (hc0 : ¬cond0_0 i) (hc1 : ¬cond0_1 i)
    (x0 : Vec F S1x4096 .i32) (x1 : Vec F S1024x33 .f32) (xs0 : Vec F S4096x33 .f32) :
    sout0_B c i a2 h2 a3 h3 a4 h4 a5 h5 hc0 hc1 x0 x1 xs0 = k0_pay2 i x0 x1 xs0 := by
  unfold sout0_B
  rw [View.read_writes_eq_canon _ _ _ (scover0_B c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread, View.ld_unit_zero (S := S1x4096) hz, View.ld_unit_zero (S := S1024x33) hz, View.ld_unit_zero (S := S4096x33) hz]

/-- The first position leaves the step applied to the zero block it has just stored. -/
theorem soutA_eq (c : Dev nD) (i : grid0.Coords) (a2 : Memref sig .tc .vmem S1x4096 .i32) (h2 : a2.IsWhole) (a3 : Memref sig .tc .vmem S1024x33 .f32) (h3 : a3.IsWhole) (a4 : Memref sig .tc .vmem S4096x33 .f32) (h4 : a4.IsWhole) (a5 : Memref sig .tc .vmem S4096x33 .f32) (h5 : a5.IsWhole) (hc0 : cond0_0 i) (hc1 : ¬cond0_1 i)
    (x0 : Vec F S1x4096 .i32) (x1 : Vec F S1024x33 .f32) :
    sout0_A c i a2 h2 a3 h3 a4 h4 a5 h5 hc0 hc1 x0 x1 = k0_pay2 i x0 x1 (k0_pay1 (F := F)) := by
  unfold sout0_A
  rw [View.read_writes_eq_canon _ _ _ (scover0_A c i a2 h2 a3 h3 a4 h4 a5 h5 hc0 hc1 x0 x1)]
  unfold kernelRun0_A
  dsimp only
  sl_unfold_words
  rw [View.canon_cons_unit_zero (S := S4096x33) hz, View.readCov_unit_zero (S := S4096x33) _ hz]
  simp only [View.readAt_eq_ld, h2.read_unread, h3.read_unread, View.ld_unit_zero (S := S1x4096) hz, View.ld_unit_zero (S := S1024x33) hz]

/-- The last position leaves the same step in the accumulator, -/
theorem soutC_eq (c : Dev nD) (i : grid0.Coords) (a2 : Memref sig .tc .vmem S1x4096 .i32) (h2 : a2.IsWhole) (a3 : Memref sig .tc .vmem S1024x33 .f32) (h3 : a3.IsWhole) (a4 : Memref sig .tc .vmem S4096x33 .f32) (h4 : a4.IsWhole) (a5 : Memref sig .tc .vmem S4096x33 .f32) (h5 : a5.IsWhole) (hc0 : ¬cond0_0 i) (hc1 : cond0_1 i)
    (x0 : Vec F S1x4096 .i32) (x1 : Vec F S1024x33 .f32) (xs0 : Vec F S4096x33 .f32) :
    sout0_C c i a2 h2 a3 h3 a4 h4 a5 h5 hc0 hc1 x0 x1 xs0 = k0_pay2 i x0 x1 xs0 := by
  unfold sout0_C
  rw [View.read_writes_eq_canon _ _ _ (scover0_C c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1x4096) hz, View.ld_unit_zero (S := S1024x33) hz, View.ld_unit_zero (S := S4096x33) hz]

/-- and copies it into the output block. -/
theorem outC_eq (c : Dev nD) (i : grid0.Coords) (a2 : Memref sig .tc .vmem S1x4096 .i32) (h2 : a2.IsWhole) (a3 : Memref sig .tc .vmem S1024x33 .f32) (h3 : a3.IsWhole) (a4 : Memref sig .tc .vmem S4096x33 .f32) (h4 : a4.IsWhole) (a5 : Memref sig .tc .vmem S4096x33 .f32) (h5 : a5.IsWhole) (hc0 : ¬cond0_0 i) (hc1 : cond0_1 i)
    (x0 : Vec F S1x4096 .i32) (x1 : Vec F S1024x33 .f32) (xs0 : Vec F S4096x33 .f32) :
    out0_C c i a2 h2 a3 h3 a4 h4 a5 h5 hc0 hc1 x0 x1 xs0 = k0_pay2 i x0 x1 xs0 := by
  unfold out0_C
  rw [View.read_writes_eq_canon _ _ _ (cover0_C c i a2 h2 a3 h3 a4 h4 a5 h5 hc0 hc1 x0 x1 xs0)]
  unfold kernelRun0_C
  dsimp only
  sl_unfold_words
  rw [View.canon_unit_zero hz, View.readCov_unit_zero (S := S4096x33) _ hz]
  simp only [View.readAt_eq_ld, h2.read_unread, h3.read_unread, h5.read_unread, View.ld_unit_zero (S := S1x4096) hz, View.ld_unit_zero (S := S1024x33) hz, View.ld_unit_zero (S := S4096x33) hz]

end Pieces

/-! ## The input blocks, read off the arrays the call is entered with

At point t (reduction position t % 98 of edge block t / 98) the index window holds words
(t / 98) * 4096 ... of the index row, and the feature window holds rows (t % 98) * 1024 ... of the padded features:
a block's coordinate in its array is the block index times the block size plus the coordinate inside the block. -/

section Reads
variable {F : FTy → Type} [FloatOps F]
variable (V : (c : Dev nD) → (b : Ref sig .tc) → Buf (Elt F) ((c : Thread nD τ).loc b))

/-- The index window's block index at point t is (0, t / 98). -/
theorem index0_0 (t : Fin cfg0.N) : (cfg0.win 0).index t = ![0, t.val / 98] := by
  have hN : t.val < 38318 := lt_of_lt_of_eq t.isLt (show cfg0.N = 38318 from N_0)
  show cc0_transform_0 (grid0.coords t) = _
  unfold cc0_transform_0; dsimp only
  rw [coord0_0]
  have e : (BitVec.ofNat 32 (t.val / 98)).toNat = t.val / 98 := by
    rw [BitVec.toNat_ofNat]; exact Nat.mod_eq_of_lt (by omega)
  rw [e]; rfl

/-- The feature window's block index at point t is (t % 98, 0). -/
theorem index0_1 (t : Fin cfg0.N) : (cfg0.win 1).index t = ![t.val % 98, 0] := by
  show cc0_transform_1 (grid0.coords t) = _
  unfold cc0_transform_1; dsimp only
  rw [coord0_1]
  have e : (BitVec.ofNat 32 (t.val % 98)).toNat = t.val % 98 := by
    rw [BitVec.toNat_ofNat]; exact Nat.mod_eq_of_lt (by omega)
  rw [e]; rfl

/-- The index block and the feature block at a point, and the two arrays they are blocks of, at their literal types. -/
abbrev cblk (c : Dev nD) (t : Fin cfg0.N) : Vec F S1x4096 .i32 := iblk0 V c 0 t
abbrev xblk (c : Dev nD) (t : Fin cfg0.N) : Vec F S1024x33 .f32 := iblk0 V c 1 t
abbrev carr (c : Dev nD) : Vec F S1x1601536 .i32 := V c main_v9
abbrev xarr (c : Dev nD) : Vec F S100352x33 .f32 := V c main_v6

/-- Word e of the index block at point t is word (t / 98) * 4096 + e of the index row. -/
theorem cblk_apply (c : Dev nD) (t : Fin cfg0.N) (e : Fin 4096) (h : t.val / 98 * 4096 + e.val < 1601536) :
    cblk V c t (ix2 (0 : Fin 1) e) = carr V c (ix2 (0 : Fin 1) (⟨t.val / 98 * 4096 + e.val, h⟩ : Fin 1601536)) := by
  show iblk0 V c 0 t (ix2 (0 : Fin 1) e) = _
  unfold iblk0
  rw [View.read_apply]
  show V c main_v9 _ = V c main_v9 _
  congr 1
  funext a
  apply Fin.ext
  match a with
  | ⟨0, _⟩ => show (cfg0.win 0).index t 0 * 1 + 1 * 0 = 0; rw [index0_0]; rfl
  | ⟨1, _⟩ => show (cfg0.win 0).index t 1 * 4096 + 1 * e.val = t.val / 98 * 4096 + e.val; rw [index0_0]; show t.val / 98 * 4096 + 1 * e.val = _; omega

/-- Row n of the feature block at point t is row (t % 98) * 1024 + n of the padded features. -/
theorem xblk_apply (c : Dev nD) (t : Fin cfg0.N) (n : Fin 1024) (d : Fin 33) (h : t.val % 98 * 1024 + n.val < 100352) :
    xblk V c t (ix2 n d) = xarr V c (ix2 (⟨t.val % 98 * 1024 + n.val, h⟩ : Fin 100352) d) := by
  show iblk0 V c 1 t (ix2 n d) = _
  unfold iblk0
  rw [View.read_apply]
  show V c main_v6 _ = V c main_v6 _
  congr 1
  funext a
  apply Fin.ext
  match a with
  | ⟨0, _⟩ => show (cfg0.win 1).index t 0 * 1024 + 1 * n.val = t.val % 98 * 1024 + n.val; rw [index0_1]; show t.val % 98 * 1024 + 1 * n.val = _; omega
  | ⟨1, _⟩ => show (cfg0.win 1).index t 1 * 33 + 1 * d.val = d.val; rw [index0_1]; show 0 * 33 + 1 * d.val = _; omega

/-- Entry (e, d) of the output window's block at point t is entry ((t / 98) * 4096 + e, d) of its array: any contents of
    the output array, read through the block. -/
theorem oblk_apply (A : Vec F S1601536x33 .f32) (t : Fin cfg0.N) (e : Fin 4096) (d : Fin 33)
    (h : t.val / 98 * 4096 + e.val < 1601536) :
    ((cfg0.win 2).blk t).view.read (Elt F) A (ix2 e d) = A (ix2 (⟨t.val / 98 * 4096 + e.val, h⟩ : Fin 1601536) d) := by
  rw [View.read_apply]
  show A _ = A _
  congr 1
  funext a
  apply Fin.ext
  match a with
  | ⟨0, _⟩ => show (cfg0.win 2).index t 0 * 4096 + 1 * e.val = t.val / 98 * 4096 + e.val; rw [index0_2]; show t.val / 98 * 4096 + 1 * e.val = _; omega
  | ⟨1, _⟩ => show (cfg0.win 2).index t 1 * 33 + 1 * d.val = d.val; rw [index0_2]; show 0 * 33 + 1 * d.val = _; omega

end Reads

/-! ## The accumulator after each point

Fix an edge e of edge block b and a feature column d, and let w be the edge's index word.  After the point at reduction
position s of block b the accumulator at (e, d) is the one-hot combination, against w, of the first (s + 1) * 1024 rows
of the padded features: the first position starts from the zero block, and every position adds the combination of its
own 1024 rows. -/

section Acc

/-- Row j of the padded features at column d (zero past the last row, which no sum below reaches). -/
def rowAt (xa : S100352x33.Idx → EReal) (d : Fin 33) (j : ℕ) : EReal :=
  if h : j < 100352 then xa (ix2 (⟨j, h⟩ : Fin 100352) d) else 0

/-- Word j of the index row (the zero word past its end, which no point reaches). -/
def wordAt (ca : S1x1601536.Idx → BitVec 32) (j : ℕ) : BitVec 32 :=
  if h : j < 1601536 then ca (ix2 (0 : Fin 1) (⟨j, h⟩ : Fin 1601536)) else 0#32

/-- The one-hot combination of the first k rows of the padded features against the word w, at column d. -/
def psum (xa : S100352x33.Idx → EReal) (w : BitVec 32) (d : Fin 33) (k : ℕ) : EReal :=
  ∑ j ∈ Finset.range k, oh j w * rowAt xa d j

/-- One more block of 1024 rows. -/
theorem psum_step (xa : S100352x33.Idx → EReal) (w : BitVec 32) (d : Fin 33) (s : ℕ) :
    psum xa w d ((s + 1) * 1024)
      = psum xa w d (s * 1024) + ∑ n : Fin 1024, oh (s * 1024 + n.val) w * rowAt xa d (s * 1024 + n.val) := by
  unfold psum
  rw [show (s + 1) * 1024 = s * 1024 + 1024 from by omega, Finset.sum_range_add]
  exact congrArg (_ + ·) (Finset.sum_range fun x => oh (s * 1024 + x) w * rowAt xa d (s * 1024 + x))

/-- All 98 blocks: the combination of every row of the padded features. -/
theorem psum_full (xa : S100352x33.Idx → EReal) (w : BitVec 32) (d : Fin 33) :
    psum xa w d 100352 = ∑ n : Fin 100352, oh n.val w * xa (ix2 n d) := by
  unfold psum
  rw [Finset.sum_range]
  refine Finset.sum_congr rfl fun n _ => ?_
  unfold rowAt
  rw [dif_pos n.isLt]

/-- THE STEP at one entry, over any blocks that are the blocks of reduction position s of edge block b: if the
    accumulator block holds the combination of the first s * 1024 rows at (e, d), the step leaves the combination of
    the first (s + 1) * 1024 rows there. -/
theorem step_eq (xa : S100352x33.Idx → EReal) (ca : S1x1601536.Idx → BitVec 32) (i : grid0.Coords) (s b : ℕ)
    (hi : (i 1).val = s)
    (v7 : Vec Ideal S1x4096 .i32) (v14 : Vec Ideal S1024x33 .f32) (v17 : Vec Ideal S4096x33 .f32)
    (h7 : ∀ e : Fin 4096, v7 (ix2 (0 : Fin 1) e) = wordAt ca (b * 4096 + e.val))
    (h14 : ∀ (n : Fin 1024) (d : Fin 33), v14 (ix2 n d) = rowAt xa d (s * 1024 + n.val))
    (e : Fin 4096) (d : Fin 33)
    (h17 : v17 (ix2 e d) = psum xa (wordAt ca (b * 4096 + e.val)) d (s * 1024)) :
    k0_pay2 i v7 v14 v17 (ix2 e d) = psum xa (wordAt ca (b * 4096 + e.val)) d ((s + 1) * 1024) := by
  rw [Pay.pay0_2 i v7 v14 v17 e d, psum_step, h17, h7 e, hi]
  refine congrArg (psum xa (wordAt ca (b * 4096 + e.val)) d (s * 1024) + ·) ?_
  refine Finset.sum_congr rfl fun n _ => ?_
  rw [h14 n d]

variable (V : (c : Dev nD) → (b : Ref sig .tc) → Buf (Elt Ideal) ((c : Thread nD τ).loc b))

/-- The index block at point t, word by word, off the index row. -/
theorem cblk_word (c : Dev nD) (t : Fin cfg0.N) (e : Fin 4096) :
    cblk V c t (ix2 (0 : Fin 1) e) = wordAt (carr V c) (t.val / 98 * 4096 + e.val) := by
  have hN : t.val < 38318 := lt_of_lt_of_eq t.isLt (show cfg0.N = 38318 from N_0)
  have h : t.val / 98 * 4096 + e.val < 1601536 := by have := e.isLt; omega
  refine (cblk_apply V c t e h).trans ?_
  unfold wordAt
  rw [dif_pos h]

/-- The feature block at point t, row by row, off the padded features. -/
theorem xblk_row (c : Dev nD) (t : Fin cfg0.N) (n : Fin 1024) (d : Fin 33) :
    xblk V c t (ix2 n d) = rowAt (xarr V c) d (t.val % 98 * 1024 + n.val) := by
  have h : t.val % 98 * 1024 + n.val < 100352 := by have := n.isLt; omega
  refine (xblk_apply V c t n d h).trans ?_
  unfold rowAt
  rw [dif_pos h]

/-- One point: if the point before left the combination of the first (t % 98) * 1024 rows (nothing is asked at the
    first reduction position, where the accumulator is reset), this point leaves that of the first (t % 98 + 1) * 1024. -/
theorem acc_step (c : Dev nD) (t : Fin cfg0.N) (e : Fin 4096) (d : Fin 33)
    (hprev : ¬t.val % 98 = 0 → (outsAt0 V c (t.val - 1) (Nat.lt_of_le_of_lt (Nat.sub_le _ _) t.isLt)).2 (ix2 e d)
      = psum (xarr V c) (wordAt (carr V c) (t.val / 98 * 4096 + e.val)) d (t.val % 98 * 1024)) :
    (outsAt0 V c t.val t.isLt).2 (ix2 e d)
      = psum (xarr V c) (wordAt (carr V c) (t.val / 98 * 4096 + e.val)) d ((t.val % 98 + 1) * 1024) := by
  by_cases h0 : t.val % 98 = 0
  · have h1 : ¬t.val % 98 = 97 := by omega
    rw [outsAt0_A V c t h0 h1]
    dsimp only
    refine (congrFun (soutA_eq (F := Ideal) c (grid0.coords t) (ms0_0 t) (hs0_0 t) (ms0_1 t) (hs0_1 t) (ms0_2 t) (hs0_2 t) scM0 (Memref.isWhole_whole _) ((hcond0_0 t).mpr h0) (fun h => h1 ((hcond0_1 t).mp h)) (cblk V c t) (xblk V c t)) (ix2 e d)).trans ?_
    refine step_eq (xarr V c) (carr V c) (grid0.coords t) (t.val % 98) (t.val / 98) (coord0_1 t) (cblk V c t) (xblk V c t) (k0_pay1 (F := Ideal)) (cblk_word V c t) (xblk_row V c t) e d ?_
    rw [Pay.pay0_1, h0]
    unfold psum
    rw [Nat.zero_mul, Finset.sum_range_zero]
  · by_cases h1 : t.val % 98 = 97
    · rw [outsAt0_C V c t h0 h1]
      dsimp only
      refine (congrFun (soutC_eq (F := Ideal) c (grid0.coords t) (ms0_0 t) (hs0_0 t) (ms0_1 t) (hs0_1 t) (ms0_2 t) (hs0_2 t) scM0 (Memref.isWhole_whole _) (fun h => h0 ((hcond0_0 t).mp h)) ((hcond0_1 t).mpr h1) (cblk V c t) (xblk V c t) (outsAt0 V c (t.val - 1) (Nat.lt_of_le_of_lt (Nat.sub_le _ _) t.isLt)).2) (ix2 e d)).trans ?_
      exact step_eq (xarr V c) (carr V c) (grid0.coords t) (t.val % 98) (t.val / 98) (coord0_1 t) (cblk V c t) (xblk V c t) _ (cblk_word V c t) (xblk_row V c t) e d (hprev h0)
    · rw [outsAt0_B V c t h0 h1]
      dsimp only
      refine (congrFun (soutB_eq (F := Ideal) c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (cblk V c t) (xblk V c t) (outsAt0 V c (t.val - 1) (Nat.lt_of_le_of_lt (Nat.sub_le _ _) t.isLt)).2) (ix2 e d)).trans ?_
      exact step_eq (xarr V c) (carr V c) (grid0.coords t) (t.val % 98) (t.val / 98) (coord0_1 t) (cblk V c t) (xblk V c t) _ (cblk_word V c t) (xblk_row V c t) e d (hprev h0)

/-- THE INVARIANT, by induction on the point: the point before a position that is not the first is in the same edge
    block, one position earlier. -/
theorem acc_eq (c : Dev nD) : ∀ (n : ℕ) (hn : n < cfg0.N) (e : Fin 4096) (d : Fin 33),
    (outsAt0 V c n hn).2 (ix2 e d)
      = psum (xarr V c) (wordAt (carr V c) (n / 98 * 4096 + e.val)) d ((n % 98 + 1) * 1024) := by
  intro n
  induction n with
  | zero =>
    intro hn e d
    exact acc_step V c ⟨0, hn⟩ e d (fun h => absurd (Nat.zero_mod 98) h)
  | succ n ih =>
    intro hn e d
    refine acc_step V c ⟨n + 1, hn⟩ e d (fun h => ?_)
    have h' : ¬(n + 1) % 98 = 0 := h
    have e1 : (n + 1) / 98 = n / 98 := by omega
    have e2 : (n + 1) % 98 = n % 98 + 1 := by omega
    show (outsAt0 V c n _).2 (ix2 e d) = psum (xarr V c) (wordAt (carr V c) ((n + 1) / 98 * 4096 + e.val)) d ((n + 1) % 98 * 1024)
    rw [e1, e2]
    exact ih (Nat.lt_of_succ_lt hn) e d

end Acc

/-! ## The output array

The output block is stored at the last reduction position only, with a copy of the accumulator: all 98 * 1024 = 100352
rows of the padded features combined, which is the gathered row of the edge.  Edge block b is written back at the
point b * 98 + 97, into rows b * 4096 ... of the output array; the 391 blocks tile its 1601536 rows. -/

section Final
variable (V : (c : Dev nD) → (b : Ref sig .tc) → Buf (Elt Ideal) ((c : Thread nD τ).loc b))

/-- What the last reduction position leaves in the output block, entry by entry: the gathered rows of its edges. -/
theorem out_eq (c : Dev nD) (t : Fin cfg0.N) (h1 : t.val % 98 = 97) (e : Fin 4096) (d : Fin 33)
    (h : t.val / 98 * 4096 + e.val < 1601536) :
    (outsAt0 V c t.val t.isLt).1 (ix2 e d)
      = gathered (xarr V c) (carr V c) (ix2 (⟨t.val / 98 * 4096 + e.val, h⟩ : Fin 1601536) d) := by
  have h0 : ¬t.val % 98 = 0 := by omega
  have hp : t.val - 1 < cfg0.N := Nat.lt_of_le_of_lt (Nat.sub_le _ _) t.isLt
  rw [outsAt0_C V c t h0 h1]
  dsimp only
  refine (congrFun (outC_eq (F := Ideal) c (grid0.coords t) (ms0_0 t) (hs0_0 t) (ms0_1 t) (hs0_1 t) (ms0_2 t) (hs0_2 t) scM0 (Memref.isWhole_whole _) (fun h => h0 ((hcond0_0 t).mp h)) ((hcond0_1 t).mpr h1) (cblk V c t) (xblk V c t) (outsAt0 V c (t.val - 1) hp).2) (ix2 e d)).trans ?_
  have hprev : (outsAt0 V c (t.val - 1) hp).2 (ix2 e d)
      = psum (xarr V c) (wordAt (carr V c) (t.val / 98 * 4096 + e.val)) d (t.val % 98 * 1024) := by
    rw [acc_eq V c (t.val - 1) hp e d]
    rw [show (t.val - 1) / 98 = t.val / 98 from by omega, show (t.val - 1) % 98 + 1 = t.val % 98 from by omega]
  refine (step_eq (xarr V c) (carr V c) (grid0.coords t) (t.val % 98) (t.val / 98) (coord0_1 t) (cblk V c t) (xblk V c t) _ (cblk_word V c t) (xblk_row V c t) e d hprev).trans ?_
  rw [h1, show (97 + 1) * 1024 = 100352 from rfl, psum_full]
  unfold wordAt
  rw [dif_pos h]
  rfl

/-- WHAT A WRITE-BACK WRITES: the point's block of the gathered array. -/
theorem flushed_eq (c : Dev nD) (t : Fin cfg0.N) (hf : (cfg0.win 2).flush t = true) :
    (dat0 V c).flushed 2 t = ((cfg0.win 2).blk t).view.read (Elt Ideal) (gathered (xarr V c) (carr V c)) := by
  have hN : t.val < 38318 := lt_of_lt_of_eq t.isLt (show cfg0.N = 38318 from N_0)
  have h1 : t.val % 98 = 97 := (flush0_2 t).mp hf
  show (cfg0.win 2).cut (grid0.coords t) ((dat0 V c).after 2 t) = _
  rw [after0_2]
  funext j
  obtain ⟨e, d, rfl⟩ : ∃ (e : Fin 4096) (d : Fin 33), j = ix2 e d := ⟨j 0, j 1, eq_ix2 j⟩
  have h : t.val / 98 * 4096 + e.val < 1601536 := by have := e.isLt; omega
  exact (out_eq V c t h1 e d h).trans (oblk_apply (F := Ideal) (gathered (xarr V c) (carr V c)) t e d h).symm

/-- THE COVER: row r of the output array lies in the block written back at the point (r / 4096) * 98 + 97. -/
theorem cover (i : S1601536x33.Idx) :
    ∃ t : Fin cfg0.N, (cfg0.win 2).flush t = true ∧ i ∈ ((cfg0.win 2).blk t).view.set := by
  have hi0 : (i 0).val < 1601536 := (i 0).isLt
  have hi1 : (i 1).val < 33 := (i 1).isLt
  have hN : cfg0.N = 38318 := N_0
  have ht : (i 0).val / 4096 * 98 + 97 < cfg0.N := by rw [hN]; omega
  have hq : ((i 0).val / 4096 * 98 + 97) / 98 = (i 0).val / 4096 := by omega
  refine ⟨⟨(i 0).val / 4096 * 98 + 97, ht⟩, (flush0_2 _).mpr (by show ((i 0).val / 4096 * 98 + 97) % 98 = 97; omega), ?_⟩
  show i ∈ ((View.whole main_v11).slice (win0_2.rect ⟨(i 0).val / 4096 * 98 + 97, ht⟩)).set
  rw [View.set_slice_whole, Rect.mem_set_unit]
  intro a
  match a with
  | ⟨0, _⟩ =>
    show (cfg0.win 2).index ⟨(i 0).val / 4096 * 98 + 97, ht⟩ 0 * 4096 ≤ (i 0).val ∧ (i 0).val < (cfg0.win 2).index ⟨(i 0).val / 4096 * 98 + 97, ht⟩ 0 * 4096 + 4096
    rw [index0_2]
    show ((i 0).val / 4096 * 98 + 97) / 98 * 4096 ≤ (i 0).val ∧ (i 0).val < ((i 0).val / 4096 * 98 + 97) / 98 * 4096 + 4096
    rw [hq]
    omega
  | ⟨1, _⟩ =>
    show (cfg0.win 2).index ⟨(i 0).val / 4096 * 98 + 97, ht⟩ 1 * 33 ≤ (i 1).val ∧ (i 1).val < (cfg0.win 2).index ⟨(i 0).val / 4096 * 98 + 97, ht⟩ 1 * 33 + 33
    rw [index0_2]
    show 0 * 33 ≤ (i 1).val ∧ (i 1).val < 0 * 33 + 33
    omega

/-- THE VALUE of the gather call's output array after the whole grid: every row the one-hot combination, against the
    edge's index word, of the rows of the padded features. -/
theorem region0_value (V : (c : Dev nD) → (b : Ref sig .tc) → Buf (Elt Ideal) ((c : Thread nD τ).loc b)) (c : Dev nD) :
    ((dat0 V c).arrAt 2 cfg0.N : S1601536x33.Idx → EReal)
      = gathered (V c main_v6 : S100352x33.Idx → EReal) (V c main_v9 : S1x1601536.Idx → BitVec 32) :=
  (dat0 V c).arrAt_eq_of_cover 2 (gathered (xarr V c) (carr V c)) (flushed_eq V c) cover

end Final

end Cert.KernelIdeal.Val0

end
-- ==== Proof.KI.Val1.lean ====
/-
  The value of the second tiled call (scatter and mean) at the ideal values.

  The call runs over a grid of 98 node blocks (1024 rows each) by 391 edge blocks (4096 edges each), the edge axis
  fastest.  At each point it adds to a 1024 x 33 accumulator the product of the one-hot matrix of the point's 4096 row
  words against the block's 1024 node numbers with the point's 4096 x 33 block of gathered rows; the accumulator is
  zeroed at the first edge block, and at the last one its first 32 columns, divided by the larger of its last column
  and 1, are stored into the node block of the output.  So after the edge block `s` of node block `b` the accumulator
  at (r, d) is the sum over the edges e < (s + 1) * 4096 of [row word e = b * 1024 + r] * gathered (e, d); at the last
  edge block that is the sum over all 1601536 edges, and the stored quotient is the padded result at row b * 1024 + r.
  The 98 last points' blocks tile the output array.
-/
import proofs.«414928_j58308476011188_1_alg».proof.Proof.KI.Dat1
import proofs.«414928_j58308476011188_1_alg».proof.Proof.KI.Pay
import proofs.«414928_j58308476011188_1_alg».proof.Proof.Spec
import Idealize.ShloMosaic.Lib.Pipeline.Value
import Idealize.ShloMosaic.Lib.ValueIdx
import Idealize.ShloMosaic.Lib.Tactic

set_option maxRecDepth 16384

noncomputable section

open scoped BigOperators

namespace Cert.KernelIdeal.Val1

open Cert.KernelIdeal Cert.KernelIdeal.Gen Cert.KernelIdeal.Fr Cert.Spec
open Idealize.ShloMosaic Idealize.ShloMosaic.ValueIdx Idealize.ShloMosaic.TcCoe Idealize.SL.Sem
open Idealize.ShloMosaic.Pipeline (Dat)

theorem hz : (![0, 0] : Fin 2 → Nat) = fun _ => 0 := funext fun a => by fin_cases a <;> rfl

/-! ## What each case's stores leave, as the body's arithmetic -/

section Pieces
variable {F : FTy → Type} [FloatOps F]

/-- MIDDLE: the accumulator ends at the one store's value, computed from the two input blocks and what it held. -/
theorem acc_B (c : Dev nD) (i : grid1.Coords) (a2 : Memref sig .tc .vmem S1x4096 .i32) (h2 : a2.IsWhole) (a3 : Memref sig .tc .vmem S4096x33 .f32) (h3 : a3.IsWhole) (a4 : Memref sig .tc .vmem S1024x32 .f32) (h4 : a4.IsWhole) (a5 : Memref sig .tc .vmem S1024x33 .f32) (h5 : a5.IsWhole) (hc0 : ¬cond1_0 i) (hc1 : ¬cond1_1 i)
    (x0 : Vec F S1x4096 .i32) (x1 : Vec F S4096x33 .f32) (xs0 : Vec F S1024x33 .f32) :
    sout1_B c i a2 h2 a3 h3 a4 h4 a5 h5 hc0 hc1 x0 x1 xs0 = k1_pay2 i x0 x1 xs0 := by
  unfold sout1_B
  rw [View.read_writes_eq_canon _ _ _ (scover1_B c i a2 h2 a3 h3 a4 h4 a5 h5 hc0 hc1 x0 x1 xs0)]
  unfold kernelRun1_B
  dsimp only
  sl_unfold_words
  rw [View.canon_unit_zero hz]
  simp only [View.readAt_eq_ld, h2.read_unread, h3.read_unread, h5.read_unread, View.ld_unit_zero (S := S1x4096) hz,
    View.ld_unit_zero (S := S4096x33) hz, View.ld_unit_zero (S := S1024x33) hz]

/-- FIRST: the accumulator is zeroed and read back, so it ends at the store's value over the zero block. -/
theorem acc_A (c : Dev nD) (i : grid1.Coords) (a2 : Memref sig .tc .vmem S1x4096 .i32) (h2 : a2.IsWhole) (a3 : Memref sig .tc .vmem S4096x33 .f32) (h3 : a3.IsWhole) (a4 : Memref sig .tc .vmem S1024x32 .f32) (h4 : a4.IsWhole) (a5 : Memref sig .tc .vmem S1024x33 .f32) (h5 : a5.IsWhole) (hc0 : cond1_0 i) (hc1 : ¬cond1_1 i)
    (x0 : Vec F S1x4096 .i32) (x1 : Vec F S4096x33 .f32) :
    sout1_A c i a2 h2 a3 h3 a4 h4 a5 h5 hc0 hc1 x0 x1 = k1_pay2 i x0 x1 k1_pay1 := by
  unfold sout1_A
  rw [View.read_writes_eq_canon _ _ _ (scover1_A c i a2 h2 a3 h3 a4 h4 a5 h5 hc0 hc1 x0 x1)]
  unfold kernelRun1_A
  dsimp only
  sl_unfold_words
  rw [View.canon_cons_unit_zero (S := S1024x33) hz, View.readCov_unit_zero (S := S1024x33) _ hz]
  simp only [View.readAt_eq_ld, h2.read_unread, h3.read_unread, View.ld_unit_zero (S := S1x4096) hz,
    View.ld_unit_zero (S := S4096x33) hz]

/-- LAST, the accumulator: as at a middle position. -/
theorem acc_C (c : Dev nD) (i : grid1.Coords) (a2 : Memref sig .tc .vmem S1x4096 .i32) (h2 : a2.IsWhole) (a3 : Memref sig .tc .vmem S4096x33 .f32) (h3 : a3.IsWhole) (a4 : Memref sig .tc .vmem S1024x32 .f32) (h4 : a4.IsWhole) (a5 : Memref sig .tc .vmem S1024x33 .f32) (h5 : a5.IsWhole) (hc0 : ¬cond1_0 i) (hc1 : cond1_1 i)
    (x0 : Vec F S1x4096 .i32) (x1 : Vec F S4096x33 .f32) (xs0 : Vec F S1024x33 .f32) :
    sout1_C c i a2 h2 a3 h3 a4 h4 a5 h5 hc0 hc1 x0 x1 xs0 = k1_pay2 i x0 x1 xs0 := by
  unfold sout1_C
  rw [View.read_writes_eq_canon _ _ _ (scover1_C c i a2 h2 a3 h3 a4 h4 a5 h5 hc0 hc1 x0 x1 xs0)]
  unfold kernelRun1_C
  dsimp only
  sl_unfold_words
  rw [View.canon_unit_zero hz]
  simp only [View.readAt_eq_ld, h2.read_unread, h3.read_unread, h5.read_unread, View.ld_unit_zero (S := S1x4096) hz,
    View.ld_unit_zero (S := S4096x33) hz, View.ld_unit_zero (S := S1024x33) hz]

/-- LAST, the output block: the quotient form of the accumulator just stored. -/
theorem out_C (c : Dev nD) (i : grid1.Coords) (a2 : Memref sig .tc .vmem S1x4096 .i32) (h2 : a2.IsWhole) (a3 : Memref sig .tc .vmem S4096x33 .f32) (h3 : a3.IsWhole) (a4 : Memref sig .tc .vmem S1024x32 .f32) (h4 : a4.IsWhole) (a5 : Memref sig .tc .vmem S1024x33 .f32) (h5 : a5.IsWhole) (hc0 : ¬cond1_0 i) (hc1 : cond1_1 i)
    (x0 : Vec F S1x4096 .i32) (x1 : Vec F S4096x33 .f32) (xs0 : Vec F S1024x33 .f32) :
    out1_C c i a2 h2 a3 h3 a4 h4 a5 h5 hc0 hc1 x0 x1 xs0 = k1_pay3 (k1_pay2 i x0 x1 xs0) := by
  unfold out1_C
  rw [View.read_writes_eq_canon _ _ _ (cover1_C c i a2 h2 a3 h3 a4 h4 a5 h5 hc0 hc1 x0 x1 xs0)]
  unfold kernelRun1_C
  dsimp only
  sl_unfold_words
  rw [View.canon_unit_zero hz]
  simp only [View.readCov_unit_zero (S := S1024x33) _ hz, View.readAt_eq_ld, h2.read_unread, h3.read_unread, h5.read_unread,
    View.ld_unit_zero (S := S1x4096) hz, View.ld_unit_zero (S := S4096x33) hz, View.ld_unit_zero (S := S1024x33) hz]

end Pieces

/-! ## The arrays the call is entered with, and the input windows' blocks read off them -/

section Value
variable (V : (c : Dev nD) → (b : Ref sig .tc) → Buf (Elt Ideal) ((c : Thread nD τ).loc b))

/-- The padded row words, one row of 1601536. -/
abbrev rowArr (c : Dev nD) : Vec Ideal S1x1601536 .i32 := V c main_v10
/-- The gathered rows, 1601536 of 33 entries. -/
abbrev gArr (c : Dev nD) : Vec Ideal S1601536x33 .f32 := V c main_v11
/-- The row words of the edge block of point `t`. -/
abbrev rowBlk (c : Dev nD) (t : Fin cfg1.N) : Vec Ideal S1x4096 .i32 := iblk1 V c 0 t
/-- The gathered rows of the edge block of point `t`. -/
abbrev gBlk (c : Dev nD) (t : Fin cfg1.N) : Vec Ideal S4096x33 .f32 := iblk1 V c 1 t

/-- The index window's block index at point `t`: edge block `t % 391` of the one row. -/
theorem index1_0 (t : Fin cfg1.N) : (cfg1.win 0).index t = ![0, t.val % 391] := by
  have e : (BitVec.ofNat 32 (t.val % 391)).toNat = t.val % 391 := by
    rw [BitVec.toNat_ofNat]; exact Nat.mod_eq_of_lt (by omega)
  show cc1_transform_0 (grid1.coords t) = _
  unfold cc1_transform_0; dsimp only
  rw [coord1_1, e]; rfl
/-- The gathered window's block index at point `t`: edge block `t % 391`. -/
theorem index1_1 (t : Fin cfg1.N) : (cfg1.win 1).index t = ![t.val % 391, 0] := by
  have e : (BitVec.ofNat 32 (t.val % 391)).toNat = t.val % 391 := by
    rw [BitVec.toNat_ofNat]; exact Nat.mod_eq_of_lt (by omega)
  show cc1_transform_1 (grid1.coords t) = _
  unfold cc1_transform_1; dsimp only
  rw [coord1_1, e]; rfl

/-- Entry `e` of the point's block of row words is word `(t % 391) * 4096 + e` of the row. -/
theorem rowBlk_apply (c : Dev nD) (t : Fin cfg1.N) (e : Fin 4096) (k : Fin 1601536) (hk : k.val = t.val % 391 * 4096 + e.val) :
    rowBlk V c t (ix2 (0 : Fin 1) e) = rowArr V c (ix2 (0 : Fin 1) k) := by
  unfold rowBlk iblk1
  rw [View.read_apply]
  show V c main_v10 _ = V c main_v10 _
  congr 1
  funext a
  apply Fin.ext
  match a with
  | ⟨0, _⟩ => show (cfg1.win 0).index t 0 * 1 + 1 * 0 = 0; rw [index1_0]; rfl
  | ⟨1, _⟩ => show (cfg1.win 0).index t 1 * 4096 + 1 * e.val = k.val; rw [index1_0, hk]; show t.val % 391 * 4096 + 1 * e.val = _; omega

/-- Row `e` of the point's block of gathered rows is row `(t % 391) * 4096 + e` of the array. -/
theorem gBlk_apply (c : Dev nD) (t : Fin cfg1.N) (e : Fin 4096) (d : Fin 33) (k : Fin 1601536) (hk : k.val = t.val % 391 * 4096 + e.val) :
    gBlk V c t (ix2 e d) = gArr V c (ix2 k d) := by
  unfold gBlk iblk1
  rw [View.read_apply]
  show V c main_v11 _ = V c main_v11 _
  congr 1
  funext a
  apply Fin.ext
  match a with
  | ⟨0, _⟩ => show (cfg1.win 1).index t 0 * 4096 + 1 * e.val = k.val; rw [index1_1, hk]; show t.val % 391 * 4096 + 1 * e.val = _; omega
  | ⟨1, _⟩ => show (cfg1.win 1).index t 1 * 33 + 1 * d.val = d.val; rw [index1_1]; show 0 * 33 + 1 * d.val = _; omega

/-! ## The accumulator after each point -/

/-- The contribution of edge number `k` to row `n`, column `d`: the one-hot weight of `n` against the edge's row word
    times the edge's gathered entry (nothing past the last edge). -/
def term (rp : Vec Ideal S1x1601536 .i32) (g : Vec Ideal S1601536x33 .f32) (n : Nat) (d : Fin 33) (k : Nat) : EReal :=
  if h : k < 1601536 then oh n (rp (ix2 (0 : Fin 1) (⟨k, h⟩ : Fin 1601536))) * (g (ix2 (⟨k, h⟩ : Fin 1601536) d) : EReal) else 0

/-- Summed over all edge numbers it is the sum over the array's rows. -/
theorem sum_term (rp : Vec Ideal S1x1601536 .i32) (g : Vec Ideal S1601536x33 .f32) (n : Nat) (d : Fin 33) :
    ∑ k ∈ Finset.range 1601536, term rp g n d k
      = ∑ e : Fin 1601536, oh n (rp (ix2 (0 : Fin 1) e)) * (g (ix2 e d) : EReal) := by
  rw [Finset.sum_range]
  refine Finset.sum_congr rfl fun e _ => ?_
  unfold term
  rw [dif_pos e.isLt]

/-- One more edge block: the first `s` blocks' edges and then block `s`'s 4096 are the first `s + 1` blocks' edges. -/
theorem sum_term_step (rp : Vec Ideal S1x1601536 .i32) (g : Vec Ideal S1601536x33 .f32) (n : Nat) (d : Fin 33) (s : Nat) :
    ∑ k ∈ Finset.range (s * 4096), term rp g n d k + ∑ e ∈ Finset.range 4096, term rp g n d (s * 4096 + e)
      = ∑ k ∈ Finset.range ((s + 1) * 4096), term rp g n d k := by
  rw [Nat.add_mul, Nat.one_mul, Finset.sum_range_add]

/-- The block product of point `t` at row `n`, column `d`, is the sum of the contributions of the point's 4096 edges. -/
theorem blockSum_eq (c : Dev nD) (t : Fin cfg1.N) (n : Nat) (d : Fin 33) :
    ∑ e : Fin 4096, oh n (rowBlk V c t (ix2 (0 : Fin 1) e)) * (gBlk V c t (ix2 e d) : EReal)
      = ∑ e ∈ Finset.range 4096, term (rowArr V c) (gArr V c) n d (t.val % 391 * 4096 + e) := by
  rw [Finset.sum_range]
  refine Finset.sum_congr rfl fun e _ => ?_
  have hb : t.val % 391 * 4096 + e.val < 1601536 := by
    have := Nat.mod_lt t.val (show 0 < 391 by decide); have := e.isLt; omega
  unfold term
  rw [dif_pos hb, rowBlk_apply V c t e ⟨_, hb⟩ rfl, gBlk_apply V c t e d ⟨_, hb⟩ rfl]

/-- THE INVARIANT: after point `n` (edge block `n % 391` of node block `n / 391`) the accumulator at row `r`, column `d`
    is the sum of the contributions to node `(n / 391) * 1024 + r` of the edges of the blocks up to this one. -/
theorem acc_eq (c : Dev nD) : ∀ (n : ℕ) (hn : n < cfg1.N) (r : Fin 1024) (d : Fin 33),
    ((outsAt1 V c n hn).2 (ix2 r d) : EReal)
      = ∑ k ∈ Finset.range ((n % 391 + 1) * 4096), term (rowArr V c) (gArr V c) (n / 391 * 1024 + r.val) d k := by
  intro n
  induction n with
  | zero =>
    intro hn r d
    have h0 : (⟨0, hn⟩ : Fin cfg1.N).val % 391 = 0 := rfl
    have h1 : ¬(⟨0, hn⟩ : Fin cfg1.N).val % 391 = 390 := by dsimp only; omega
    rw [outsAt1_A V c ⟨0, hn⟩ h0 h1]
    dsimp only
    refine (congrFun (acc_A (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr h0) (fun h => h1 ((hcond1_1 ⟨0, hn⟩).mp h)) (rowBlk V c ⟨0, hn⟩) (gBlk V c ⟨0, hn⟩)) (ix2 r d)).trans ?_
    refine (Pay.pay1_2 (grid1.coords ⟨0, hn⟩) (rowBlk V c ⟨0, hn⟩) (gBlk V c ⟨0, hn⟩) (k1_pay1 (F := Ideal)) r d).trans ?_
    rw [Pay.pay1_1, zero_add, coord1_0, blockSum_eq]
    dsimp only
    simp only [Nat.zero_mod, Nat.zero_div, Nat.zero_mul, Nat.zero_add, Nat.one_mul]
  | succ n ih =>
    intro hn r d
    have hp := ih (Nat.lt_of_succ_lt hn) r d
    by_cases h0 : (n + 1) % 391 = 0
    · have h1 : ¬(n + 1) % 391 = 390 := by omega
      rw [outsAt1_A V c ⟨n + 1, hn⟩ h0 h1]
      dsimp only
      refine (congrFun (acc_A (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (rowBlk V c ⟨n + 1, hn⟩) (gBlk V c ⟨n + 1, hn⟩)) (ix2 r d)).trans ?_
      refine (Pay.pay1_2 (grid1.coords ⟨n + 1, hn⟩) (rowBlk V c ⟨n + 1, hn⟩) (gBlk V c ⟨n + 1, hn⟩) (k1_pay1 (F := Ideal)) r d).trans ?_
      rw [Pay.pay1_1, zero_add, coord1_0, blockSum_eq]
      dsimp only
      rw [h0]
      simp only [Nat.zero_mul, Nat.zero_add, Nat.one_mul]
    · have hq : (n + 1) / 391 = n / 391 := by omega
      have hs : (n + 1) % 391 = n % 391 + 1 := by omega
      by_cases h1 : (n + 1) % 391 = 390
      · rw [outsAt1_C V c ⟨n + 1, hn⟩ h0 h1]
        dsimp only
        refine (congrFun (acc_C (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (rowBlk V c ⟨n + 1, hn⟩) (gBlk V c ⟨n + 1, hn⟩) (outsAt1 V c n (Nat.lt_of_succ_lt hn)).2) (ix2 r d)).trans ?_
        refine (Pay.pay1_2 (grid1.coords ⟨n + 1, hn⟩) (rowBlk V c ⟨n + 1, hn⟩) (gBlk V c ⟨n + 1, hn⟩) (outsAt1 V c n (Nat.lt_of_succ_lt hn)).2 r d).trans ?_
        rw [hp, coord1_0, blockSum_eq]
        dsimp only
        rw [hq, hs]
        exact sum_term_step _ _ _ d (n % 391 + 1)
      · rw [outsAt1_B V c ⟨n + 1, hn⟩ h0 h1]
        dsimp only
        refine (congrFun (acc_B (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (rowBlk V c ⟨n + 1, hn⟩) (gBlk V c ⟨n + 1, hn⟩) (outsAt1 V c n (Nat.lt_of_succ_lt hn)).2) (ix2 r d)).trans ?_
        refine (Pay.pay1_2 (grid1.coords ⟨n + 1, hn⟩) (rowBlk V c ⟨n + 1, hn⟩) (gBlk V c ⟨n + 1, hn⟩) (outsAt1 V c n (Nat.lt_of_succ_lt hn)).2 r d).trans ?_
        rw [hp, coord1_0, blockSum_eq]
        dsimp only
        rw [hq, hs]
        exact sum_term_step _ _ _ d (n % 391 + 1)

/-! ## The output block at a last position, and the array after the whole grid -/

/-- At a last position the output block is the quotient form of the accumulator the point leaves. -/
theorem out_of_acc (c : Dev nD) (t : Fin cfg1.N) (h0 : ¬t.val % 391 = 0) (h1 : t.val % 391 = 390) :
    (outsAt1 V c t.val t.isLt).1 = k1_pay3 (outsAt1 V c t.val t.isLt).2 := by
  rw [outsAt1_C V c t h0 h1]
  dsimp only
  exact (out_C (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (rowBlk V c t) (gBlk V c t) (outsAt1 V c (t.val - 1) (Nat.lt_of_le_of_lt (Nat.sub_le _ _) t.isLt)).2).trans
    (congrArg k1_pay3 (acc_C (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (rowBlk V c t) (gBlk V c t) (outsAt1 V c (t.val - 1) (Nat.lt_of_le_of_lt (Nat.sub_le _ _) t.isLt)).2).symm)

/-- So at the last edge block of node block `t / 391` the output block's row `r` is row `(t / 391) * 1024 + r` of the
    padded result: by then the accumulator has summed all 391 * 4096 = 1601536 edges. -/
theorem out_eq (c : Dev nD) (t : Fin cfg1.N) (h1 : t.val % 391 = 390) (r : Fin 1024) (d : Fin 32) (N : Fin 100352)
    (hN : N.val = t.val / 391 * 1024 + r.val) :
    ((outsAt1 V c t.val t.isLt).1 (ix2 r d) : EReal) = outPad (gArr V c) (rowArr V c) (ix2 N d) := by
  have h0 : ¬t.val % 391 = 0 := by omega
  have hE : (t.val % 391 + 1) * 4096 = 1601536 := by omega
  rw [out_of_acc V c t h0 h1]
  refine (Pay.pay1_3 (outsAt1 V c t.val t.isLt).2 r d).trans ?_
  rw [acc_eq V c t.val t.isLt r, acc_eq V c t.val t.isLt r, hE, sum_term, sum_term, ← hN]
  rfl

/-- A 1024 x 32 block whose row `r` is row `(t / 391) * 1024 + r` of an array is, cut to what the write-back at point `t`
    moves (all of it), the array read through the point's output block. -/
theorem cut_eq_read (t : Fin cfg1.N) (X : Vec Ideal S1024x32 .f32) (G : Vec Ideal S100352x32 .f32)
    (h : ∀ (r : Fin 1024) (d : Fin 32) (N : Fin 100352), N.val = t.val / 391 * 1024 + r.val → X (ix2 r d) = G (ix2 N d)) :
    (cfg1.win 2).cut (grid1.coords t) X = ((cfg1.win 2).blk t).view.read (Elt Ideal) G := by
  have hT : t.val < 38318 := lt_of_lt_of_eq t.isLt (show cfg1.N = 38318 from N_1)
  funext y
  have hy0 : (y 0).val < 1024 := (y 0).isLt
  have hy1 : (y 1).val < 32 := (y 1).isLt
  rw [View.read_apply]
  show X ((cfg1.win 2).xinj (grid1.coords t) y) = G (((cfg1.win 2).blk t).view.emb y)
  have ex : (cfg1.win 2).xinj (grid1.coords t) y = ix2 (⟨(y 0).val, hy0⟩ : Fin 1024) (⟨(y 1).val, hy1⟩ : Fin 32) := by
    funext a
    match a with
    | ⟨0, _⟩ => rfl
    | ⟨1, _⟩ => rfl
  have ee : ((cfg1.win 2).blk t).view.emb y = ix2 (⟨t.val / 391 * 1024 + (y 0).val, by omega⟩ : Fin 100352) (⟨(y 1).val, hy1⟩ : Fin 32) := by
    funext a
    apply Fin.ext
    match a with
    | ⟨0, _⟩ => show (cfg1.win 2).index t 0 * 1024 + 1 * (y 0).val = t.val / 391 * 1024 + (y 0).val; rw [index1_2]; show t.val / 391 * 1024 + 1 * (y 0).val = _; omega
    | ⟨1, _⟩ => show (cfg1.win 2).index t 1 * 32 + 1 * (y 1).val = (y 1).val; rw [index1_2]; show 0 * 32 + 1 * (y 1).val = _; omega
  rw [ex, ee]
  exact h _ _ _ rfl

/-- WHAT A LAST POSITION WRITES BACK is its node block of the padded result. -/
theorem flushed_eq (c : Dev nD) (t : Fin cfg1.N) (hf : (cfg1.win 2).flush t = true) :
    (dat1 V c).flushed 2 t = ((cfg1.win 2).blk t).view.read (Elt Ideal) (outPad (gArr V c) (rowArr V c)) := by
  have h1 : t.val % 391 = 390 := (flush1_2 t).mp hf
  show (cfg1.win 2).cut (grid1.coords t) ((dat1 V c).after 2 t) = _
  rw [after1_2]
  exact cut_eq_read t _ _ (fun r d N hN => out_eq V c t h1 r d N hN)

/-- Every row of the output array lies in the block some last position writes back: row `n` in that of node block
    `n / 1024`, written at point `(n / 1024) * 391 + 390`. -/
theorem cover (i : S100352x32.Idx) :
    ∃ t : Fin cfg1.N, (cfg1.win 2).flush t = true ∧ i ∈ ((cfg1.win 2).blk t).view.set := by
  have hi0 : (i 0).val < 100352 := (i 0).isLt
  have hi1 : (i 1).val < 32 := (i 1).isLt
  have hN : cfg1.N = 38318 := N_1
  let t : Fin cfg1.N := ⟨(i 0).val / 1024 * 391 + 390, by rw [hN]; omega⟩
  have ht : t.val = (i 0).val / 1024 * 391 + 390 := rfl
  have hq : t.val / 391 = (i 0).val / 1024 := by omega
  refine ⟨t, (flush1_2 t).mpr (by omega), ?_⟩
  show i ∈ ((View.whole main_v12).slice (win1_2.rect t)).set
  rw [View.set_slice_whole, Rect.mem_set_unit]
  intro a
  match a with
  | ⟨0, _⟩ =>
    show (cfg1.win 2).index t 0 * 1024 ≤ (i 0).val ∧ (i 0).val < (cfg1.win 2).index t 0 * 1024 + 1024
    rw [index1_2]
    show t.val / 391 * 1024 ≤ (i 0).val ∧ (i 0).val < t.val / 391 * 1024 + 1024
    omega
  | ⟨1, _⟩ =>
    show (cfg1.win 2).index t 1 * 32 ≤ (i 1).val ∧ (i 1).val < (cfg1.win 2).index t 1 * 32 + 32
    rw [index1_2]
    show 0 * 32 ≤ (i 1).val ∧ (i 1).val < 0 * 32 + 32
    omega

end Value

/-- THE VALUE of the second call's output array after the whole grid: the padded scatter-and-mean of the gathered rows
    it is entered with, against the row words it is entered with. -/
theorem region1_value (V : (c : Dev nD) → (b : Ref sig .tc) → Buf (Elt Ideal) ((c : Thread nD τ).loc b)) (c : Dev nD) :
    ((dat1 V c).arrAt 2 cfg1.N : S100352x32.Idx → EReal)
      = outPad (V c main_v11 : S1601536x33.Idx → EReal) (V c main_v10 : S1x1601536.Idx → BitVec 32) :=
  (dat1 V c).arrAt_eq_of_cover 2 (outPad (gArr V c) (rowArr V c)) (flushed_eq V c) cover

end Cert.KernelIdeal.Val1

end
-- ==== Proof.KI.HostVal.lean ====
/-
  What the program's host operations compute, read as whole arrays.

  Before its two tiled calls the program builds three arrays from its arguments `x : 100000 × 32` and `ei : 2 × 1600000`:

    * the features with a column of the float word `1.0` appended on the right (a scalar constant broadcast to a
      `100000 × 1` column and concatenated along the second axis) and 352 rows of the float `0` appended below (a high-end
      pad whose value is the integer word `0` converted to a float, which is the real `0`, the value of the float word `0.0`);
    * the column words: row `1` of `ei` cut out as a `1 × 1600000` slice, flattened to a vector, padded at its high end
      with 1536 copies of the word `0`, and written as a `1 × 1601536` matrix;
    * the row words: row `0` of `ei` treated the same way, the pad word being `100351`.

  After the second call it keeps the first 100000 rows of that call's `100352 × 32` output.

  Each fact is proved the same way: the buffer's contents after the host operations is the composition of the layout
  operations that wrote it, applied to the launch contents of the argument (a buffer an operation does not write keeps its
  contents, so only the operations on the way from the argument to the buffer appear); that composition is then read at an
  index, one operation at a time from the outside in — a shape cast keeps the row-major position, a slice shifts by its
  offsets, a high-end pad reads the operand below the operand's extent and the pad value from there on, a two-piece
  concatenation reads the piece the coordinate falls in.
-/
import proofs.«414928_j58308476011188_1_alg».proof.Proof.Gen.KernelIdeal.Regions
import proofs.«414928_j58308476011188_1_alg».proof.Proof.Spec
import Idealize.ShloMosaic.Lib.StableHlo.Run
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.HostVal

open Cert.KernelIdeal Cert.KernelIdeal.Gen Cert.Spec
open Idealize.ShloMosaic Idealize.ShloMosaic.ValueIdx Idealize.ShloMosaic.TcCoe Idealize.SL.Sem

/-! ## A high-end pad read at an index -/

section Pad
variable {α : Type}

/-- A vector padded at its high end only reads the operand below the operand's extent and the pad value from there on. -/
private theorem pad1_apply {n p N : Nat} (x : (⟨1, ![n]⟩ : Shape).Idx → α) {u : Shape} (v : u.Idx → α)
    (h : (⟨1, ![n]⟩ : Shape).Pads (![0] : Fin 1 → Nat) ![p] ![0] ⟨1, ![N]⟩) (hu : 0 < u.numel) (j : Fin N) :
    pad ⟨1, ![N]⟩ ![0] ![p] ![0] x v h hu (ix1 j)
      = if hj : j.val < n then x (ix1 ⟨j.val, hj⟩) else v (Shape.Idx.first hu) := by
  unfold pad
  by_cases hj : j.val < n
  · have hin : ∀ a : Fin 1, (![0] : Fin 1 → Nat) a ≤ ((ix1 j) (a.cast h.1)).val
        ∧ (((ix1 j) (a.cast h.1)).val - (![0] : Fin 1 → Nat) a) % ((![0] : Fin 1 → Nat) a + 1) = 0
        ∧ (((ix1 j) (a.cast h.1)).val - (![0] : Fin 1 → Nat) a) / ((![0] : Fin 1 → Nat) a + 1) < (⟨1, ![n]⟩ : Shape).size a := fun a => by
      match a with
      | ⟨0, _⟩ =>
        show 0 ≤ j.val ∧ (j.val - 0) % (0 + 1) = 0 ∧ (j.val - 0) / (0 + 1) < n
        refine ⟨Nat.zero_le _, Nat.mod_one _, ?_⟩
        rw [Nat.sub_zero, Nat.zero_add, Nat.div_one]; exact hj
    rw [dif_pos hin, dif_pos hj]
    refine congrArg x (funext fun a => Fin.ext ?_)
    match a with
    | ⟨0, _⟩ =>
      show (j.val - 0) / (0 + 1) = j.val
      rw [Nat.sub_zero, Nat.zero_add, Nat.div_one]
  · rw [dif_neg hj, dif_neg]
    intro hin
    have := (hin ⟨0, Nat.one_pos⟩).2.2
    have e : (j.val - 0) / (0 + 1) < n := this
    rw [Nat.sub_zero, Nat.zero_add, Nat.div_one] at e
    exact hj e

/-- A matrix padded with rows at its high end only reads the operand on the operand's rows and the pad value below them. -/
private theorem pad2_rows_apply {n0 n1 p N0 : Nat} (x : (⟨2, ![n0, n1]⟩ : Shape).Idx → α) {u : Shape} (v : u.Idx → α)
    (h : (⟨2, ![n0, n1]⟩ : Shape).Pads (![0, 0] : Fin 2 → Nat) ![p, 0] ![0, 0] ⟨2, ![N0, n1]⟩) (hu : 0 < u.numel)
    (a : Fin N0) (b : Fin n1) :
    pad ⟨2, ![N0, n1]⟩ ![0, 0] ![p, 0] ![0, 0] x v h hu (ix2 a b)
      = if ha : a.val < n0 then x (ix2 ⟨a.val, ha⟩ b) else v (Shape.Idx.first hu) := by
  unfold pad
  by_cases ha : a.val < n0
  · have hin : ∀ k : Fin 2, (![0, 0] : Fin 2 → Nat) k ≤ ((ix2 a b) (k.cast h.1)).val
        ∧ (((ix2 a b) (k.cast h.1)).val - (![0, 0] : Fin 2 → Nat) k) % ((![0, 0] : Fin 2 → Nat) k + 1) = 0
        ∧ (((ix2 a b) (k.cast h.1)).val - (![0, 0] : Fin 2 → Nat) k) / ((![0, 0] : Fin 2 → Nat) k + 1) < (⟨2, ![n0, n1]⟩ : Shape).size k := fun k => by
      match k with
      | ⟨0, _⟩ =>
        show 0 ≤ a.val ∧ (a.val - 0) % (0 + 1) = 0 ∧ (a.val - 0) / (0 + 1) < n0
        refine ⟨Nat.zero_le _, Nat.mod_one _, ?_⟩
        rw [Nat.sub_zero, Nat.zero_add, Nat.div_one]; exact ha
      | ⟨1, _⟩ =>
        show 0 ≤ b.val ∧ (b.val - 0) % (0 + 1) = 0 ∧ (b.val - 0) / (0 + 1) < n1
        refine ⟨Nat.zero_le _, Nat.mod_one _, ?_⟩
        rw [Nat.sub_zero, Nat.zero_add, Nat.div_one]; exact b.isLt
    rw [dif_pos hin, dif_pos ha]
    refine congrArg x (funext fun k => Fin.ext ?_)
    match k with
    | ⟨0, _⟩ =>
      show (a.val - 0) / (0 + 1) = a.val
      rw [Nat.sub_zero, Nat.zero_add, Nat.div_one]
    | ⟨1, _⟩ =>
      show (b.val - 0) / (0 + 1) = b.val
      rw [Nat.sub_zero, Nat.zero_add, Nat.div_one]
  · rw [dif_neg ha, dif_neg]
    intro hin
    have := (hin ⟨0, Nat.zero_lt_two⟩).2.2
    have e : (a.val - 0) / (0 + 1) < n0 := this
    rw [Nat.sub_zero, Nat.zero_add, Nat.div_one] at e
    exact ha e

end Pad

variable (m : (ℓ : Loc nD τ sig) → Buf (Elt Ideal) ℓ) (c : Dev nD)

/-! ## Each stretch, read at the buffer it writes, over any contents before it -/

private theorem s0_v1 (W : Valuation τ sig (Elt Ideal)) :
    (StableHlo.after (hostOps0 (F := Ideal)) W (Proc.devRef .tc main_v1) : S1600000.Idx → BitVec 32)
      = shapeCast S1600000 (extractStridedSlice S1x1600000 ![0, 0] (W (Proc.devRef .tc main_arg1) : S2x1600000.Idx → BitVec 32)
          slices_S2x1600000_S1x1600000_0_0) shapeCasts_S1x1600000_S1600000 := by
  simp only [hostOps0]
  after_results
  rfl

private theorem s0_v3 (W : Valuation τ sig (Elt Ideal)) :
    (StableHlo.after (hostOps0 (F := Ideal)) W (Proc.devRef .tc main_v3) : S1600000.Idx → BitVec 32)
      = shapeCast S1600000 (extractStridedSlice S1x1600000 ![1, 0] (W (Proc.devRef .tc main_arg1) : S2x1600000.Idx → BitVec 32)
          slices_S2x1600000_S1x1600000_1_0) shapeCasts_S1x1600000_S1600000 := by
  simp only [hostOps0]
  after_results
  rfl

private theorem s0_v5 (W : Valuation τ sig (Elt Ideal)) :
    (StableHlo.after (hostOps0 (F := Ideal)) W (Proc.devRef .tc main_v5) : S100000x33.Idx → EReal)
      = concatenate S100000x33 1
          [⟨S100000x32, (W (Proc.devRef .tc main_arg0) : S100000x32.Idx → EReal)⟩,
           ⟨S100000x1, broadcastInDim S100000x1 ![] bcast_S_S100000x1 (constant (F := Ideal) S_ .f32 0x3F800000#32)⟩]
          concatenates_S100000x32_S100000x1_S100000x33_d1 := by
  simp only [hostOps0]
  after_results

private theorem s0_c (W : Valuation τ sig (Elt Ideal)) :
    (StableHlo.after (hostOps0 (F := Ideal)) W (Proc.devRef .tc main_c) : S_.Idx → BitVec 32) = constantI S_ 32 0#32 := by
  simp only [hostOps0]
  after_results

private theorem s1_v6 (W : Valuation τ sig (Elt Ideal)) :
    (StableHlo.after (hostOps0_1 (F := Ideal)) W (Proc.devRef .tc main_v6) : S100352x33.Idx → EReal)
      = pad S100352x33 ![0, 0] ![352, 0] ![0, 0] (W (Proc.devRef .tc main_v5) : S100000x33.Idx → EReal)
          (sitofp (F := Ideal) .f32 (W (Proc.devRef .tc main_c) : S_.Idx → BitVec 32) : S_.Idx → EReal)
          pads_S100000x33_S100352x33_03520_000 h_S_ := by
  simp only [hostOps0_1]
  after_results
  rfl

private theorem s2_c0 (W : Valuation τ sig (Elt Ideal)) :
    (StableHlo.after (hostOps0_2 (F := Ideal)) W (Proc.devRef .tc main_c_0) : S_.Idx → BitVec 32) = constantI S_ 32 0#32 := by
  simp only [hostOps0_2]
  after_results

private theorem s3_v7 (W : Valuation τ sig (Elt Ideal)) :
    (StableHlo.after (hostOps0_3 (F := Ideal)) W (Proc.devRef .tc main_v7) : S1601536.Idx → BitVec 32)
      = pad S1601536 ![0] ![1536] ![0] (W (Proc.devRef .tc main_v3) : S1600000.Idx → BitVec 32)
          (W (Proc.devRef .tc main_c_0) : S_.Idx → BitVec 32) pads_S1600000_S1601536_015360 h_S_ := by
  simp only [hostOps0_3]
  after_results
  rfl

private theorem s4_c1 (W : Valuation τ sig (Elt Ideal)) :
    (StableHlo.after (hostOps0_4 (F := Ideal)) W (Proc.devRef .tc main_c_1) : S_.Idx → BitVec 32) = constantI S_ 32 100351#32 := by
  simp only [hostOps0_4]
  after_results

private theorem s5_v8 (W : Valuation τ sig (Elt Ideal)) :
    (StableHlo.after (hostOps0_5 (F := Ideal)) W (Proc.devRef .tc main_v8) : S1601536.Idx → BitVec 32)
      = pad S1601536 ![0] ![1536] ![0] (W (Proc.devRef .tc main_v1) : S1600000.Idx → BitVec 32)
          (W (Proc.devRef .tc main_c_1) : S_.Idx → BitVec 32) pads_S1600000_S1601536_015360 h_S_ := by
  simp only [hostOps0_5]
  after_results
  rfl

private theorem s6_v9 (W : Valuation τ sig (Elt Ideal)) :
    (StableHlo.after (hostOps0_6 (F := Ideal)) W (Proc.devRef .tc main_v9) : S1x1601536.Idx → BitVec 32)
      = shapeCast S1x1601536 (W (Proc.devRef .tc main_v7) : S1601536.Idx → BitVec 32) shapeCasts_S1601536_S1x1601536 := by
  simp only [hostOps0_6]
  after_results
  rfl

private theorem s6_v10 (W : Valuation τ sig (Elt Ideal)) :
    (StableHlo.after (hostOps0_6 (F := Ideal)) W (Proc.devRef .tc main_v10) : S1x1601536.Idx → BitVec 32)
      = shapeCast S1x1601536 (W (Proc.devRef .tc main_v8) : S1601536.Idx → BitVec 32) shapeCasts_S1601536_S1x1601536 := by
  simp only [hostOps0_6]
  after_results
  rfl

/-! ## The padded index rows -/

/-- The column row: the second row of the edge array as one vector, padded with the word `0`, as a one-row matrix. -/
theorem V7_v9 : (V7 m c (Proc.devRef .tc main_v9) : S1x1601536.Idx → BitVec 32) = colPad (m ((c.tc : Thread nD τ).loc main_arg1)) := by
  have h7 : (V6 m c (Proc.devRef .tc main_v7) : S1601536.Idx → BitVec 32)
      = pad S1601536 ![0] ![1536] ![0] (V3 m c (Proc.devRef .tc main_v3) : S1600000.Idx → BitVec 32)
          (V3 m c (Proc.devRef .tc main_c_0) : S_.Idx → BitVec 32) pads_S1600000_S1601536_015360 h_S_ :=
    (V6_of m c main_v7 (by decide)).trans ((V5_of m c main_v7 (by decide)).trans (s3_v7 (V3 m c)))
  have h3 : (V3 m c (Proc.devRef .tc main_v3) : S1600000.Idx → BitVec 32)
      = shapeCast S1600000 (extractStridedSlice S1x1600000 ![1, 0] (m ((c.tc : Thread nD τ).loc main_arg1) : S2x1600000.Idx → BitVec 32)
          slices_S2x1600000_S1x1600000_1_0) shapeCasts_S1x1600000_S1600000 :=
    (V3_of m c main_v3 (by decide)).trans ((V2_of m c main_v3 (by decide)).trans (s0_v3 (V0 m c)))
  have hc : (V3 m c (Proc.devRef .tc main_c_0) : S_.Idx → BitVec 32) = constantI S_ 32 0#32 := s2_c0 (V2 m c)
  refine (s6_v9 (V6 m c)).trans ?_
  rw [h7, h3, hc]
  funext i
  obtain ⟨a, b, rfl⟩ : ∃ (a : Fin 1) (b : Fin 1601536), i = ix2 a b := ⟨i 0, i 1, eq_ix2 i⟩
  refine (shapeCast_a_1a_apply _ _ a b).trans ?_
  refine (pad1_apply (n := 1600000) (p := 1536) (N := 1601536) _ _ pads_S1600000_S1601536_015360 h_S_ b).trans ?_
  show _ = if h : b.val < 1600000 then colW (m ((c.tc : Thread nD τ).loc main_arg1)) ⟨b.val, h⟩ else 0#32
  by_cases hb : b.val < 1600000
  · rw [dif_pos hb, dif_pos hb]
    refine (shapeCast_1a_a_apply _ _ ⟨b.val, hb⟩).trans ?_
    exact slice2_axis0_apply 1 _ _ (0 : Fin 1) ⟨b.val, hb⟩ (1 : Fin 2) rfl
  · rw [dif_neg hb, dif_neg hb]
    rfl

/-- The row row: the first row of the edge array as one vector, padded with the word `100351`, as a one-row matrix. -/
theorem V7_v10 : (V7 m c (Proc.devRef .tc main_v10) : S1x1601536.Idx → BitVec 32) = rowPad (m ((c.tc : Thread nD τ).loc main_arg1)) := by
  have h8 : (V6 m c (Proc.devRef .tc main_v8) : S1601536.Idx → BitVec 32)
      = pad S1601536 ![0] ![1536] ![0] (V5 m c (Proc.devRef .tc main_v1) : S1600000.Idx → BitVec 32)
          (V5 m c (Proc.devRef .tc main_c_1) : S_.Idx → BitVec 32) pads_S1600000_S1601536_015360 h_S_ :=
    s5_v8 (V5 m c)
  have h1 : (V5 m c (Proc.devRef .tc main_v1) : S1600000.Idx → BitVec 32)
      = shapeCast S1600000 (extractStridedSlice S1x1600000 ![0, 0] (m ((c.tc : Thread nD τ).loc main_arg1) : S2x1600000.Idx → BitVec 32)
          slices_S2x1600000_S1x1600000_0_0) shapeCasts_S1x1600000_S1600000 :=
    (V5_of m c main_v1 (by decide)).trans ((V4_of m c main_v1 (by decide)).trans ((V3_of m c main_v1 (by decide)).trans
      ((V2_of m c main_v1 (by decide)).trans (s0_v1 (V0 m c)))))
  have hc : (V5 m c (Proc.devRef .tc main_c_1) : S_.Idx → BitVec 32) = constantI S_ 32 100351#32 := s4_c1 (V4 m c)
  refine (s6_v10 (V6 m c)).trans ?_
  rw [h8, h1, hc]
  funext i
  obtain ⟨a, b, rfl⟩ : ∃ (a : Fin 1) (b : Fin 1601536), i = ix2 a b := ⟨i 0, i 1, eq_ix2 i⟩
  refine (shapeCast_a_1a_apply _ _ a b).trans ?_
  refine (pad1_apply (n := 1600000) (p := 1536) (N := 1601536) _ _ pads_S1600000_S1601536_015360 h_S_ b).trans ?_
  show _ = if h : b.val < 1600000 then rowW (m ((c.tc : Thread nD τ).loc main_arg1)) ⟨b.val, h⟩ else 100351#32
  by_cases hb : b.val < 1600000
  · rw [dif_pos hb, dif_pos hb]
    refine (shapeCast_1a_a_apply _ _ ⟨b.val, hb⟩).trans ?_
    exact slice2_axis0_apply 0 _ _ (0 : Fin 1) ⟨b.val, hb⟩ (0 : Fin 2) rfl
  · rw [dif_neg hb, dif_neg hb]
    rfl

/-! ## The padded features -/

/-- The integer word `0` converted to a float is the real `0`, which is what the float word `0.0` denotes. -/
private theorem sitofp_zero_eq : (FloatOps.sitofp (F := Ideal) .f32 (0#32 : BitVec 32) : EReal) = zero := by
  show (((0#32 : BitVec 32).toInt : ℝ) : EReal) = Ideal.ofBits .f32 0x00000000#32
  rw [Ideal.ofBits_zero_f32, show (0#32 : BitVec 32).toInt = 0 from by decide, Int.cast_zero, EReal.coe_zero]

/-- The features with the ones column appended and 352 zero rows below. -/
theorem V7_v6 : (V7 m c (Proc.devRef .tc main_v6) : S100352x33.Idx → EReal) = xaug (m ((c.tc : Thread nD τ).loc main_arg0)) := by
  have h6 : (V7 m c (Proc.devRef .tc main_v6) : S100352x33.Idx → EReal)
      = pad S100352x33 ![0, 0] ![352, 0] ![0, 0] (V1 m c (Proc.devRef .tc main_v5) : S100000x33.Idx → EReal)
          (sitofp (F := Ideal) .f32 (V1 m c (Proc.devRef .tc main_c) : S_.Idx → BitVec 32) : S_.Idx → EReal)
          pads_S100000x33_S100352x33_03520_000 h_S_ :=
    (V7_of m c main_v6 (by decide)).trans ((V6_of m c main_v6 (by decide)).trans ((V5_of m c main_v6 (by decide)).trans
      ((V4_of m c main_v6 (by decide)).trans ((V3_of m c main_v6 (by decide)).trans (s1_v6 (V1 m c))))))
  have h5 : (V1 m c (Proc.devRef .tc main_v5) : S100000x33.Idx → EReal)
      = concatenate S100000x33 1
          [⟨S100000x32, (m ((c.tc : Thread nD τ).loc main_arg0) : S100000x32.Idx → EReal)⟩,
           ⟨S100000x1, broadcastInDim S100000x1 ![] bcast_S_S100000x1 (constant (F := Ideal) S_ .f32 0x3F800000#32)⟩]
          concatenates_S100000x32_S100000x1_S100000x33_d1 := s0_v5 (V0 m c)
  have hc : (V1 m c (Proc.devRef .tc main_c) : S_.Idx → BitVec 32) = constantI S_ 32 0#32 := s0_c (V0 m c)
  rw [h6, h5, hc]
  funext i
  obtain ⟨a, b, rfl⟩ : ∃ (a : Fin 100352) (b : Fin 33), i = ix2 a b := ⟨i 0, i 1, eq_ix2 i⟩
  refine (pad2_rows_apply (n0 := 100000) (n1 := 33) (p := 352) (N0 := 100352) _ _ pads_S100000x33_S100352x33_03520_000 h_S_ a b).trans ?_
  show _ = if h0 : a.val < 100000 then
      (if h1 : b.val < 32 then (m ((c.tc : Thread nD τ).loc main_arg0) : S100000x32.Idx → EReal) (ix2 (⟨a.val, h0⟩ : Fin 100000) (⟨b.val, h1⟩ : Fin 32)) else one)
    else zero
  by_cases ha : a.val < 100000
  · rw [dif_pos ha, dif_pos ha]
    by_cases hb : b.val < 32
    · rw [dif_pos hb]
      exact concatenate_pair_apply_left (t := S100000x33) (s₁ := S100000x32) (s₂ := S100000x1) (1 : Fin 2) _ _ concatenates_S100000x32_S100000x1_S100000x33_d1
        (ix2 (⟨a.val, ha⟩ : Fin 100000) b) rfl (ix2 (⟨a.val, ha⟩ : Fin 100000) (⟨b.val, hb⟩ : Fin 32))
        (fun k => match k with | ⟨0, _⟩ => rfl | ⟨1, _⟩ => rfl)
    · rw [dif_neg hb]
      have hb32 : b.val = 32 := by have := b.isLt; omega
      refine (concatenate_pair_apply_right (t := S100000x33) (s₁ := S100000x32) (s₂ := S100000x1) (1 : Fin 2) _ _ concatenates_S100000x32_S100000x1_S100000x33_d1
        (ix2 (⟨a.val, ha⟩ : Fin 100000) b) rfl rfl (ix2 (⟨a.val, ha⟩ : Fin 100000) (0 : Fin 1))
        (fun k hk => match k, hk with | ⟨0, _⟩, _ => rfl | ⟨1, _⟩, hk => absurd rfl hk)
        (by show 0 + 32 = b.val; omega)).trans ?_
      rfl
  · rw [dif_neg ha, dif_neg ha]
    exact sitofp_zero_eq

/-! ## The result cut back to the nodes -/

/-- The result is the first 100000 rows of the second call's padded output. -/
theorem tail_v13 (W : Valuation τ sig (Elt Ideal)) :
    (StableHlo.after (hostOps2 (F := Ideal)) W (Proc.devRef .tc main_v13) : S100000x32.Idx → EReal)
      = fun (i : S100000x32.Idx) => (W (Proc.devRef .tc main_v12) : S100352x32.Idx → EReal) (ix2 (⟨(i 0).val, by have := idx2_lt0 (n0 := 100000) (n1 := 32) i; omega⟩ : Fin 100352) (⟨(i 1).val, idx2_lt1 (n0 := 100000) (n1 := 32) i⟩ : Fin 32)) := by
  have e : (StableHlo.after (hostOps2 (F := Ideal)) W (Proc.devRef .tc main_v13) : S100000x32.Idx → EReal)
      = extractStridedSlice S100000x32 ![0, 0] (W (Proc.devRef .tc main_v12) : S100352x32.Idx → EReal) slices_S100352x32_S100000x32_0_0 := by
    simp only [hostOps2]
    after_results
  rw [e]
  funext i
  obtain ⟨a, b, rfl⟩ : ∃ (a : Fin 100000) (b : Fin 32), i = ix2 a b := ⟨i 0, i 1, eq_ix2 i⟩
  exact slice2_axis0_apply 0 _ _ a b (⟨a.val, by have := a.isLt; omega⟩ : Fin 100352) (Nat.zero_add _).symm

end Cert.KernelIdeal.HostVal

end
-- ==== Proof.SpecAlg.lean ====
/-
  The pure algebra of the tiled computation: a one-hot combination of a table's rows picks one row, so the padded,
  tiled sums are the mean aggregation.

  Everything is over the extended reals, where `0 · x = 0` and `1 · x = x` hold for every `x`; no finiteness is used.
  The steps: the one-hot weight is the indicator of "the word is the node number" (`oh_eq`); a sum of indicator-weighted
  rows collapses to the one named row (`sum_oh_mul`); hence the gathered array's row `e` is the padded features' row
  `col e` (`gathered_apply`); and in the scatter a padding edge carries the row word 100351, which is no node below
  100000, so its weight is `0` and the sums over the 1601536 padded edges are the sums `msg` and `deg` over the 1600000
  real ones (`outPad_eq_G`).
-/
import Idealize.ShloMosaic.PureOps.Ideal
import Idealize.ShloMosaic.PureOps.Ideal.Laws
import Idealize.ShloMosaic.Lib.ValueIdx
import proofs.«414928_j58308476011188_1_alg».proof.Proof.Spec
import Mathlib.Algebra.BigOperators.Fin
import Mathlib.Data.EReal.Basic
import Mathlib.Data.EReal.Operations

noncomputable section

open scoped BigOperators

namespace Cert.SpecAlg

open Cert.Spec Idealize.ShloMosaic Idealize.ShloMosaic.ValueIdx

/-- the one-hot weight is 1 exactly when the word is the node number -/
theorem oh_eq (n : Nat) (hn : n < 2 ^ 32) (w : BitVec 32) : oh n w = if w.toNat = n then 1 else 0 := by
  unfold oh
  -- the conversion is the signed value of the comparison's bit widened to a word
  show (((((IntOp.cmpi .eq (BitVec.ofNat 32 n) w).setWidth 32).toInt : ℝ)) : EReal) = _
  by_cases h : w.toNat = n
  · have e : BitVec.ofNat 32 n = w := by subst h; simp
    simp [IntOp.cmpi, e, h]
  · have e : ¬ BitVec.ofNat 32 n = w := by
      intro e; apply h; rw [← e]; simp [BitVec.toNat_ofNat]; omega
    have e' : (BitVec.ofNat 32 n == w) = false := beq_eq_false_iff_ne.mpr e
    simp [IntOp.cmpi, e', h]

/-- a one-hot combination of a table's rows is the named row, or 0 when the word names none -/
theorem sum_oh_mul (N : Nat) (hN : N < 2 ^ 32) (w : BitVec 32) (f : Fin N → EReal) :
    ∑ n : Fin N, oh n.val w * f n = if h : w.toNat < N then f ⟨w.toNat, h⟩ else 0 := by
  have hoh : ∀ n : Fin N, oh n.val w = if w.toNat = n.val then 1 else 0 :=
    fun n => oh_eq n.val (by have := n.isLt; omega) w
  simp only [hoh]
  split_ifs with h
  · -- only the term at `n = w.toNat` survives
    rw [Finset.sum_eq_single (⟨w.toNat, h⟩ : Fin N)]
    · simp
    · intro b _ hb
      have : ¬ w.toNat = b.val := fun e => hb (Fin.ext e.symm)
      simp [this]
    · intro h'; exact absurd (Finset.mem_univ _) h'
  · -- no `n` below `N` is the word's value: every term is `0`
    apply Finset.sum_eq_zero
    intro n _
    have : ¬ w.toNat = n.val := by have := n.isLt; omega
    simp [this]

/-- A sum over `Fin K` whose terms vanish from `M` on is the sum over `Fin M`. -/
private theorem sum_trunc (M K : Nat) (hMK : M ≤ K) (f : Fin K → EReal)
    (hz : ∀ e : Fin K, M ≤ e.val → f e = 0) :
    ∑ e : Fin K, f e = ∑ e : Fin M, f ⟨e.val, lt_of_lt_of_le e.isLt hMK⟩ := by
  obtain ⟨k, rfl⟩ := Nat.exists_eq_add_of_le hMK
  rw [Fin.sum_univ_add]
  have h2 : ∑ i : Fin k, f (Fin.natAdd M i) = 0 :=
    Finset.sum_eq_zero fun i _ => hz _ (by simp [Fin.natAdd])
  rw [h2, add_zero]
  rfl

/-- A dependent choice on `w.toNat < N` at a word whose value `k` is known. -/
private theorem dite_toNat {N : Nat} (w : BitVec 32) (f : Fin N → EReal) (k : Nat) (hk : k < N)
    (hw : w.toNat = k) : (if h : w.toNat < N then f ⟨w.toNat, h⟩ else 0) = f ⟨k, hk⟩ := by
  subst hw; exact dif_pos hk

/-- Under `ColOk` a column word, read unsigned, is the node `colOf` names: a word whose signed value lies in
    `0 … 99999` has that same unsigned value, and reducing it modulo 100000 changes nothing. -/
private theorem colW_toNat (ei : SE.Idx → BitVec 32) (hc : ColOk ei) (e : Fin 1600000) :
    (colW ei e).toNat = (colOf ei e).val := by
  have h := hc e
  have hlt := (colW ei e).isLt
  unfold colOf
  rw [BitVec.toInt_eq_toNat_cond] at h
  simp only
  split_ifs at h <;> omega

/-- GATHER: under ColOk, row e of the gathered array is row (col e) of the padded features for a real edge, row 0 for a padding edge -/
theorem gathered_apply (x : SX.Idx → EReal) (ei : SE.Idx → BitVec 32) (hc : ColOk ei) (e : Fin 1601536) (d : Fin 33) :
    gathered (xaug x) (colPad ei) (ix2 e d)
      = if he : e.val < 1600000 then xaug x (ix2 (⟨(colOf ei ⟨e.val, he⟩).val, by have := (colOf ei ⟨e.val, he⟩).isLt; omega⟩ : Fin 100352) d) else xaug x (ix2 (⟨0, by decide⟩ : Fin 100352) d) := by
  have hg : gathered (xaug x) (colPad ei) (ix2 e d)
      = ∑ n : Fin 100352, oh n.val (colPad ei (ix2 (0 : Fin 1) e)) * xaug x (ix2 n d) := rfl
  rw [hg, sum_oh_mul 100352 (by norm_num) (colPad ei (ix2 (0 : Fin 1) e)) (fun n => xaug x (ix2 n d))]
  by_cases he : e.val < 1600000
  · -- a real edge: the padded word is the column word, a node below 100000
    rw [dif_pos he]
    have hw : colPad ei (ix2 (0 : Fin 1) e) = colW ei ⟨e.val, he⟩ := dif_pos he
    rw [hw]
    exact dite_toNat (N := 100352) _ (fun n => xaug x (ix2 n d)) _ _ (colW_toNat ei hc ⟨e.val, he⟩)
  · -- a padding edge: the padded word is `0`
    rw [dif_neg he]
    have hw : colPad ei (ix2 (0 : Fin 1) e) = 0#32 := dif_neg he
    rw [hw]
    exact dite_toNat (N := 100352) _ (fun n => xaug x (ix2 n d)) 0 (by decide) rfl

/-- The weight of a node number below 100000 against a word: 1 exactly when the word, read signed, is that number
    (a number below `2 ^ 31` is a word's signed value exactly when it is its unsigned value). -/
private theorem oh_row (n : Nat) (hn : n < 100000) (w : BitVec 32) :
    oh n w = if w.toInt = (n : Int) then 1 else 0 := by
  rw [oh_eq n (by omega) w]
  have hlt := w.isLt
  have hiff : w.toNat = n ↔ w.toInt = (n : Int) := by
    rw [BitVec.toInt_eq_toNat_cond]; split_ifs <;> omega
  simp only [hiff]

/-- The one-hot combination of a column with the padded row words is the sum of that column over the real edges that
    end at `n`: a padding edge's row word is 100351, which is no node below 100000. -/
private theorem scatter_sum (ei : SE.Idx → BitVec 32) (n : Fin 100000) (F : Fin 1601536 → EReal) :
    ∑ e : Fin 1601536, oh n.val (rowPad ei (ix2 (0 : Fin 1) e)) * F e
      = ∑ e : Fin 1600000, if (rowW ei e).toInt = (n.val : Int) then F ⟨e.val, by have := e.isLt; omega⟩ else 0 := by
  have hn := n.isLt
  rw [sum_trunc 1600000 1601536 (by norm_num) _ ?_]
  · refine Finset.sum_congr rfl fun e _ => ?_
    have he := e.isLt
    have hw : rowPad ei (ix2 (0 : Fin 1) (⟨e.val, lt_of_lt_of_le e.isLt (by norm_num)⟩ : Fin 1601536)) = rowW ei e := dif_pos he
    rw [hw, oh_row n.val hn]
    split_ifs <;> simp
  · intro e he
    have hw : rowPad ei (ix2 (0 : Fin 1) e) = 100351#32 := dif_neg (show ¬ e.val < 1600000 by omega)
    rw [hw, oh_eq n.val (by omega)]
    have hne : ¬ (100351#32).toNat = n.val := by simp; omega
    rw [if_neg hne, zero_mul]

/-- SCATTER AND MEAN: on the first 100000 rows the tiled result is the mean aggregation -/
theorem outPad_eq_G (x : SX.Idx → EReal) (ei : SE.Idx → BitVec 32) (hc : ColOk ei) (n : Fin 100000) (d : Fin 32) :
    outPad (gathered (xaug x) (colPad ei)) (rowPad ei) (ix2 (⟨n.val, by have := n.isLt; omega⟩ : Fin 100352) d) = G x ei (ix2 n d) := by
  -- the numerator: column `d < 32` of gathered row `e` is `x (col e) d`
  have hmsg : ∑ e : Fin 1601536, oh n.val (rowPad ei (ix2 (0 : Fin 1) e))
        * gathered (xaug x) (colPad ei) (ix2 e (⟨d.val, Nat.lt_succ_of_lt d.isLt⟩ : Fin 33)) = msg x ei n d := by
    rw [scatter_sum ei n (fun e => gathered (xaug x) (colPad ei) (ix2 e (⟨d.val, Nat.lt_succ_of_lt d.isLt⟩ : Fin 33)))]
    unfold msg
    refine Finset.sum_congr rfl fun e _ => ?_
    rw [gathered_apply x ei hc, dif_pos e.isLt]
    have hx : xaug x (ix2 (⟨(colOf ei ⟨e.val, e.isLt⟩).val, by have := (colOf ei ⟨e.val, e.isLt⟩).isLt; omega⟩ : Fin 100352)
        (⟨d.val, Nat.lt_succ_of_lt d.isLt⟩ : Fin 33)) = x (ix2 (colOf ei e) d) := by
      have h0 : (colOf ei e).val < 100000 := (colOf ei e).isLt
      have h1 : d.val < 32 := d.isLt
      show (if h0 : (colOf ei e).val < 100000 then
        if h1 : d.val < 32 then x (ix2 (⟨(colOf ei e).val, h0⟩ : Fin 100000) (⟨d.val, h1⟩ : Fin 32)) else one
        else zero) = _
      rw [dif_pos h0, dif_pos h1]
    rw [hx]
  -- the denominator's sum: column 32 of gathered row `e` is the appended `1.0`
  have hdeg : ∑ e : Fin 1601536, oh n.val (rowPad ei (ix2 (0 : Fin 1) e))
        * gathered (xaug x) (colPad ei) (ix2 e (⟨32, by decide⟩ : Fin 33)) = deg ei n := by
    rw [scatter_sum ei n (fun e => gathered (xaug x) (colPad ei) (ix2 e (⟨32, by decide⟩ : Fin 33)))]
    unfold deg
    refine Finset.sum_congr rfl fun e _ => ?_
    rw [gathered_apply x ei hc, dif_pos e.isLt]
    have hx : xaug x (ix2 (⟨(colOf ei ⟨e.val, e.isLt⟩).val, by have := (colOf ei ⟨e.val, e.isLt⟩).isLt; omega⟩ : Fin 100352)
        (⟨32, by decide⟩ : Fin 33)) = one := by
      have h0 : (colOf ei e).val < 100000 := (colOf ei e).isLt
      show (if h0 : (colOf ei e).val < 100000 then
        if h1 : 32 < 32 then x (ix2 (⟨(colOf ei e).val, h0⟩ : Fin 100000) (⟨32, h1⟩ : Fin 32)) else one
        else zero) = _
      rw [dif_pos h0, dif_neg (lt_irrefl 32)]
    rw [hx]
  show Ideal.div (∑ e : Fin 1601536, oh n.val (rowPad ei (ix2 (0 : Fin 1) e))
        * gathered (xaug x) (colPad ei) (ix2 e (⟨d.val, Nat.lt_succ_of_lt d.isLt⟩ : Fin 33)))
      (max (∑ e : Fin 1601536, oh n.val (rowPad ei (ix2 (0 : Fin 1) e))
        * gathered (xaug x) (colPad ei) (ix2 e (⟨32, by decide⟩ : Fin 33))) one)
    = Ideal.div (msg x ei n d) (max (deg ei n) one)
  rw [hmsg, hdeg]

end Cert.SpecAlg

end
-- ==== Proof.KI.Value.lean ====
/-
  The tiled program's result is the mean aggregation.  Read backwards from the end: the result buffer is the closing
  slice (the first 100000 rows) of the second call's output array; that array is the one-hot scatter-and-mean of the
  gathered array by the padded row words; the gathered array is the first call's output, the one-hot gather of the
  padded features by the padded column words; and the padded arrays are what the host operations before the calls build
  from the two arguments.  On the first 100000 rows the composition is `Cert.Spec.G` as soon as every column word
  names a node.
-/
import proofs.«414928_j58308476011188_1_alg».proof.Proof.KI.Main
import proofs.«414928_j58308476011188_1_alg».proof.Proof.KI.Val0
import proofs.«414928_j58308476011188_1_alg».proof.Proof.KI.Val1
import proofs.«414928_j58308476011188_1_alg».proof.Proof.KI.HostVal
import proofs.«414928_j58308476011188_1_alg».proof.Proof.SpecAlg

set_option maxRecDepth 16384

noncomputable section

namespace Cert.KernelIdeal.Value

open Cert.KernelIdeal Cert.KernelIdeal.Gen Cert.KernelIdeal.Fr Cert.Spec
open Idealize.ShloMosaic Idealize.ShloMosaic.ValueIdx Idealize.ShloMosaic.TcCoe Idealize.SL.Sem

variable (m : (ℓ : Loc nD τ sig) → Buf (Elt Ideal) ℓ) (c : Dev nD)

/-- The last buffer's contents at the result array are `G` of the two arguments. -/
theorem result_eq (hc : ColOk (m ((c.tc : Thread nD τ).loc main_arg1))) :
    (W10 m c (Proc.devRef .tc main_v13) : S100000x32.Idx → EReal)
      = G (m ((c.tc : Thread nD τ).loc main_arg0)) (m ((c.tc : Thread nD τ).loc main_arg1)) := by
  -- the gathered array, as the second call finds it
  have e11 : (R8 m c main_v11 : S1601536x33.Idx → EReal)
      = gathered (xaug (m ((c.tc : Thread nD τ).loc main_arg0))) (colPad (m ((c.tc : Thread nD τ).loc main_arg1))) :=
    (W8_arr m c 2).trans ((Cert.KernelIdeal.Val0.region0_value (R7 m) c).trans
      (by rw [show (R7 m c main_v6 : S100352x33.Idx → EReal) = _ from Cert.KernelIdeal.HostVal.V7_v6 m c,
            show (R7 m c main_v9 : S1x1601536.Idx → BitVec 32) = _ from Cert.KernelIdeal.HostVal.V7_v9 m c]))
  -- the padded row words reach the second call untouched by the first
  have e10 : (R8 m c main_v10 : S1x1601536.Idx → BitVec 32) = rowPad (m ((c.tc : Thread nD τ).loc main_arg1)) :=
    (W8_of_ne m c main_v10 (by decide)).trans (Cert.KernelIdeal.HostVal.V7_v10 m c)
  have e12 : (W9 m c (Proc.devRef .tc main_v12) : S100352x32.Idx → EReal)
      = outPad (gathered (xaug (m ((c.tc : Thread nD τ).loc main_arg0))) (colPad (m ((c.tc : Thread nD τ).loc main_arg1)))) (rowPad (m ((c.tc : Thread nD τ).loc main_arg1))) :=
    (W9_arr m c 2).trans ((Cert.KernelIdeal.Val1.region1_value (R8 m) c).trans (by rw [e11, e10]))
  funext i
  obtain ⟨n, d, rfl⟩ : ∃ (n : Fin 100000) (d : Fin 32), i = ix2 n d := ⟨i 0, i 1, eq_ix2 i⟩
  rw [show W10 m c = StableHlo.after (hostOps2 (F := Ideal)) (W9 m c) from rfl, Cert.KernelIdeal.HostVal.tail_v13 (W9 m c), e12]
  exact Cert.SpecAlg.outPad_eq_G _ _ hc n d

end Cert.KernelIdeal.Value

end
-- ==== Proof.RefSide.lean ====
/-
  The reference program's result is the mean-aggregation `Cert.Spec.G` of its arguments (under `ColOk`).

  The reference gathers the source rows `x[col e]`, adds them up per destination node `row e` (a scatter with an
  add body into an array of zeros), counts the edges per destination node the same way (a scatter of the word `1.0`),
  and divides the first by the larger of the second and `1.0`.  Three of its operations read an element that
  depends on the VALUES of an operand and are read here from their definitions:

  * the gather reads, at `(e, d)`, the operand at row `clamp (start e)` and column `d`, the start index being the
    column word with `100000` added when it is negative; a column word that names a node is neither negative nor out
    of range, so the row read is the node it names;
  * an accumulating scatter leaves, at an element, the operand's element plus the sum of the updates whose result index
    is that element; for the row-wise scatter update `(e, d')` lands at `(row e, d')` (the row word read signed, not
    clamped, dropped when outside), so the updates landing at `(n, d)` are the `(e, d)` with `row e = n`; the
    rank-1 scatter is the same without the window coordinate.
-/
import proofs.«414928_j58308476011188_1_alg».proof.Proof.Gen.ReferenceIdeal.Run
import proofs.«414928_j58308476011188_1_alg».proof.Proof.Gen.ReferenceIdeal.Read
import proofs.«414928_j58308476011188_1_alg».proof.Proof.Spec
import Idealize.ShloMosaic.Lib.ValueIdx
import Idealize.ShloMosaic.PureOps.Ideal.Laws

noncomputable section

open scoped BigOperators

namespace Cert.RefSide

open Cert.ReferenceIdeal Cert.ReferenceIdeal.Gen Cert.Spec Idealize.ShloMosaic Idealize.ShloMosaic.ValueIdx
  Idealize.ShloMosaic.TcCoe Idealize.SL.Sem

/-! ## Words -/

/-- A word that is not negative as a signed integer does not compare below zero. -/
private theorem slt_zero_ne_one (w : BitVec 32) (h : 0 ≤ w.toInt) : ¬ IntOp.cmpi .slt w 0#32 = 1 := by
  unfold IntOp.cmpi
  have hs : w.slt 0#32 = false := by
    simp only [BitVec.slt, BitVec.toInt_zero, decide_eq_false_iff_not, not_lt]
    exact h
  show ¬ BitVec.ofBool (w.slt 0#32) = 1
  rw [hs]
  decide

/-- A word that names a node (`0 ≤ w < 100000` signed), read signed and clamped into `0 … 99999`, is its own
    value. -/
private theorem clamp_node (w : BitVec 32) (h0 : 0 ≤ w.toInt) (h1 : w.toInt < 100000) :
    min w.toInt.toNat 99999 = w.toNat % 100000 := by
  have hlt : w.toNat < 2 ^ 32 := w.isLt
  have e : w.toInt = (w.toNat : Int) := by
    rw [BitVec.toInt_eq_toNat_cond] at h0 ⊢
    split_ifs at h0 ⊢ with hh
    · rfl
    · omega
  rw [e] at h1 ⊢
  rw [Int.toNat_natCast]
  omega

/-! ## The three operations read by hand -/

/-- The row gather: result element `(e, d)` is the operand at the row the start index `e` names, read signed
    and clamped into `0 … 99999`, and column `d`. -/
private theorem gather_row {α : Type} (x : S100000x32.Idx → α) (idx : IVec S1600000x1 32) (e : Fin 1600000) (d : Fin 32) :
    Host.gather gather_S100000x32_S1600000x1_S1600000x32_1_0_n_n_0_1_132 x idx (ix2 e d)
      = x (ix2 (⟨min (idx (ix2 e (0 : Fin 1))).toInt.toNat 99999, by omega⟩ : Fin 100000) d) := by
  unfold Host.gather
  congr 1
  funext a
  refine Fin.ext ?_
  match a with
  | ⟨0, _⟩ =>
    show gather_S100000x32_S1600000x1_S1600000x32_1_0_n_n_0_1_132.start (ix2 e d) idx 0
        + gather_S100000x32_S1600000x1_S1600000x32_1_0_n_n_0_1_132.batchCoord (ix2 e d) 0
        + gather_S100000x32_S1600000x1_S1600000x32_1_0_n_n_0_1_132.offCoord (ix2 e d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x32_S1600000x1_S1600000x32_1_0_n_n_0_1_132.startIndexMap from
      List.mem_singleton.mpr rfl)]
    have hsi : gather_S100000x32_S1600000x1_S1600000x32_1_0_n_n_0_1_132.siIdx (ix2 e d)
        ⟨List.idxOf (0 : Fin 2) gather_S100000x32_S1600000x1_S1600000x32_1_0_n_n_0_1_132.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S100000x32_S1600000x1_S1600000x32_1_0_n_n_0_1_132.start (ix2 e d) idx 1
        + gather_S100000x32_S1600000x1_S1600000x32_1_0_n_n_0_1_132.batchCoord (ix2 e d) 1
        + gather_S100000x32_S1600000x1_S1600000x32_1_0_n_n_0_1_132.offCoord (ix2 e d) 1 = d.val
    rw [GatherDims.batchCoord_eq_zero _ _ _ List.not_mem_nil]
    unfold GatherDims.start
    rw [dif_neg (show ¬ (1 : Fin 2) ∈ gather_S100000x32_S1600000x1_S1600000x32_1_0_n_n_0_1_132.startIndexMap by decide)]
    simp only [Nat.add_zero, Nat.zero_add]
    rfl

/-- An update's result index is `i` exactly when, on every axis, its start plus its window coordinate is `i`'s
    coordinate (the start is read signed and not clamped; a sum outside the operand on some axis drops the update). -/
private theorem resultIdx?_eq_some_iff {s si u : Shape} (D : ScatterDims s si u) {w : Nat} (j : u.Idx) (idx : IVec si w)
    (i : s.Idx) :
    D.resultIdx? j idx = some i ↔ ∀ a, D.start j idx a + D.window j a = ((i a).val : Int) := by
  unfold ScatterDims.resultIdx?
  constructor
  · intro h a
    by_cases hall : ∀ a, 0 ≤ D.start j idx a + D.window j a ∧ D.start j idx a + D.window j a < s.size a
    · rw [dif_pos hall] at h
      have hi : (D.start j idx a + D.window j a).toNat = (i a).val :=
        congrArg (fun f : s.Idx => (f a).val) (Option.some.inj h)
      have h0 := (hall a).1
      omega
    · rw [dif_neg hall] at h
      exact absurd h (by simp)
  · intro h
    have hall : ∀ a, 0 ≤ D.start j idx a + D.window j a ∧ D.start j idx a + D.window j a < s.size a := fun a => by
      have hlt := (i a).isLt
      rw [h a]; omega
    rw [dif_pos hall]
    congr 1
    funext a
    refine Fin.ext ?_
    show (D.start j idx a + D.window j a).toNat = (i a).val
    rw [h a]; exact Int.toNat_natCast _

/-! ### The row-wise scatter: update `(e, d')` lands at `(row e, d')` -/

private theorem sc2_start0 (idx : IVec S1600000x1 32) (e : Fin 1600000) (d' : Fin 32) :
    scatter_S100000x32_S1600000x1_S1600000x32_1_0_0_1.start (ix2 e d') idx 0 = (idx (ix2 e (0 : Fin 1))).toInt := by
  unfold ScatterDims.start
  rw [dif_pos (show (0 : Fin 2) ∈ scatter_S100000x32_S1600000x1_S1600000x32_1_0_0_1.scatterDimsToOperandDims from List.mem_singleton.mpr rfl)]
  have hsi : scatter_S100000x32_S1600000x1_S1600000x32_1_0_0_1.siIdx (ix2 e d')
      ⟨List.idxOf (0 : Fin 2) scatter_S100000x32_S1600000x1_S1600000x32_1_0_0_1.scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

private theorem sc2_start1 (idx : IVec S1600000x1 32) (e : Fin 1600000) (d' : Fin 32) :
    scatter_S100000x32_S1600000x1_S1600000x32_1_0_0_1.start (ix2 e d') idx 1 = 0 := by
  unfold ScatterDims.start
  rw [dif_neg (show ¬ (1 : Fin 2) ∈ scatter_S100000x32_S1600000x1_S1600000x32_1_0_0_1.scatterDimsToOperandDims by decide)]

private theorem sc2_window0 (e : Fin 1600000) (d' : Fin 32) : scatter_S100000x32_S1600000x1_S1600000x32_1_0_0_1.window (ix2 e d') 0 = 0 := by
  unfold ScatterDims.window
  rw [dif_neg (show ¬ (0 : Fin 2) ∈ scatter_S100000x32_S1600000x1_S1600000x32_1_0_0_1.sKept by decide)]

private theorem sc2_window1 (e : Fin 1600000) (d' : Fin 32) : scatter_S100000x32_S1600000x1_S1600000x32_1_0_0_1.window (ix2 e d') 1 = d'.val := by
  unfold ScatterDims.window
  rw [dif_pos (show (1 : Fin 2) ∈ scatter_S100000x32_S1600000x1_S1600000x32_1_0_0_1.sKept by decide)]
  rfl

/-- Update `(e, d')` lands at `(n, d)` exactly when the row word of `e` is `n` (as a signed integer) and `d' = d`. -/
private theorem sc2_result (idx : IVec S1600000x1 32) (e : Fin 1600000) (d' : Fin 32) (n : Fin 100000) (d : Fin 32) :
    scatter_S100000x32_S1600000x1_S1600000x32_1_0_0_1.resultIdx? (ix2 e d') idx = some (ix2 n d)
      ↔ (idx (ix2 e (0 : Fin 1))).toInt = (n.val : Int) ∧ d' = d := by
  rw [resultIdx?_eq_some_iff]
  constructor
  · intro h
    have h0 := h 0
    have h1 := h 1
    rw [sc2_start0, sc2_window0] at h0
    rw [sc2_start1, sc2_window1] at h1
    change _ + ((0 : Nat) : Int) = (n.val : Int) at h0
    change (0 : Int) + (d'.val : Int) = (d.val : Int) at h1
    exact ⟨by omega, Fin.ext (by omega)⟩
  · rintro ⟨h0, rfl⟩ a
    match a with
    | ⟨0, _⟩ =>
      show scatter_S100000x32_S1600000x1_S1600000x32_1_0_0_1.start (ix2 e d') idx 0 + ((scatter_S100000x32_S1600000x1_S1600000x32_1_0_0_1.window (ix2 e d') 0 : Nat) : Int) = (n.val : Int)
      rw [sc2_start0, sc2_window0]; omega
    | ⟨1, _⟩ =>
      show scatter_S100000x32_S1600000x1_S1600000x32_1_0_0_1.start (ix2 e d') idx 1 + ((scatter_S100000x32_S1600000x1_S1600000x32_1_0_0_1.window (ix2 e d') 1 : Nat) : Int) = (d'.val : Int)
      rw [sc2_start1, sc2_window1]; omega

/-- The row-wise accumulating scatter at `(n, d)`: the operand's element plus the updates `(e, d)` of the edges whose
    row word is `n`. -/
private theorem scatter2_apply (x : S100000x32.Idx → EReal) (idx : IVec S1600000x1 32) (upd : S1600000x32.Idx → EReal)
    (n : Fin 100000) (d : Fin 32) :
    Ideal.hostScatterAdd scatter_S100000x32_S1600000x1_S1600000x32_1_0_0_1 x idx upd (ix2 n d)
      = x (ix2 n d) + ∑ e : Fin 1600000, if (idx (ix2 e (0 : Fin 1))).toInt = (n.val : Int) then upd (ix2 e d) else 0 := by
  rw [Ideal.hostScatterAdd]
  refine congrArg (fun t : EReal => x (ix2 n d) + t) ?_
  rw [Finset.sum_filter, sum_idx2]
  refine Finset.sum_congr rfl fun e _ => ?_
  by_cases h : (idx (ix2 e (0 : Fin 1))).toInt = (n.val : Int)
  · rw [if_pos h, Finset.sum_eq_single d]
    · rw [if_pos ((sc2_result idx e d n d).2 ⟨h, rfl⟩)]
    · intro d' _ hne
      rw [if_neg (fun hh => hne ((sc2_result idx e d' n d).1 hh).2)]
    · intro hd
      exact absurd (Finset.mem_univ _) hd
  · rw [if_neg h]
    exact Finset.sum_eq_zero fun d' _ => if_neg (fun hh => h ((sc2_result idx e d' n d).1 hh).1)

/-! ### The rank-1 scatter: update `e` lands at `row e` -/

private theorem sc1_start (idx : IVec S1600000x1 32) (e : Fin 1600000) :
    scatter_S100000_S1600000x1_S1600000_n_0_0_1.start (ix1 e) idx 0 = (idx (ix2 e (0 : Fin 1))).toInt := by
  unfold ScatterDims.start
  rw [dif_pos (show (0 : Fin 1) ∈ scatter_S100000_S1600000x1_S1600000_n_0_0_1.scatterDimsToOperandDims from List.mem_singleton.mpr rfl)]
  have hsi : scatter_S100000_S1600000x1_S1600000_n_0_0_1.siIdx (ix1 e)
      ⟨List.idxOf (0 : Fin 1) scatter_S100000_S1600000x1_S1600000_n_0_0_1.scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

private theorem sc1_window (e : Fin 1600000) : scatter_S100000_S1600000x1_S1600000_n_0_0_1.window (ix1 e) 0 = 0 := by
  unfold ScatterDims.window
  rw [dif_neg (show ¬ (0 : Fin 1) ∈ scatter_S100000_S1600000x1_S1600000_n_0_0_1.sKept by decide)]

/-- Update `e` lands at `n` exactly when the row word of `e` is `n` as a signed integer. -/
private theorem sc1_result (idx : IVec S1600000x1 32) (e : Fin 1600000) (n : Fin 100000) :
    scatter_S100000_S1600000x1_S1600000_n_0_0_1.resultIdx? (ix1 e) idx = some (ix1 n) ↔ (idx (ix2 e (0 : Fin 1))).toInt = (n.val : Int) := by
  rw [resultIdx?_eq_some_iff]
  constructor
  · intro h
    have h0 := h 0
    rw [sc1_start, sc1_window] at h0
    change _ + ((0 : Nat) : Int) = (n.val : Int) at h0
    omega
  · intro h a
    match a with
    | ⟨0, _⟩ =>
      show scatter_S100000_S1600000x1_S1600000_n_0_0_1.start (ix1 e) idx 0 + ((scatter_S100000_S1600000x1_S1600000_n_0_0_1.window (ix1 e) 0 : Nat) : Int) = (n.val : Int)
      rw [sc1_start, sc1_window]; omega

/-- The rank-1 accumulating scatter at `n`: the operand's element plus the updates of the edges whose row word is `n`. -/
private theorem scatter1_apply (x : S100000.Idx → EReal) (idx : IVec S1600000x1 32) (upd : S1600000.Idx → EReal)
    (n : Fin 100000) :
    Ideal.hostScatterAdd scatter_S100000_S1600000x1_S1600000_n_0_0_1 x idx upd (ix1 n)
      = x (ix1 n) + ∑ e : Fin 1600000, if (idx (ix2 e (0 : Fin 1))).toInt = (n.val : Int) then upd (ix1 e) else 0 := by
  rw [Ideal.hostScatterAdd]
  refine congrArg (fun t : EReal => x (ix1 n) + t) ?_
  rw [Finset.sum_filter]
  refine (Finset.sum_nbij' (s := Finset.univ) (t := Finset.univ) (fun e : Fin 1600000 => (ix1 e : S1600000.Idx))
    (fun j : S1600000.Idx => (j 0 : Fin 1600000)) (fun _ _ => Finset.mem_univ _) (fun _ _ => Finset.mem_univ _)
    (fun _ _ => rfl) (fun j _ => (eq_ix1 j).symm) (fun e _ => ?_)).symm
  by_cases h : (idx (ix2 e (0 : Fin 1))).toInt = (n.val : Int)
  · rw [if_pos h, if_pos ((sc1_result idx e n).2 h)]
  · rw [if_neg h, if_neg (fun hh => h ((sc1_result idx e n).1 hh))]

/-! ## The words and rows the reference reads -/

/-- The first scatter's indices at `(e, 0)`: the row word of edge `e`. -/
private theorem row_read12 (x1 : (⟨S2x1600000, .i32⟩ : BufTy).Contents (Elt Ideal)) (e : Fin 1600000) :
    Read.val_main_v12 (F := Ideal) x1 (ix2 e (0 : Fin 1)) = rowW x1 e := by
  rw [Read.val_main_v12_apply, Read.val_main_v1_apply, Read.val_main_v0_apply]
  unfold rowW
  congr 1
  funext a
  match a with
  | ⟨0, _⟩ => exact Fin.ext rfl
  | ⟨1, _⟩ => exact Fin.ext (Nat.mod_eq_of_lt e.isLt)

/-- The second scatter's indices at `(e, 0)`: the row word of edge `e`. -/
private theorem row_read16 (x1 : (⟨S2x1600000, .i32⟩ : BufTy).Contents (Elt Ideal)) (e : Fin 1600000) :
    Read.val_main_v16 (F := Ideal) x1 (ix2 e (0 : Fin 1)) = rowW x1 e := by
  rw [Read.val_main_v16_apply, Read.val_main_v1_apply, Read.val_main_v0_apply]
  unfold rowW
  congr 1
  funext a
  match a with
  | ⟨0, _⟩ => exact Fin.ext rfl
  | ⟨1, _⟩ => exact Fin.ext (Nat.mod_eq_of_lt e.isLt)

/-- The column row of the edge list at `e`: the column word of edge `e`. -/
private theorem col_read3 (x1 : (⟨S2x1600000, .i32⟩ : BufTy).Contents (Elt Ideal)) (e : Fin 1600000) :
    Read.val_main_v3 (F := Ideal) x1 (Read.idx_main_v9 (ix2 e (0 : Fin 1))) = colW x1 e := by
  rw [Read.val_main_v3_apply, Read.val_main_v2_apply]
  unfold colW
  congr 1
  funext a
  match a with
  | ⟨0, _⟩ => exact Fin.ext rfl
  | ⟨1, _⟩ => exact Fin.ext (Nat.mod_eq_of_lt e.isLt)

/-- The gather's start index at `(e, 0)`: a column word that is not negative is not wrapped. -/
private theorem col_read9 (x1 : (⟨S2x1600000, .i32⟩ : BufTy).Contents (Elt Ideal)) (e : Fin 1600000)
    (h : 0 ≤ (colW x1 e).toInt) :
    Read.val_main_v9 (F := Ideal) x1 (ix2 e (0 : Fin 1)) = colW x1 e := by
  rw [Read.val_main_v9_apply, Read.val_main_v8_apply, Read.val_main_v5_apply, Read.val_main_v4_apply,
    Read.val_main_c_apply, col_read3]
  unfold Scalar.select
  rw [if_neg (slt_zero_ne_one _ h)]

/-- The gathered rows: row `e` is the row of the features that the column word of edge `e` names. -/
private theorem gather_read (x0 : (⟨S100000x32, .f32⟩ : BufTy).Contents (Elt Ideal))
    (x1 : (⟨S2x1600000, .i32⟩ : BufTy).Contents (Elt Ideal)) (hc : ColOk x1) (e : Fin 1600000) (d : Fin 32) :
    Read.val_main_v10 (F := Ideal) x0 x1 (ix2 e d) = x0 (ix2 (colOf x1 e) d) := by
  unfold Read.val_main_v10
  rw [gather_row]
  refine congrArg (fun k : Fin 100000 => x0 (ix2 k d)) (Fin.ext ?_)
  show min (Read.val_main_v9 (F := Ideal) x1 (ix2 e (0 : Fin 1))).toInt.toNat 99999 = (colW x1 e).toNat % 100000
  rw [col_read9 x1 e (hc e).1]
  exact clamp_node _ (hc e).1 (hc e).2

/-! ## The two sums, and the result -/

/-- The reference's sum of messages is `msg`. -/
private theorem v13_eq (x0 : (⟨S100000x32, .f32⟩ : BufTy).Contents (Elt Ideal))
    (x1 : (⟨S2x1600000, .i32⟩ : BufTy).Contents (Elt Ideal)) (hc : ColOk x1) (n : Fin 100000) (d : Fin 32) :
    Read.val_main_v13 (F := Ideal) x0 x1 (ix2 n d) = msg x0 x1 n d := by
  rw [Read.val_main_v13, Host.scatterAdd, Ideal.hostScatterAdd_def, scatter2_apply, Read.val_main_v11_apply,
    Read.val_main_cst_apply, Ideal.ofBits_def, Ideal.ofBits_zero_f32, zero_add, msg]
  refine Finset.sum_congr rfl fun e _ => ?_
  rw [row_read12, gather_read x0 x1 hc]

/-- The reference's edge count is `deg`. -/
private theorem v17_eq (x1 : (⟨S2x1600000, .i32⟩ : BufTy).Contents (Elt Ideal)) (n : Fin 100000) :
    Read.val_main_v17 (F := Ideal) x1 (ix1 n) = deg x1 n := by
  rw [Read.val_main_v17, Host.scatterAdd, Ideal.hostScatterAdd_def, scatter1_apply, Read.val_main_v15_apply,
    Read.val_main_cst_2_apply, Ideal.ofBits_def, Ideal.ofBits_zero_f32, zero_add, deg]
  refine Finset.sum_congr rfl fun e _ => ?_
  rw [row_read16, Read.val_main_v14_apply, Read.val_main_cst_1_apply, Ideal.ofBits_def]

/-- THE REFERENCE IS `G`: the sum of messages divided by the larger of the edge count and `1.0`. -/
theorem val_eq_G (x0 : (⟨S100000x32, .f32⟩ : BufTy).Contents (Elt Ideal))
    (x1 : (⟨S2x1600000, .i32⟩ : BufTy).Contents (Elt Ideal)) (hc : ColOk x1) :
    Cert.ReferenceIdeal.Read.val_main_v22 (F := Ideal) x0 x1 = G x0 x1 := by
  funext i
  obtain ⟨n, d, rfl⟩ : ∃ (n : Fin 100000) (d : Fin 32), i = ix2 n d := ⟨i 0, i 1, eq_ix2 i⟩
  rw [Read.val_main_v22_apply, Read.val_main_v21_apply, Read.val_main_v20_apply, Read.val_main_v19_apply,
    Read.val_main_v18_apply, Read.val_main_cst_3_apply, v13_eq x0 x1 hc]
  have hi : Read.idx_main_v20 (Read.idx_main_v21 (ix2 n d)) = ix1 n := by
    funext a
    match a with
    | ⟨0, _⟩ => exact Fin.ext rfl
  rw [hi, v17_eq, Ideal.hostDivf_def, Ideal.maximumf_def, Ideal.ofBits_def]
  rfl

/-- The reference's run ends with its result at `G` of its arguments, the arguments unchanged. -/
theorem run_G (m : (ℓ : Loc nD τ sig) → Buf (Elt Ideal) ℓ) (ρ : Dev nD → PrngReg)
    (hc : ∀ c : Dev nD, ColOk (m ((c.tc : Thread nD τ).loc main_arg1))) :
    θ_run (defs (F := Ideal)) (onTc (τ := τ) (main (F := Ideal))) ⟨m, fun _ => 0, ρ⟩ fun r => ∀ c : Dev nD,
      r.2.mem ((c.tc : Thread nD τ).loc main_v22) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono
    (fun r h c => ⟨by rw [(h c).1, Read.val_main_v22_eq, val_eq_G _ _ (hc c)], (h c).2⟩)
    (Cert.ReferenceIdeal.Value.run (F := Ideal) m ρ)

end Cert.RefSide

end
-- ==== Proof.lean ====
/-
  The certificate: a graph mean-aggregation (`out[n] = mean of x[col e] over the edges e with row e = n`, the plain
  sum at an isolated node) computed by two tiled calls — a one-hot GATHER of the source rows into a per-edge array, then
  a one-hot SCATTER of that array into per-node sums carrying a degree column, divided at the end — against the
  reference's gather and two segment sums.  Over the extended reals both are the same function `Cert.Spec.G` of the
  arguments once every column word names a node (the statement's added precondition; a row word outside the node range
  ends at no node in both programs, so the rows need nothing).  No law beyond commutativity and associativity of the
  sums, `0 · x = 0` and `1 · x = x` is used, so finiteness of the features is not needed.

  The frames: each tiled call keeps an accumulator in scratch memory across the grid's reduction axis, so its frame is
  proved point by point (`Proof/KI` for the idealized program, `Proof/K` the same text for the word-level one); the
  reference is straight-line host code.  `preserves` is trivial: the ideal pass rewrote nothing.
-/
import proofs.«414928_j58308476011188_1_alg».proof.Defs
import proofs.«414928_j58308476011188_1_alg».proof.Proof.Gen.Kernel
import proofs.«414928_j58308476011188_1_alg».proof.Proof.Gen.KernelIdeal
import proofs.«414928_j58308476011188_1_alg».proof.Proof.Gen.ReferenceIdeal
import proofs.«414928_j58308476011188_1_alg».proof.Proof.Gen.Pre_finite_inputs
import proofs.«414928_j58308476011188_1_alg».proof.Proof.Gen.ReferenceIdeal.Run
import proofs.«414928_j58308476011188_1_alg».proof.Proof.K.Main
import proofs.«414928_j58308476011188_1_alg».proof.Proof.KI.Main
import proofs.«414928_j58308476011188_1_alg».proof.Proof.PreCol
import proofs.«414928_j58308476011188_1_alg».proof.Proof.KI.Value
import proofs.«414928_j58308476011188_1_alg».proof.Proof.RefSide
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_k : Cert.frame_Kernel := fun m ρ _ => Cert.Kernel.Fr.frame m ρ
/-- So does its idealization (the same text read at the extended reals). -/
theorem frame_ki : Cert.frame_KernelIdeal := fun m ρ _ => Cert.KernelIdeal.Fr.frame m ρ
/-- The reference is straight-line host code: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the mean aggregation `Cert.Spec.G` of the arguments: the tiled program by its run and the
    value of its last buffer, the reference by its run; the precondition is used for one thing, that every column word
    names a node. -/
theorem algebraic : Cert.algebraic_KernelIdeal_ReferenceIdeal := by
  intro m ρ m' ρ' hpre hagree
  have hc : ∀ c : Dev Cert.KernelIdeal.nD, Cert.Spec.ColOk (m ((c.tc : Thread Cert.KernelIdeal.nD Cert.KernelIdeal.τ).loc Cert.KernelIdeal.main_arg1)) :=
    fun c => Cert.PreCol.colOk_of_pre _ _ (hpre c)
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · exact (θ_run (Cert.KernelIdeal.defs (F := Ideal)) _ _).mono
      (fun r h c => ⟨(h c).1.trans (Cert.KernelIdeal.Value.result_eq m c (hc c)), (h c).2.1, (h c).2.2⟩) (Cert.KernelIdeal.Fr.run_value m ρ)
  · have hc' : ∀ c : Dev Cert.ReferenceIdeal.nD, Cert.Spec.ColOk (m' ((c.tc : Thread Cert.ReferenceIdeal.nD Cert.ReferenceIdeal.τ).loc Cert.ReferenceIdeal.main_arg1)) :=
      fun c => by rw [(hagree c).2]; exact hc c
    exact (θ_run (Cert.ReferenceIdeal.defs (F := Ideal)) _ _).mono
      (fun r h c => ⟨(h c).1.trans (by rw [(hagree c).1, (hagree c).2]), (h c).2.1, (h c).2.2⟩) (Cert.RefSide.run_G m' ρ' hc')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
